-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S800000 : Shape := ⟨1, ![800000]⟩
abbrev S3x512x128 : Shape := ⟨3, ![3, 512, 128]⟩
abbrev S3x1x128 : Shape := ⟨3, ![3, 1, 128]⟩
abbrev S3x384x128 : Shape := ⟨3, ![3, 384, 128]⟩
abbrev S384x16 : Shape := ⟨2, ![384, 16]⟩
abbrev S16 : Shape := ⟨1, ![16]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x512x128 : S_.BroadcastsInDim S3x512x128 (![] : Fin 0 → Fin S3x512x128.rank)
  reducesTo_S3x512x128_S_d0_1_2 : S3x512x128.ReducesTo [0, 1, 2] S_
  bcast_S_S3x1x128 : S_.BroadcastsInDim S3x1x128 (![] : Fin 0 → Fin S3x1x128.rank)
  reducesTo_S3x1x128_S_d0_1_2 : S3x1x128.ReducesTo [0, 1, 2] S_
  bcast_S_S3x384x128 : S_.BroadcastsInDim S3x384x128 (![] : Fin 0 → Fin S3x384x128.rank)
  reducesTo_S3x384x128_S_d0_1_2 : S3x384x128.ReducesTo [0, 1, 2] S_
  bcast_S_S384x16 : S_.BroadcastsInDim S384x16 (![] : Fin 0 → Fin S384x16.rank)
  reducesTo_S384x16_S_d0_1 : S384x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg5 : FVec F S3x384x128 .f32) (main_arg6 : FVec F S3x1x128 .f32) (main_arg7 : FVec F S384x16 .f32) (main_arg8 : FVec F S16 .f32) (main_v13 : IVec S_ 1) (main_v16 : IVec S3x1x128 1) : IVec S_ 1 :=
  let main_c_5 : IVec S_ 1 := constantI S_ 1 1#1
  let main_v17 : IVec S_ 1 := (fun x v => Host.reduce IntOp.andi x v reducesTo_S3x1x128_S_d0_1_2 h_S_) main_v16 main_c_5
  let main_v18 : IVec S_ 1 := andi main_v13 main_v17
  let main_v19 : FVec F S3x384x128 .f32 := Host.absf main_arg5
  let main_cst_6 : FVec F S_ .f32 := constant S_ .f32 0x7F800000#32
  let main_v20 : FVec F S3x384x128 .f32 := broadcastInDim S3x384x128 ![] bcast_S_S3x384x128 main_cst_6
  let main_v21 : IVec S3x384x128 1 := cmpf .olt main_v19 main_v20
  let main_c_7 : IVec S_ 1 := constantI S_ 1 1#1
  let main_v22 : IVec S_ 1 := (fun x v => Host.reduce IntOp.andi x v reducesTo_S3x384x128_S_d0_1_2 h_S_) main_v21 main_c_7
  let main_v23 : IVec S_ 1 := andi main_v18 main_v22
  let main_v24 : FVec F S3x1x128 .f32 := Host.absf main_arg6
  let main_cst_8 : FVec F S_ .f32 := constant S_ .f32 0x7F800000#32
  let main_v25 : FVec F S3x1x128 .f32 := broadcastInDim S3x1x128 ![] bcast_S_S3x1x128 main_cst_8
  let main_v26 : IVec S3x1x128 1 := cmpf .olt main_v24 main_v25
  let main_c_9 : IVec S_ 1 := constantI S_ 1 1#1
  let main_v27 : IVec S_ 1 := (fun x v => Host.reduce IntOp.andi x v reducesTo_S3x1x128_S_d0_1_2 h_S_) main_v26 main_c_9
  let main_v28 : IVec S_ 1 := andi main_v23 main_v27
  let main_v29 : FVec F S384x16 .f32 := Host.absf main_arg7
  let main_cst_10 : FVec F S_ .f32 := constant S_ .f32 0x7F800000#32
  let main_v30 : FVec F S384x16 .f32 := broadcastInDim S384x16 ![] bcast_S_S384x16 main_cst_10
  let main_v31 : IVec S384x16 1 := cmpf .olt main_v29 main_v30
  let main_c_11 : IVec S_ 1 := constantI S_ 1 1#1
  let main_v32 : IVec S_ 1 := (fun x v => Host.reduce IntOp.andi x v reducesTo_S384x16_S_d0_1 h_S_) main_v31 main_c_11
  let main_v33 : IVec S_ 1 := andi main_v28 main_v32
  fn_part2 (F := F) main_arg8 main_v33

def fn {F : FTy → Type} [FloatOps F] (main_arg0 : FVec F S50000x512 .f32) (main_arg1 : IVec S2x800000 32) (main_arg2 : FVec F S800000 .f32) (main_arg3 : FVec F S3x512x128 .f32) (main_arg4 : FVec F S3x1x128 .f32) (main_arg5 : FVec F S3x384x128 .f32) (main_arg6 : FVec F S3x1x128 .f32) (main_arg7 : FVec F S384x16 .f32) (main_arg8 : FVec F S16 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x512x128 .f32 := Host.absf main_arg3
  let main_cst_2 : FVec F S_ .f32 := constant S_ .f32 0x7F800000#32
  let main_v10 : FVec F S3x512x128 .f32 := broadcastInDim S3x512x128 ![] bcast_S_S3x512x128 main_cst_2
  let main_v11 : IVec S3x512x128 1 := cmpf .olt main_v9 main_v10
  let main_c_3 : IVec S_ 1 := constantI S_ 1 1#1
  let main_v12 : IVec S_ 1 := (fun x v => Host.reduce IntOp.andi x v reducesTo_S3x512x128_S_d0_1_2 h_S_) main_v11 main_c_3
  let main_v13 : IVec S_ 1 := andi main_v8 main_v12
  let main_v14 : FVec F S3x1x128 .f32 := Host.absf main_arg4
  let main_cst_4 : FVec F S_ .f32 := constant S_ .f32 0x7F800000#32
  let main_v15 : FVec F S3x1x128 .f32 := broadcastInDim S3x1x128 ![] bcast_S_S3x1x128 main_cst_4
  let main_v16 : IVec S3x1x128 1 := cmpf .olt main_v14 main_v15
  fn_part1 (F := F) main_arg5 main_arg6 main_arg7 main_arg8 main_v13 main_v16
-- ==== Kernel.lean ====
abbrev S50000x512 : Shape := ⟨2, ![50000, 512]⟩
abbrev S2x800000 : Shape := ⟨2, ![2, 800000]⟩
abbrev S800000 : Shape := ⟨1, ![800000]⟩
abbrev S3x512x128 : Shape := ⟨3, ![3, 512, 128]⟩
abbrev S3x1x128 : Shape := ⟨3, ![3, 1, 128]⟩
abbrev S3x384x128 : Shape := ⟨3, ![3, 384, 128]⟩
abbrev S384x16 : Shape := ⟨2, ![384, 16]⟩
abbrev S16 : Shape := ⟨1, ![16]⟩
abbrev S1x512x128 : Shape := ⟨3, ![1, 512, 128]⟩
abbrev S512x128 : Shape := ⟨2, ![512, 128]⟩
abbrev S1x1x128 : Shape := ⟨3, ![1, 1, 128]⟩
abbrev S1x128 : Shape := ⟨2, ![1, 128]⟩
abbrev S50000x128 : Shape := ⟨2, ![50000, 128]⟩
abbrev S2000x512 : Shape := ⟨2, ![2000, 512]⟩
abbrev S2000x128 : Shape := ⟨2, ![2000, 128]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S3x3x128x128 : Shape := ⟨4, ![3, 3, 128, 128]⟩
abbrev S1x3x128x128 : Shape := ⟨4, ![1, 3, 128, 128]⟩
abbrev S3x128x128 : Shape := ⟨3, ![3, 128, 128]⟩
abbrev S1x128x128 : Shape := ⟨3, ![1, 128, 128]⟩
abbrev S128x128 : Shape := ⟨2, ![128, 128]⟩
abbrev S3x128x16 : Shape := ⟨3, ![3, 128, 16]⟩
abbrev S1x16 : Shape := ⟨2, ![1, 16]⟩
abbrev S50000x16 : Shape := ⟨2, ![50000, 16]⟩
abbrev S2000x16 : Shape := ⟨2, ![2000, 16]⟩
abbrev S1x128x16 : Shape := ⟨3, ![1, 128, 16]⟩
abbrev S128x16 : Shape := ⟨2, ![128, 16]⟩
abbrev S2000 : Shape := ⟨1, ![2000]⟩
abbrev S2000x1 : Shape := ⟨2, ![2000, 1]⟩

abbrev nBuf : Space → Nat
  | .hbm => 157
  | .vmem => 56
  | .smem => 0
  | _ => 0

abbrev hbmTy0_0 (i : Nat) : BufTy := match i % 128 with
  | 0 => ⟨S50000x512, .f32⟩
  | 1 => ⟨S2x800000, .i32⟩
  | 2 => ⟨S800000, .f32⟩
  | 3 => ⟨S3x512x128, .f32⟩
  | 4 => ⟨S3x1x128, .f32⟩
  | 5 => ⟨S3x384x128, .f32⟩
  | 6 => ⟨S3x1x128, .f32⟩
  | 7 => ⟨S384x16, .f32⟩
  | 8 => ⟨S16, .f32⟩
  | 9 => ⟨S1x512x128, .f32⟩
  | 10 => ⟨S512x128, .f32⟩
  | 11 => ⟨S1x1x128, .f32⟩
  | 12 => ⟨S1x128, .f32⟩
  | 13 => ⟨S50000x128, .f32⟩
  | 14 => ⟨S1x512x128, .f32⟩
  | 15 => ⟨S512x128, .f32⟩
  | 16 => ⟨S1x1x128, .f32⟩
  | 17 => ⟨S1x128, .f32⟩
  | 18 => ⟨S50000x128, .f32⟩
  | 19 => ⟨S1x800000, .i32⟩
  | 20 => ⟨S800000, .i32⟩
  | 21 => ⟨S1x800000, .i32⟩
  | 22 => ⟨S800000, .i32⟩
  | 23 => ⟨S800000x1, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S800000x128, .f32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S1x512x128, .f32⟩
  | 40 => ⟨S512x128, .f32⟩
  | 41 => ⟨S1x1x128, .f32⟩
  | 42 => ⟨S1x128, .f32⟩
  | 43 => ⟨S50000x128, .f32⟩
  | 44 => ⟨S1x800000, .i32⟩
  | 45 => ⟨S800000, .i32⟩
  | 46 => ⟨S1x800000, .i32⟩
  | 47 => ⟨S800000, .i32⟩
  | 48 => ⟨S800000x1, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S1x800000, .i32⟩
  | 65 => ⟨S800000, .i32⟩
  | 66 => ⟨S1x800000, .i32⟩
  | 67 => ⟨S800000, .i32⟩
  | 68 => ⟨S800000x1, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S800000x128, .f32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S3x3x128x128, .f32⟩
  | 85 => ⟨S1x3x128x128, .f32⟩
  | 86 => ⟨S3x128x128, .f32⟩
  | 87 => ⟨S50000x128, .f32⟩
  | 88 => ⟨S1x3x128x128, .f32⟩
  | 89 => ⟨S3x128x128, .f32⟩
  | 90 => ⟨S50000x128, .f32⟩
  | 91 => ⟨S1x800000, .i32⟩
  | 92 => ⟨S800000, .i32⟩
  | 93 => ⟨S1x800000, .i32⟩
  | 94 => ⟨S800000, .i32⟩
  | 95 => ⟨S800000x1, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S800000x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S1x3x128x128, .f32⟩
  | 112 => ⟨S3x128x128, .f32⟩
  | 113 => ⟨S50000x128, .f32⟩
  | 114 => ⟨S1x800000, .i32⟩
  | 115 => ⟨S800000, .i32⟩
  | 116 => ⟨S1x800000, .i32⟩
  | 117 => ⟨S800000, .i32⟩
  | 118 => ⟨S800000x1, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x512, .f32⟩

abbrev hbmTy0_1 (i : Nat) : BufTy := match i % 128 with
  | 0 => ⟨S800000x128, .f32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S1x800000, .i32⟩
  | 7 => ⟨S800000, .i32⟩
  | 8 => ⟨S1x800000, .i32⟩
  | 9 => ⟨S800000, .i32⟩
  | 10 => ⟨S800000x1, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S800000x128, .f32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S3x128x16, .f32⟩
  | 27 => ⟨S1x16, .f32⟩
  | 28 => ⟨S50000x16, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x512, .f32⟩
  | .local _ .vmem, ⟨7, _⟩ => ⟨S2000x512, .f32⟩
  | .local _ .vmem, ⟨8, _⟩ => ⟨S512x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x512, .f32⟩
  | .local _ .vmem, ⟨13, _⟩ => ⟨S2000x512, .f32⟩
  | .local _ .vmem, ⟨14, _⟩ => ⟨S512x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S3x128x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S3x128x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S3x128x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S3x1x128, .f32⟩
  | .local _ .vmem, ⟨52, _⟩ => ⟨S3x128x16, .f32⟩
  | .local _ .vmem, ⟨53, _⟩ => ⟨S1x16, .f32⟩
  | .local _ .vmem, ⟨54, _⟩ => ⟨S2000x16, .f32⟩
  | .local _ .vmem, ⟨55, _⟩ => ⟨S2000x16, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_1 : Ref sig .tc := ⟨.hbm, 49, rfl⟩
abbrev main_v37 : Ref sig .tc := ⟨.hbm, 50, rfl⟩
abbrev main_v38 : Ref sig .tc := ⟨.hbm, 51, rfl⟩
abbrev main_c_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_4 : Ref sig .tc := ⟨.hbm, 69, rfl⟩
abbrev main_v54 : Ref sig .tc := ⟨.hbm, 70, rfl⟩
abbrev main_v55 : Ref sig .tc := ⟨.hbm, 71, rfl⟩
abbrev main_c_5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_c_7 : Ref sig .tc := ⟨.hbm, 96, rfl⟩
abbrev main_v78 : Ref sig .tc := ⟨.hbm, 97, rfl⟩
abbrev main_v79 : Ref sig .tc := ⟨.hbm, 98, rfl⟩
abbrev main_c_8 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_9 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_c_10 : Ref sig .tc := ⟨.hbm, 119, rfl⟩
abbrev main_v98 : Ref sig .tc := ⟨.hbm, 120, rfl⟩
abbrev main_v99 : Ref sig .tc := ⟨.hbm, 121, rfl⟩
abbrev main_c_11 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_12 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_c_13 : Ref sig .tc := ⟨.hbm, 139, rfl⟩
abbrev main_v115 : Ref sig .tc := ⟨.hbm, 140, rfl⟩
abbrev main_v116 : Ref sig .tc := ⟨.hbm, 141, rfl⟩
abbrev main_c_14 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_15 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg4_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg6_0 : Ref sig .tc := ⟨.vmem, 54, rfl⟩
abbrev cc6_stg6_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem4_0 : DmaSem sig := 43
abbrev cc5_sem4_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc6_sem3_0 : DmaSem sig := 51
abbrev cc6_sem4_0 : DmaSem sig := 52
abbrev cc6_sem5_0 : DmaSem sig := 53
abbrev cc6_sem6_0 : DmaSem sig := 54
abbrev cc6_sem6_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S3x128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S3x128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S3x128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S3x1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S3x128x16 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x16 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x16 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S3x512x128_S1x512x128_0_0_0 : S3x512x128.Slices ![0, 0, 0] S1x512x128
  shapeCasts_S1x512x128_S512x128 : S1x512x128.ShapeCasts S512x128
  slices_S3x1x128_S1x1x128_0_0_0 : S3x1x128.Slices ![0, 0, 0] S1x1x128
  shapeCasts_S1x1x128_S1x128 : S1x1x128.ShapeCasts S1x128
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S3x512x128_S1x512x128_1_0_0 : S3x512x128.Slices ![1, 0, 0] S1x512x128
  slices_S3x1x128_S1x1x128_1_0_0 : S3x1x128.Slices ![1, 0, 0] S1x1x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x512x128_S1x512x128_2_0_0 : S3x512x128.Slices ![2, 0, 0] S1x512x128
  slices_S3x1x128_S1x1x128_2_0_0 : S3x1x128.Slices ![2, 0, 0] S1x1x128
  shapeCasts_S3x384x128_S3x3x128x128 : S3x384x128.ShapeCasts S3x3x128x128
  slices_S3x3x128x128_S1x3x128x128_0_0_0_0 : S3x3x128x128.Slices ![0, 0, 0, 0] S1x3x128x128
  shapeCasts_S1x3x128x128_S3x128x128 : S1x3x128x128.ShapeCasts S3x128x128
  shapeCasts_S2000x128_S2000x128 : S2000x128.ShapeCasts S2000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  slices_S3x3x128x128_S1x3x128x128_1_0_0_0 : S3x3x128x128.Slices ![1, 0, 0, 0] S1x3x128x128
  slices_S3x3x128x128_S1x3x128x128_2_0_0_0 : S3x3x128x128.Slices ![2, 0, 0, 0] S1x3x128x128
  shapeCasts_S384x16_S3x128x16 : S384x16.ShapeCasts S3x128x16
  shapeCasts_S16_S1x16 : S16.ShapeCasts S1x16
  inb_S3x1x128_S1x1x128_0_0_0 : ∀ a, (![0, 0, 0] : Fin 3 → Nat) a + S1x1x128.size a ≤ S3x1x128.size a
  h_S1x1x128 : 0 < S1x1x128.numel
  inb_S3x1x128_S1x1x128_1_0_0 : ∀ a, (![1, 0, 0] : Fin 3 → Nat) a + S1x1x128.size a ≤ S3x1x128.size a
  inb_S3x1x128_S1x1x128_2_0_0 : ∀ a, (![2, 0, 0] : Fin 3 → Nat) a + S1x1x128.size a ≤ S3x1x128.size a
  inb_S3x128x16_S1x128x16_0_0_0 : ∀ a, (![0, 0, 0] : Fin 3 → Nat) a + S1x128x16.size a ≤ S3x128x16.size a
  h_S1x128x16 : 0 < S1x128x16.numel
  shapeCasts_S1x128x16_S128x16 : S1x128x16.ShapeCasts S128x16
  inb_S3x128x16_S1x128x16_1_0_0 : ∀ a, (![1, 0, 0] : Fin 3 → Nat) a + S1x128x16.size a ≤ S3x128x16.size a
  inb_S3x128x16_S1x128x16_2_0_0 : ∀ a, (![2, 0, 0] : Fin 3 → Nat) a + S1x128x16.size a ≤ S3x128x16.size a
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  dot_S2000x512_S512x128_S2000x128_1_0_0_1_n_n_wf : DotDims.WF S2000x512 S512x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .f32 = 32 ∨ (Rect.block (s := S512x128) S512x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x128x128.size a ≤ S3x128x128.size a
  hwx3_3 : ∀ i : grid3.Coords, EltTy.bits .f32 = 32 ∨ (Rect.block (s := S3x128x128) S3x128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S3x128x128.size a ≤ S3x128x128.size a
  hwx4_3 : ∀ i : grid4.Coords, EltTy.bits .f32 = 32 ∨ (Rect.block (s := S3x128x128) S3x128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S3x128x128.size a ≤ S3x128x128.size a
  hwx5_3 : ∀ i : grid5.Coords, EltTy.bits .f32 = 32 ∨ (Rect.block (s := S3x128x128) S3x128x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S3x1x128.size a ≤ S3x1x128.size a
  hwx6_3 : ∀ i : grid6.Coords, EltTy.bits .f32 = 32 ∨ (Rect.block (s := S3x1x128) S3x1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S3x128x16.size a ≤ S3x128x16.size a
  hwx6_4 : ∀ i : grid6.Coords, EltTy.bits .f32 = 32 ∨ (Rect.block (s := S3x128x16) S3x128x16.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x16.size a ≤ S1x16.size a
  hwx6_5 : ∀ i : grid6.Coords, EltTy.bits .f32 = 32 ∨ (Rect.block (s := S1x16) S1x16.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x16.size a ≤ S50000x16.size a
  hwx6_6 : ∀ i : grid6.Coords, EltTy.bits .f32 = 32 ∨ (Rect.block (s := S50000x16) S2000x16.size (cc6_transform_6 i) (hinb6_6 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S512x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v4) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v68) S3x128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v4) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v71) S3x128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v4) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v65) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v91) S3x128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v69) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v89) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v126) S2000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg6) S3x1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v127) S3x128x16.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v128) S1x16.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v129) S2000x16.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S800000 : Shape := ⟨1, ![800000]⟩
abbrev S3x512x128 : Shape := ⟨3, ![3, 512, 128]⟩
abbrev S3x1x128 : Shape := ⟨3, ![3, 1, 128]⟩
abbrev S3x384x128 : Shape := ⟨3, ![3, 384, 128]⟩
abbrev S384x16 : Shape := ⟨2, ![384, 16]⟩
abbrev S16 : Shape := ⟨1, ![16]⟩
abbrev S1x512x128 : Shape := ⟨3, ![1, 512, 128]⟩
abbrev S512x128 : Shape := ⟨2, ![512, 128]⟩
abbrev S50000x128 : Shape := ⟨2, ![50000, 128]⟩
abbrev S1x1x128 : Shape := ⟨3, ![1, 1, 128]⟩
abbrev S1x128 : Shape := ⟨2, ![1, 128]⟩
abbrev S_ : Shape := ⟨0, ![]⟩
abbrev S1x800000 : Shape := ⟨2, ![1, 800000]⟩
abbrev S800000x1 : Shape := ⟨2, ![800000, 1]⟩
abbrev S800000x128 : Shape := ⟨2, ![800000, 128]⟩
abbrev S50000x384 : Shape := ⟨2, ![50000, 384]⟩
abbrev S1x384x128 : Shape := ⟨3, ![1, 384, 128]⟩
abbrev S384x128 : Shape := ⟨2, ![384, 128]⟩
abbrev S50000x16 : Shape := ⟨2, ![50000, 16]⟩
abbrev S1x16 : Shape := ⟨2, ![1, 16]⟩
abbrev S50000 : Shape := ⟨1, ![50000]⟩
abbrev S50000x1 : Shape := ⟨2, ![50000, 1]⟩

abbrev nBuf : Space → Nat
  | .hbm => 201
  | .vmem => 0
  | .smem => 0
  | _ => 0

abbrev hbmTy0_0 (i : Nat) : BufTy := match i % 128 with
  | 0 => ⟨S50000x512, .f32⟩
  | 1 => ⟨S2x800000, .i32⟩
  | 2 => ⟨S800000, .f32⟩
  | 3 => ⟨S3x512x128, .f32⟩
  | 4 => ⟨S3x1x128, .f32⟩
  | 5 => ⟨S3x384x128, .f32⟩
  | 6 => ⟨S3x1x128, .f32⟩
  | 7 => ⟨S384x16, .f32⟩
  | 8 => ⟨S16, .f32⟩
  | 9 => ⟨S1x512x128, .f32⟩
  | 10 => ⟨S512x128, .f32⟩
  | 11 => ⟨S50000x128, .f32⟩
  | 12 => ⟨S1x1x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S1x512x128, .f32⟩
  | 20 => ⟨S512x128, .f32⟩
  | 21 => ⟨S50000x128, .f32⟩
  | 22 => ⟨S1x1x128, .f32⟩
  | 23 => ⟨S1x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S1x800000, .i32⟩
  | 30 => ⟨S800000, .i32⟩
  | 31 => ⟨S1x800000, .i32⟩
  | 32 => ⟨S800000, .i32⟩
  | 33 => ⟨S800000x1, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S800000x128, .f32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S1x512x128, .f32⟩
  | 50 => ⟨S512x128, .f32⟩
  | 51 => ⟨S50000x128, .f32⟩
  | 52 => ⟨S1x1x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S1x800000, .i32⟩
  | 60 => ⟨S800000, .i32⟩
  | 61 => ⟨S1x800000, .i32⟩
  | 62 => ⟨S800000, .i32⟩
  | 63 => ⟨S800000x1, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S800000x128, .f32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S1x800000, .i32⟩
  | 80 => ⟨S800000, .i32⟩
  | 81 => ⟨S1x800000, .i32⟩
  | 82 => ⟨S800000, .i32⟩
  | 83 => ⟨S800000x1, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S800000x128, .f32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S50000x384, .f32⟩
  | 100 => ⟨S1x384x128, .f32⟩
  | 101 => ⟨S384x128, .f32⟩
  | 102 => ⟨S50000x128, .f32⟩
  | 103 => ⟨S1x1x128, .f32⟩
  | 104 => ⟨S1x128, .f32⟩
  | 105 => ⟨S50000x128, .f32⟩
  | 106 => ⟨S50000x128, .f32⟩
  | 107 => ⟨S1x384x128, .f32⟩
  | 108 => ⟨S384x128, .f32⟩
  | 109 => ⟨S50000x128, .f32⟩
  | 110 => ⟨S1x800000, .i32⟩
  | 111 => ⟨S800000, .i32⟩
  | 112 => ⟨S1x800000, .i32⟩
  | 113 => ⟨S800000, .i32⟩
  | 114 => ⟨S800000x1, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S800000x128, .f32⟩
  | 125 => ⟨S800000x128, .f32⟩
  | 126 => ⟨S_, .f32⟩
  | 127 => ⟨S50000x128, .f32⟩
  | _ => ⟨S50000x512, .f32⟩

abbrev hbmTy0_1 (i : Nat) : BufTy := match i % 128 with
  | 0 => ⟨S800000x1, .i32⟩
  | 1 => ⟨S50000x128, .f32⟩
  | 2 => ⟨S1x1x128, .f32⟩
  | 3 => ⟨S1x128, .f32⟩
  | 4 => ⟨S50000x128, .f32⟩
  | 5 => ⟨S50000x128, .f32⟩
  | 6 => ⟨S1x384x128, .f32⟩
  | 7 => ⟨S384x128, .f32⟩
  | 8 => ⟨S50000x128, .f32⟩
  | 9 => ⟨S1x800000, .i32⟩
  | 10 => ⟨S800000, .i32⟩
  | 11 => ⟨S1x800000, .i32⟩
  | 12 => ⟨S800000, .i32⟩
  | 13 => ⟨S800000x1, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S1x800000, .i32⟩
  | 30 => ⟨S800000, .i32⟩
  | 31 => ⟨S1x800000, .i32⟩
  | 32 => ⟨S800000, .i32⟩
  | 33 => ⟨S800000x1, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S800000x128, .f32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S1x1x128, .f32⟩
  | 50 => ⟨S1x128, .f32⟩
  | 51 => ⟨S50000x128, .f32⟩
  | 52 => ⟨S50000x128, .f32⟩
  | 53 => ⟨S50000x384, .f32⟩
  | 54 => ⟨S50000x16, .f32⟩
  | 55 => ⟨S1x16, .f32⟩
  | 56 => ⟨S50000x16, .f32⟩
  | 57 => ⟨S50000x16, .f32⟩
  | 58 => ⟨S_, .f32⟩
  | 59 => ⟨S50000, .f32⟩
  | 60 => ⟨S_, .f32⟩
  | 61 => ⟨S50000, .f32⟩
  | 62 => ⟨S50000, .f32⟩
  | 63 => ⟨S50000x1, .f32⟩
  | 64 => ⟨S50000x16, .f32⟩
  | 65 => ⟨S50000x16, .f32⟩
  | 66 => ⟨S50000x16, .f32⟩
  | 67 => ⟨S_, .f32⟩
  | 68 => ⟨S50000, .f32⟩
  | 69 => ⟨S50000x1, .f32⟩
  | 70 => ⟨S50000x1, .f32⟩
  | 71 => ⟨S50000x16, .f32⟩
  | 72 => ⟨S50000x16, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_cst : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call2_cst : Ref sig .tc := ⟨.hbm, 56, rfl⟩
abbrev main_call2_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_1 : Ref sig .tc := ⟨.hbm, 64, rfl⟩
abbrev main_v46 : Ref sig .tc := ⟨.hbm, 65, rfl⟩
abbrev main_v47 : Ref sig .tc := ⟨.hbm, 66, rfl⟩
abbrev main_c_2 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_3 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_4 : Ref sig .tc := ⟨.hbm, 84, rfl⟩
abbrev main_v63 : Ref sig .tc := ⟨.hbm, 85, rfl⟩
abbrev main_v64 : Ref sig .tc := ⟨.hbm, 86, rfl⟩
abbrev main_c_5 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_6 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_c_7 : Ref sig .tc := ⟨.hbm, 115, rfl⟩
abbrev main_v91 : Ref sig .tc := ⟨.hbm, 116, rfl⟩
abbrev main_v92 : Ref sig .tc := ⟨.hbm, 117, rfl⟩
abbrev main_c_8 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_9 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_c_10 : Ref sig .tc := ⟨.hbm, 142, rfl⟩
abbrev main_v115 : Ref sig .tc := ⟨.hbm, 143, rfl⟩
abbrev main_v116 : Ref sig .tc := ⟨.hbm, 144, rfl⟩
abbrev main_c_11 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_12 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_c_13 : Ref sig .tc := ⟨.hbm, 162, rfl⟩
abbrev main_v132 : Ref sig .tc := ⟨.hbm, 163, rfl⟩
abbrev main_v133 : Ref sig .tc := ⟨.hbm, 164, rfl⟩
abbrev main_c_14 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_cst_15 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_call3_cst : Ref sig .tc := ⟨.hbm, 186, rfl⟩
abbrev main_call3_v0 : Ref sig .tc := ⟨.hbm, 187, rfl⟩
abbrev main_call3_cst_0 : Ref sig .tc := ⟨.hbm, 188, rfl⟩
abbrev main_call3_v1 : Ref sig .tc := ⟨.hbm, 189, rfl⟩
abbrev main_call3_v2 : Ref sig .tc := ⟨.hbm, 190, rfl⟩
abbrev main_call3_v3 : Ref sig .tc := ⟨.hbm, 191, rfl⟩
abbrev main_call3_v4 : Ref sig .tc := ⟨.hbm, 192, rfl⟩
abbrev main_call3_v5 : Ref sig .tc := ⟨.hbm, 193, rfl⟩
abbrev main_call3_v6 : Ref sig .tc := ⟨.hbm, 194, rfl⟩
abbrev main_call3_cst_1 : Ref sig .tc := ⟨.hbm, 195, rfl⟩
abbrev main_call3_v7 : Ref sig .tc := ⟨.hbm, 196, rfl⟩
abbrev main_call3_v8 : Ref sig .tc := ⟨.hbm, 197, rfl⟩
abbrev main_call3_v9 : Ref sig .tc := ⟨.hbm, 198, rfl⟩
abbrev main_call3_v10 : Ref sig .tc := ⟨.hbm, 199, rfl⟩
abbrev main_v153 : Ref sig .tc := ⟨.hbm, 200, rfl⟩

abbrev nD : Nat := 1
abbrev τ : Topo := Topo.v7x

variable {F : FTy → Type} [FloatOps F]

class Facts₀ : Prop where
  slices_S3x512x128_S1x512x128_0_0_0 : S3x512x128.Slices ![0, 0, 0] S1x512x128
  shapeCasts_S1x512x128_S512x128 : S1x512x128.ShapeCasts S512x128
  slices_S3x1x128_S1x1x128_0_0_0 : S3x1x128.Slices ![0, 0, 0] S1x1x128
  shapeCasts_S1x1x128_S1x128 : S1x1x128.ShapeCasts S1x128
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x512x128_S1x512x128_1_0_0 : S3x512x128.Slices ![1, 0, 0] S1x512x128
  slices_S3x1x128_S1x1x128_1_0_0 : S3x1x128.Slices ![1, 0, 0] S1x1x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  slices_S3x512x128_S1x512x128_2_0_0 : S3x512x128.Slices ![2, 0, 0] S1x512x128
  slices_S3x1x128_S1x1x128_2_0_0 : S3x1x128.Slices ![2, 0, 0] S1x1x128
  concatenates_S50000x128_S50000x128_S50000x128_S50000x384_d1 : Shape.Concatenates [S50000x128, S50000x128, S50000x128] S50000x384 1
  slices_S3x384x128_S1x384x128_0_0_0 : S3x384x128.Slices ![0, 0, 0] S1x384x128
  shapeCasts_S1x384x128_S384x128 : S1x384x128.ShapeCasts S384x128
  slices_S3x384x128_S1x384x128_1_0_0 : S3x384x128.Slices ![1, 0, 0] S1x384x128
  slices_S3x384x128_S1x384x128_2_0_0 : S3x384x128.Slices ![2, 0, 0] S1x384x128
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x384_S384x128_S50000x128_1_0_0_1_n_n_wf : DotDims.WF S50000x384 S384x128 S50000x128 [1] [0] [0] [1] [] []
  dot_S50000x384_S384x16_S50000x16_1_0_0_1_n_n_wf : DotDims.WF S50000x384 S384x16 S50000x16 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S50000x384_S384x16_S50000x16_1_0_0_1_n_n : DotDims S50000x384 S384x16 S50000x16 where
  lhsContracting := [1]
  rhsContracting := [0]
  lhsNonContracting := [0]
  rhsNonContracting := [1]
  lhsBatch := []
  rhsBatch := []
  wf := dot_S50000x384_S384x16_S50000x16_1_0_0_1_n_n_wf

class Facts : Prop extends Facts₀ where

variable [Facts]
-- ==== Proof.LibStretch.lean ====
/-
  A long straight line of host operations read at one buffer, stretch by stretch.

  When each operation of the line writes exactly one buffer, and the list of those result references is known, "no
  operation from position k on writes r" is one membership test in a list of references. A buffer that is not
  written from position k on holds after the whole line what it holds after the first k operations; cutting once
  more at i ≤ k, it holds what the operations i … k-1 leave when run from the contents the first i left. A proof
  reads a long line this way: it names the contents after a prefix, runs a short stretch over them, and reads the
  stretch's inputs back as the whole line's contents (they are not written again either).
-/
import Mathlib.Data.List.Forall2
import Idealize.ShloMosaic.Lib.StableHlo.Run

namespace Cert.LibStretch

open Idealize.ShloMosaic Idealize.ShloMosaic.StableHlo

variable {τ : Topo} {sig : RefSig} {Val : EltTy → Type}

/-- Operation by operation, the line writes exactly the buffers of the references ys. -/
def WritesAre (ops : List (HloOp τ sig Val)) (ys : List (Ref sig .tc)) : Prop :=
  List.Forall₂ (fun op y => op.writes = {Proc.devRef .tc y}) ops ys

/-- A reference outside the list is written by no operation of the line. -/
theorem not_mem_writes {ops : List (HloOp τ sig Val)} {ys : List (Ref sig .tc)} (h : WritesAre ops ys)
    {r : Ref sig .tc} (hr : r ∉ ys) : ∀ op ∈ ops, Proc.devRef (τ := τ) .tc r ∉ op.writes := by
  induction h with
  | nil => intro op hop; exact absurd hop List.not_mem_nil
  | cons hxy _ ih =>
    intro op hop
    rcases List.mem_cons.mp hop with e | hop
    · subst e
      rw [hxy, Finset.mem_singleton]
      exact devRef_ne_of_ne fun e => hr (e ▸ List.mem_cons_self)
    · exact ih (fun hm => hr (List.mem_cons_of_mem _ hm)) op hop

/-- Two lines run one after the other. -/
theorem after_cat : ∀ (l₁ l₂ : List (HloOp τ sig Val)) (W : Valuation τ sig Val),
    after (l₁ ++ l₂) W = after l₂ (after l₁ W)
  | [], _, _ => rfl
  | op :: l₁, l₂, W => by rw [List.cons_append, after_cons, after_cons, after_cat l₁ l₂]

/-- The contents after the first i operations of the line (a name of its own, so that a proof can set the prefix aside
    as one object while it computes with a stretch that follows it). -/
def pre (ops : List (HloOp τ sig Val)) (i : Nat) (W : Valuation τ sig Val) : Valuation τ sig Val := after (ops.take i) W

/-- A buffer no operation from position k on writes holds, after the line, what it holds after the first k. -/
theorem after_eq_take {ops : List (HloOp τ sig Val)} {ys : List (Ref sig .tc)} (h : WritesAre ops ys) (k : Nat)
    (W : Valuation τ sig Val) (r : Ref sig .tc) (hr : r ∉ ys.drop k) :
    after ops W (Proc.devRef .tc r) = after (ops.take k) W (Proc.devRef .tc r) := by
  conv_lhs => rw [← List.take_append_drop k ops]
  rw [after_cat, after_of_forall_not_mem _ _ (not_mem_writes (List.forall₂_drop k h) hr)]

/-- The same, the prefix named. -/
theorem after_eq_pre {ops : List (HloOp τ sig Val)} {ys : List (Ref sig .tc)} (h : WritesAre ops ys) (k : Nat)
    (W : Valuation τ sig Val) (r : Ref sig .tc) (hr : r ∉ ys.drop k) :
    after ops W (Proc.devRef .tc r) = pre ops k W (Proc.devRef .tc r) :=
  after_eq_take h k W r hr

/-- The same, cut once more at i ≤ k: the operations i … k-1 run from what the first i left. -/
theorem after_eq_stretch {ops : List (HloOp τ sig Val)} {ys : List (Ref sig .tc)} (h : WritesAre ops ys) (i k : Nat)
    (hik : i ≤ k) (W : Valuation τ sig Val) (r : Ref sig .tc) (hr : r ∉ ys.drop k) :
    after ops W (Proc.devRef .tc r) = after ((ops.take k).drop i) (pre ops i W) (Proc.devRef .tc r) := by
  rw [after_eq_take h k W r hr]
  conv_lhs => rw [← List.take_append_drop i (ops.take k)]
  rw [after_cat, List.take_take, Nat.min_eq_left hik]
  rfl

end Cert.LibStretch
-- ==== Proof.LibSsa.lean ====
/-
  A straight line of host operations in single-assignment form, read one operation at a time.

  When each operation of a line writes exactly one buffer and the list of the written references is known, the line
  is in single-assignment form where every reference occurs once in that list. The contents of the buffer the
  operation at position k writes are then, after the WHOLE line, that operation's function applied to the contents,
  after the WHOLE line, of its operand buffers: the result buffer is not written again after position k, so it keeps
  what the operation gave it; and no operand is written at or after position k, so what the operation read (the
  contents after the first k operations) is what the operand still holds at the end. Both side conditions are
  membership tests in a tail of the list of written references. One such one-step equation per kind of operation
  (no operand, one, two, three, a reshape) turns a long line into a system of equations between final contents,
  each of which mentions only final contents.
-/
import proofs.«417311_j57097295233451_3_alg».proof.Proof.LibStretch

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- A buffer not written after position k holds, after the line, what the operation at position k leaves in it when
    run from the contents after the first k operations. -/
theorem after_at (h : WritesAre ops ys) (k : Nat) (W : Valuation τ sig Val) (op : HloOp τ sig Val)
    (hop : ops[k]? = some op) (y : Ref sig .tc) (hy : y ∉ ys.drop (k + 1)) :
    after ops W (Proc.devRef .tc y) = op.result (after (ops.take k) W) (Proc.devRef .tc y) := by
  rw [after_eq_take h (k + 1) W y hy, List.take_succ, hop, Option.toList_some, after_cat, after_cons, after_nil]

/-- A buffer not written at or after position k holds after the first k operations what it holds after the line. -/
theorem read_take (h : WritesAre ops ys) (k : Nat) (W : Valuation τ sig Val) (x : Ref sig .tc)
    (hx : x ∉ ys.drop k) :
    after (ops.take k) W (Proc.devRef .tc x) = after ops W (Proc.devRef .tc x) :=
  (after_eq_take h k W x hx).symm

/-- A reference the line never writes keeps its contents. -/
theorem keeps (h : WritesAre ops ys) (W : Valuation τ sig Val) (r : Ref sig .tc) (hr : r ∉ ys) :
    after ops W (Proc.devRef .tc r) = W (Proc.devRef .tc r) :=
  after_of_forall_not_mem ops W (not_mem_writes h hr)

/-- One step, no operand: the result buffer of a constant at position k, not written again, holds the constant. -/
theorem at_nullary (h : WritesAre ops ys) (k : Nat) (W : Valuation τ sig Val) {y : Ref sig .tc}
    (v : y.ty.Contents Val) (hy0) (hop : ops[k]? = some (nullary y v hy0)) (hy : y ∉ ys.drop (k + 1)) :
    after ops W (Proc.devRef .tc y) = v := by
  rw [after_at h k W _ hop y hy]; exact nullary_result y v hy0 _

/-- One step, one operand: the result buffer holds the function of the operand's final contents. -/
theorem at_unary (h : WritesAre ops ys) (k : Nat) (W : Valuation τ sig Val) {x y : Ref sig .tc}
    (f : x.ty.Contents Val → y.ty.Contents Val) (hx0 hy0) (hop : ops[k]? = some (unary x y f hx0 hy0))
    (hy : y ∉ ys.drop (k + 1)) (hx : x ∉ ys.drop k) :
    after ops W (Proc.devRef .tc y) = f (after ops W (Proc.devRef .tc x)) := by
  rw [after_at h k W _ hop y hy, ← read_take h k W x hx]; exact unary_result x y f hx0 hy0 _

/-- One step, two operands: the result buffer holds the function of the two operands' final contents. -/
theorem at_binary (h : WritesAre ops ys) (k : Nat) (W : Valuation τ sig Val) {a b y : Ref sig .tc}
    (f : a.ty.Contents Val → b.ty.Contents Val → y.ty.Contents Val) (ha0 hb0 hy0)
    (hop : ops[k]? = some (binary a b y f ha0 hb0 hy0))
    (hy : y ∉ ys.drop (k + 1)) (ha : a ∉ ys.drop k) (hb : b ∉ ys.drop k) :
    after ops W (Proc.devRef .tc y) = f (after ops W (Proc.devRef .tc a)) (after ops W (Proc.devRef .tc b)) := by
  rw [after_at h k W _ hop y hy, ← read_take h k W a ha, ← read_take h k W b hb]
  exact binary_result a b y f ha0 hb0 hy0 _

/-- One step, three operands: the result buffer holds the function of the three operands' final contents. -/
theorem at_ternary (h : WritesAre ops ys) (k : Nat) (W : Valuation τ sig Val) {c a b y : Ref sig .tc}
    (f : c.ty.Contents Val → a.ty.Contents Val → b.ty.Contents Val → y.ty.Contents Val) (hc0 ha0 hb0 hy0)
    (hop : ops[k]? = some (ternary c a b y f hc0 ha0 hb0 hy0))
    (hy : y ∉ ys.drop (k + 1)) (hc : c ∉ ys.drop k) (ha : a ∉ ys.drop k) (hb : b ∉ ys.drop k) :
    after ops W (Proc.devRef .tc y)
      = f (after ops W (Proc.devRef .tc c)) (after ops W (Proc.devRef .tc a)) (after ops W (Proc.devRef .tc b)) := by
  rw [after_at h k W _ hop y hy, ← read_take h k W c hc, ← read_take h k W a ha, ← read_take h k W b hb]
  exact ternary_result c a b y f hc0 ha0 hb0 hy0 _

/-- One step, a reshape: the result buffer holds the operand's final contents, in row-major order at its own shape. -/
theorem at_reshape (h : WritesAre ops ys) (k : Nat) (W : Valuation τ sig Val) {x y : Ref sig .tc}
    (he : x.ty.elt = y.ty.elt) (hn : x.ty.shape.ShapeCasts y.ty.shape) (hx0 hy0)
    (hop : ops[k]? = some (reshape x y he hn hx0 hy0)) (hy : y ∉ ys.drop (k + 1)) (hx : x ∉ ys.drop k) :
    after ops W (Proc.devRef .tc y) = fun i => he ▸ shapeCast y.ty.shape (after ops W (Proc.devRef .tc x)) hn i := by
  rw [after_at h k W _ hop y hy, ← read_take h k W x hx]; exact reshape_result x y he hn hx0 hy0 _

/-- Proves that a literal line writes, operation by operation, the references of a literal list of the same length:
    each step is the operation's set of written buffers, by computation. -/
macro "writes_are" : tactic =>
  `(tactic| (unfold Cert.LibStretch.WritesAre
             repeat (first | exact List.Forall₂.nil | refine List.Forall₂.cons rfl ?_)))

end Cert.LibSsa
-- ==== Proof.Stable.lean ====
import proofs.«417311_j57097295233451_3_alg».proof.Proof.Gen.KernelIdeal.Frame
import proofs.«417311_j57097295233451_3_alg».proof.Proof.LibStretch
import proofs.«417311_j57097295233451_3_alg».proof.Proof.LibSsa

noncomputable section

namespace Cert.KernelIdeal.Walk

open Cert.KernelIdeal Cert.KernelIdeal.Gen Idealize.ShloMosaic Idealize.ShloMosaic.TcCoe Idealize.SL.Sem
open Idealize.ShloMosaic.Pipeline (Dat)
open Cert.LibStretch Cert.LibSsa

variable {F : FTy → Type} [FloatOps F]
variable (m : (ℓ : Loc nD τ sig) → Buf (Elt F) ℓ) (ρ : Dev nD → PrngReg)

/-! ## Which buffers each stretch of host operations writes, operation by operation -/

/-- The buffers the operations of host stretch 0 write, in order. -/
abbrev ys0 : List (Ref sig .tc) :=
  [
    main_v0, main_v1, main_v2, main_v3 ]

theorem writes0 : WritesAre (hostOps0 : List (HloOp τ sig (Elt F))) ys0 := by
  writes_are

/-- The buffers the operations of host stretch 1 write, in order. -/
abbrev ys1 : List (Ref sig .tc) :=
  [
    main_v5, main_v6, main_v7, main_v8 ]

theorem writes1 : WritesAre (hostOps1 : List (HloOp τ sig (Elt F))) ys1 := by
  writes_are

/-- The buffers the operations of host stretch 2 write, in order. -/
abbrev ys2 : List (Ref sig .tc) :=
  [
    main_v10, main_v11, main_v12, main_v13, main_v14, main_c, main_v15, main_v16,
    main_c_0, main_v17, main_v18, main_v19, main_v20, main_v21, main_v22, main_v23,
    main_cst, main_v24, main_v25, main_v26, main_v27, main_v28, main_v29, main_v30 ]

theorem writes2 : WritesAre (hostOps2 : List (HloOp τ sig (Elt F))) ys2 := by
  writes_are

/-- The buffers the operations of host stretch 3 write, in order. -/
abbrev ys3 : List (Ref sig .tc) :=
  [
    main_v32, main_v33, main_v34, main_v35, main_v36, main_c_1, main_v37, main_v38,
    main_c_2, main_v39, main_v40, main_v41, main_v42, main_v43, main_v44, main_v45,
    main_cst_3, main_v46, main_v47, main_v48, main_v49, main_v50, main_v51, main_v52,
    main_v53, main_c_4, main_v54, main_v55, main_c_5, main_v56, main_v57, main_v58,
    main_v59, main_v60, main_v61, main_v62, main_cst_6, main_v63, main_v64, main_v65,
    main_v66, main_v67, main_v68 ]

theorem writes3 : WritesAre (hostOps3 : List (HloOp τ sig (Elt F))) ys3 := by
  writes_are

/-- The buffers the operations of host stretch 4 write, in order. -/
abbrev ys4 : List (Ref sig .tc) :=
  [
    main_v70, main_v71 ]

theorem writes4 : WritesAre (hostOps4 : List (HloOp τ sig (Elt F))) ys4 := by
  writes_are

/-- The buffers the operations of host stretch 5 write, in order. -/
abbrev ys5 : List (Ref sig .tc) :=
  [
    main_v73, main_v74, main_v75, main_v76, main_v77, main_c_7, main_v78, main_v79,
    main_c_8, main_v80, main_v81, main_v82, main_v83, main_v84, main_v85, main_v86,
    main_cst_9, main_v87, main_v88, main_v89, main_v90, main_v91 ]

theorem writes5 : WritesAre (hostOps5 : List (HloOp τ sig (Elt F))) ys5 := by
  writes_are

/-- The buffers the operations of host stretch 6 write, in order. -/
abbrev ys6 : List (Ref sig .tc) :=
  [
    main_v93, main_v94, main_v95, main_v96, main_v97, main_c_10, main_v98, main_v99,
    main_c_11, main_v100, main_v101, main_v102, main_v103, main_v104, main_v105, main_v106,
    main_cst_12, main_v107, main_v108, main_v109, main_v110, main_v111, main_v112, main_v113,
    main_v114, main_c_13, main_v115, main_v116, main_c_14, main_v117, main_v118, main_v119,
    main_v120, main_v121, main_v122, main_v123, main_cst_15, main_v124, main_v125, main_v126,
    main_v127, main_v128 ]

theorem writes6 : WritesAre (hostOps6 : List (HloOp τ sig (Elt F))) ys6 := by
  writes_are

/-! ## The buffers written from a boundary on

The program is fourteen segments: host stretch k takes boundary 2k to boundary 2k+1, region k takes boundary 2k+1 to
boundary 2k+2, which writes its one output array. `L j` lists every buffer written by segment j or a later one. -/

abbrev L13 : List (Ref sig .tc) := [main_v129]
abbrev L12 : List (Ref sig .tc) := ys6 ++ L13
abbrev L11 : List (Ref sig .tc) := main_v92 :: L12
abbrev L10 : List (Ref sig .tc) := ys5 ++ L11
abbrev L9 : List (Ref sig .tc) := main_v72 :: L10
abbrev L8 : List (Ref sig .tc) := ys4 ++ L9
abbrev L7 : List (Ref sig .tc) := main_v69 :: L8
abbrev L6 : List (Ref sig .tc) := ys3 ++ L7
abbrev L5 : List (Ref sig .tc) := main_v31 :: L6
abbrev L4 : List (Ref sig .tc) := ys2 ++ L5
abbrev L3 : List (Ref sig .tc) := main_v9 :: L4
abbrev L2 : List (Ref sig .tc) := ys1 ++ L3
abbrev L1 : List (Ref sig .tc) := main_v4 :: L2
abbrev L0 : List (Ref sig .tc) := ys0 ++ L1

/-! ## One segment leaves every buffer it does not write as it was -/

/-- Host stretch 0 leaves a buffer it does not write as it found it. -/
theorem host_keeps0 (c : Dev nD) (b : Ref sig .tc) (h : b ∉ ys0) :
    W1 m ρ c (Proc.devRef .tc b) = W0 m ρ c (Proc.devRef .tc b) := by
  exact keeps writes0 (W0 m ρ c) b h

/-- Region 0 leaves every buffer but its output array as it found it: an input window's array is staged and never
    written back, and no other buffer is touched. -/
theorem region_keeps0 (c : Dev nD) (b : Ref sig .tc) (h : b ≠ main_v4) :
    W2 m ρ c (Proc.devRef .tc b) = W1 m ρ c (Proc.devRef .tc b) := by
  by_cases hb : ∃ w, Pipeline.arrRef spec0 w = b
  · obtain ⟨w, rfl⟩ := hb
    have key : ∀ w : Fin 4, Pipeline.arrRef spec0 w ≠ main_v4 → (cfg0.win w).isOut = false := by decide
    exact (W2_arr m ρ c w).trans
      (((dat0 (V1 m ρ) c).arrAt_in w (key w h) _).trans (A_eq0 (V1 m ρ) c w))
  · exact W2_of_ne m ρ c b fun w e => hb ⟨w, e⟩

/-- Host stretch 1 leaves a buffer it does not write as it found it. -/
theorem host_keeps1 (c : Dev nD) (b : Ref sig .tc) (h : b ∉ ys1) :
    W3 m ρ c (Proc.devRef .tc b) = W2 m ρ c (Proc.devRef .tc b) := by
  exact keeps writes1 (W2 m ρ c) b h

/-- Region 1 leaves every buffer but its output array as it found it: an input window's array is staged and never
    written back, and no other buffer is touched. -/
theorem region_keeps1 (c : Dev nD) (b : Ref sig .tc) (h : b ≠ main_v9) :
    W4 m ρ c (Proc.devRef .tc b) = W3 m ρ c (Proc.devRef .tc b) := by
  by_cases hb : ∃ w, Pipeline.arrRef spec1 w = b
  · obtain ⟨w, rfl⟩ := hb
    have key : ∀ w : Fin 4, Pipeline.arrRef spec1 w ≠ main_v9 → (cfg1.win w).isOut = false := by decide
    exact (W4_arr m ρ c w).trans
      (((dat1 (V3 m ρ) c).arrAt_in w (key w h) _).trans (A_eq1 (V3 m ρ) c w))
  · exact W4_of_ne m ρ c b fun w e => hb ⟨w, e⟩

/-- Host stretch 2 leaves a buffer it does not write as it found it. -/
theorem host_keeps2 (c : Dev nD) (b : Ref sig .tc) (h : b ∉ ys2) :
    W5 m ρ c (Proc.devRef .tc b) = W4 m ρ c (Proc.devRef .tc b) := by
  exact keeps writes2 (W4 m ρ c) b h

/-- Region 2 leaves every buffer but its output array as it found it: an input window's array is staged and never
    written back, and no other buffer is touched. -/
theorem region_keeps2 (c : Dev nD) (b : Ref sig .tc) (h : b ≠ main_v31) :
    W6 m ρ c (Proc.devRef .tc b) = W5 m ρ c (Proc.devRef .tc b) := by
  by_cases hb : ∃ w, Pipeline.arrRef spec2 w = b
  · obtain ⟨w, rfl⟩ := hb
    have key : ∀ w : Fin 4, Pipeline.arrRef spec2 w ≠ main_v31 → (cfg2.win w).isOut = false := by decide
    exact (W6_arr m ρ c w).trans
      (((dat2 (V5 m ρ) c).arrAt_in w (key w h) _).trans (A_eq2 (V5 m ρ) c w))
  · exact W6_of_ne m ρ c b fun w e => hb ⟨w, e⟩

/-- Host stretch 3 leaves a buffer it does not write as it found it. -/
theorem host_keeps3 (c : Dev nD) (b : Ref sig .tc) (h : b ∉ ys3) :
    W7 m ρ c (Proc.devRef .tc b) = W6 m ρ c (Proc.devRef .tc b) := by
  exact keeps writes3 (W6 m ρ c) b h

/-- Region 3 leaves every buffer but its output array as it found it: an input window's array is staged and never
    written back, and no other buffer is touched. -/
theorem region_keeps3 (c : Dev nD) (b : Ref sig .tc) (h : b ≠ main_v69) :
    W8 m ρ c (Proc.devRef .tc b) = W7 m ρ c (Proc.devRef .tc b) := by
  by_cases hb : ∃ w, Pipeline.arrRef spec3 w = b
  · obtain ⟨w, rfl⟩ := hb
    have key : ∀ w : Fin 5, Pipeline.arrRef spec3 w ≠ main_v69 → (cfg3.win w).isOut = false := by decide
    exact (W8_arr m ρ c w).trans
      (((dat3 (V7 m ρ) c).arrAt_in w (key w h) _).trans (A_eq3 (V7 m ρ) c w))
  · exact W8_of_ne m ρ c b fun w e => hb ⟨w, e⟩

/-- Host stretch 4 leaves a buffer it does not write as it found it. -/
theorem host_keeps4 (c : Dev nD) (b : Ref sig .tc) (h : b ∉ ys4) :
    W9 m ρ c (Proc.devRef .tc b) = W8 m ρ c (Proc.devRef .tc b) := by
  exact keeps writes4 (W8 m ρ c) b h

/-- Region 4 leaves every buffer but its output array as it found it: an input window's array is staged and never
    written back, and no other buffer is touched. -/
theorem region_keeps4 (c : Dev nD) (b : Ref sig .tc) (h : b ≠ main_v72) :
    W10 m ρ c (Proc.devRef .tc b) = W9 m ρ c (Proc.devRef .tc b) := by
  by_cases hb : ∃ w, Pipeline.arrRef spec4 w = b
  · obtain ⟨w, rfl⟩ := hb
    have key : ∀ w : Fin 5, Pipeline.arrRef spec4 w ≠ main_v72 → (cfg4.win w).isOut = false := by decide
    exact (W10_arr m ρ c w).trans
      (((dat4 (V9 m ρ) c).arrAt_in w (key w h) _).trans (A_eq4 (V9 m ρ) c w))
  · exact W10_of_ne m ρ c b fun w e => hb ⟨w, e⟩

/-- Host stretch 5 leaves a buffer it does not write as it found it. -/
theorem host_keeps5 (c : Dev nD) (b : Ref sig .tc) (h : b ∉ ys5) :
    W11 m ρ c (Proc.devRef .tc b) = W10 m ρ c (Proc.devRef .tc b) := by
  exact keeps writes5 (W10 m ρ c) b h

/-- Region 5 leaves every buffer but its output array as it found it: an input window's array is staged and never
    written back, and no other buffer is touched. -/
theorem region_keeps5 (c : Dev nD) (b : Ref sig .tc) (h : b ≠ main_v92) :
    W12 m ρ c (Proc.devRef .tc b) = W11 m ρ c (Proc.devRef .tc b) := by
  by_cases hb : ∃ w, Pipeline.arrRef spec5 w = b
  · obtain ⟨w, rfl⟩ := hb
    have key : ∀ w : Fin 5, Pipeline.arrRef spec5 w ≠ main_v92 → (cfg5.win w).isOut = false := by decide
    exact (W12_arr m ρ c w).trans
      (((dat5 (V11 m ρ) c).arrAt_in w (key w h) _).trans (A_eq5 (V11 m ρ) c w))
  · exact W12_of_ne m ρ c b fun w e => hb ⟨w, e⟩

/-- Host stretch 6 leaves a buffer it does not write as it found it. -/
theorem host_keeps6 (c : Dev nD) (b : Ref sig .tc) (h : b ∉ ys6) :
    W13 m ρ c (Proc.devRef .tc b) = W12 m ρ c (Proc.devRef .tc b) := by
  exact keeps writes6 (W12 m ρ c) b h

/-- Region 6 leaves every buffer but its output array as it found it: an input window's array is staged and never
    written back, and no other buffer is touched. -/
theorem region_keeps6 (c : Dev nD) (b : Ref sig .tc) (h : b ≠ main_v129) :
    W14 m ρ c (Proc.devRef .tc b) = W13 m ρ c (Proc.devRef .tc b) := by
  by_cases hb : ∃ w, Pipeline.arrRef spec6 w = b
  · obtain ⟨w, rfl⟩ := hb
    have key : ∀ w : Fin 7, Pipeline.arrRef spec6 w ≠ main_v129 → (cfg6.win w).isOut = false := by decide
    exact (W14_arr m ρ c w).trans
      (((dat6 (V13 m ρ) c).arrAt_in w (key w h) _).trans (A_eq6 (V13 m ρ) c w))
  · exact W14_of_ne m ρ c b fun w e => hb ⟨w, e⟩

/-! ## A buffer not written from boundary j on holds at the end what it holds at boundary j -/

theorem stable13 (c : Dev nD) (b : Ref sig .tc) (h : b ∉ L13) :
    W14 m ρ c (Proc.devRef .tc b) = W13 m ρ c (Proc.devRef .tc b) := by
  exact region_keeps6 m ρ c b fun e => h (e ▸ List.mem_cons_self)

theorem stable12 (c : Dev nD) (b : Ref sig .tc) (h : b ∉ L12) :
    W14 m ρ c (Proc.devRef .tc b) = W12 m ρ c (Proc.devRef .tc b) := by
  exact (stable13 m ρ c b fun hm => h (List.mem_append_right _ hm)).trans
    (host_keeps6 m ρ c b fun hm => h (List.mem_append_left _ hm))

theorem stable11 (c : Dev nD) (b : Ref sig .tc) (h : b ∉ L11) :
    W14 m ρ c (Proc.devRef .tc b) = W11 m ρ c (Proc.devRef .tc b) := by
  exact (stable12 m ρ c b fun hm => h (List.mem_cons_of_mem _ hm)).trans
    (region_keeps5 m ρ c b fun e => h (e ▸ List.mem_cons_self))

theorem stable10 (c : Dev nD) (b : Ref sig .tc) (h : b ∉ L10) :
    W14 m ρ c (Proc.devRef .tc b) = W10 m ρ c (Proc.devRef .tc b) := by
  exact (stable11 m ρ c b fun hm => h (List.mem_append_right _ hm)).trans
    (host_keeps5 m ρ c b fun hm => h (List.mem_append_left _ hm))

theorem stable9 (c : Dev nD) (b : Ref sig .tc) (h : b ∉ L9) :
    W14 m ρ c (Proc.devRef .tc b) = W9 m ρ c (Proc.devRef .tc b) := by
  exact (stable10 m ρ c b fun hm => h (List.mem_cons_of_mem _ hm)).trans
    (region_keeps4 m ρ c b fun e => h (e ▸ List.mem_cons_self))

theorem stable8 (c : Dev nD) (b : Ref sig .tc) (h : b ∉ L8) :
    W14 m ρ c (Proc.devRef .tc b) = W8 m ρ c (Proc.devRef .tc b) := by
  exact (stable9 m ρ c b fun hm => h (List.mem_append_right _ hm)).trans
    (host_keeps4 m ρ c b fun hm => h (List.mem_append_left _ hm))

theorem stable7 (c : Dev nD) (b : Ref sig .tc) (h : b ∉ L7) :
    W14 m ρ c (Proc.devRef .tc b) = W7 m ρ c (Proc.devRef .tc b) := by
  exact (stable8 m ρ c b fun hm => h (List.mem_cons_of_mem _ hm)).trans
    (region_keeps3 m ρ c b fun e => h (e ▸ List.mem_cons_self))

theorem stable6 (c : Dev nD) (b : Ref sig .tc) (h : b ∉ L6) :
    W14 m ρ c (Proc.devRef .tc b) = W6 m ρ c (Proc.devRef .tc b) := by
  exact (stable7 m ρ c b fun hm => h (List.mem_append_right _ hm)).trans
    (host_keeps3 m ρ c b fun hm => h (List.mem_append_left _ hm))

theorem stable5 (c : Dev nD) (b : Ref sig .tc) (h : b ∉ L5) :
    W14 m ρ c (Proc.devRef .tc b) = W5 m ρ c (Proc.devRef .tc b) := by
  exact (stable6 m ρ c b fun hm => h (List.mem_cons_of_mem _ hm)).trans
    (region_keeps2 m ρ c b fun e => h (e ▸ List.mem_cons_self))

theorem stable4 (c : Dev nD) (b : Ref sig .tc) (h : b ∉ L4) :
    W14 m ρ c (Proc.devRef .tc b) = W4 m ρ c (Proc.devRef .tc b) := by
  exact (stable5 m ρ c b fun hm => h (List.mem_append_right _ hm)).trans
    (host_keeps2 m ρ c b fun hm => h (List.mem_append_left _ hm))

theorem stable3 (c : Dev nD) (b : Ref sig .tc) (h : b ∉ L3) :
    W14 m ρ c (Proc.devRef .tc b) = W3 m ρ c (Proc.devRef .tc b) := by
  exact (stable4 m ρ c b fun hm => h (List.mem_cons_of_mem _ hm)).trans
    (region_keeps1 m ρ c b fun e => h (e ▸ List.mem_cons_self))

theorem stable2 (c : Dev nD) (b : Ref sig .tc) (h : b ∉ L2) :
    W14 m ρ c (Proc.devRef .tc b) = W2 m ρ c (Proc.devRef .tc b) := by
  exact (stable3 m ρ c b fun hm => h (List.mem_append_right _ hm)).trans
    (host_keeps1 m ρ c b fun hm => h (List.mem_append_left _ hm))

theorem stable1 (c : Dev nD) (b : Ref sig .tc) (h : b ∉ L1) :
    W14 m ρ c (Proc.devRef .tc b) = W1 m ρ c (Proc.devRef .tc b) := by
  exact (stable2 m ρ c b fun hm => h (List.mem_cons_of_mem _ hm)).trans
    (region_keeps0 m ρ c b fun e => h (e ▸ List.mem_cons_self))

theorem stable0 (c : Dev nD) (b : Ref sig .tc) (h : b ∉ L0) :
    W14 m ρ c (Proc.devRef .tc b) = W0 m ρ c (Proc.devRef .tc b) := by
  exact (stable1 m ρ c b fun hm => h (List.mem_append_right _ hm)).trans
    (host_keeps0 m ρ c b fun hm => h (List.mem_append_left _ hm))

end Cert.KernelIdeal.Walk

end
-- ==== Proof.Spec.lean ====
/-
  The mathematics of the three dense stages, as formulas over extended reals, index by index.

  A node-feature matrix has one row per node (50000 of them). The first stage maps x : [50000, 512] through one weight
  slab w : [512, 128] and a bias row, and clamps at zero:  max (Σₖ x[r,k]·w[k,j] + b[0,j]) 0.  The second stage multiplies
  the three feature matrices f0, f1, f2 : [50000, 128], laid side by side, with a [384, 128] weight matrix; cut into its
  three [128, 128] row blocks that product is the sum of three products,  (Σₖ f0[r,k]·w[0,k,j] + Σₖ f1[r,k]·w[1,k,j]) +
  Σₖ f2[r,k]·w[2,k,j].  The last stage adds a bias row to each of three feature matrices, multiplies them with the three
  [128, 16] row blocks of the final weight, adds the final bias and takes the logarithm of the softmax along each row:
  with y the 16 logits of row r, m their maximum (taken from -∞, and once more against -∞) and s = y - m, the result is
  s[j] - log (Σₖ exp s[k]).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals. -/
abbrev M2 (a b : Nat) : Type := (⟨2, ![a, b]⟩ : Shape).Idx → EReal
/-- A stack of matrices of extended reals. -/
abbrev M3 (a b c : Nat) : Type := (⟨3, ![a, b, c]⟩ : Shape).Idx → EReal

/-- Entry (r, j) of the first stage: the clamped affine map of row r. -/
def dense1At (x : M2 50000 512) (w : M2 512 128) (b : M2 1 128) (r : Fin 50000) (j : Fin 128) : EReal :=
  max ((∑ k : Fin 512, x (ix2 r k) * w (ix2 k j)) + b (ix2 0 j)) (Ideal.ofBits .f32 0x00000000#32)

/-- The first stage, as one matrix. -/
def dense1 (x : M2 50000 512) (w : M2 512 128) (b : M2 1 128) : M2 50000 128 :=
  fun i => dense1At x w b (i 0) (i 1)

theorem dense1_apply (x : M2 50000 512) (w : M2 512 128) (b : M2 1 128) (r : Fin 50000) (j : Fin 128) :
    dense1 x w b (ix2 r j) = dense1At x w b r j := rfl

/-- Entry (r, j) of the second stage: three partial products, added left to right. -/
def dense2At (f0 f1 f2 : M2 50000 128) (w : M3 3 128 128) (r : Fin 50000) (j : Fin 128) : EReal :=
  ((∑ k : Fin 128, f0 (ix2 r k) * w (ix3 0 k j)) + (∑ k : Fin 128, f1 (ix2 r k) * w (ix3 1 k j)))
    + (∑ k : Fin 128, f2 (ix2 r k) * w (ix3 2 k j))

/-- The second stage, as one matrix. -/
def dense2 (f0 f1 f2 : M2 50000 128) (w : M3 3 128 128) : M2 50000 128 :=
  fun i => dense2At f0 f1 f2 w (i 0) (i 1)

theorem dense2_apply (f0 f1 f2 : M2 50000 128) (w : M3 3 128 128) (r : Fin 50000) (j : Fin 128) :
    dense2 f0 f1 f2 w (ix2 r j) = dense2At f0 f1 f2 w r j := rfl

/-- Logit (r, j) of the last stage: three partial products of the biased features, added left to right, plus the final
    bias. -/
def logitAt (g0 g1 g2 : M2 50000 128) (b2 : M3 3 1 128) (wf : M3 3 128 16) (bf : M2 1 16) (r : Fin 50000) (j : Fin 16) :
    EReal :=
  (((∑ k : Fin 128, (g0 (ix2 r k) + b2 (ix3 0 0 k)) * wf (ix3 0 k j))
      + (∑ k : Fin 128, (g1 (ix2 r k) + b2 (ix3 1 0 k)) * wf (ix3 1 k j)))
      + (∑ k : Fin 128, (g2 (ix2 r k) + b2 (ix3 2 0 k)) * wf (ix3 2 k j)))
    + bf (ix2 0 j)

/-- The maximum of a row of 16 values, folded from -∞ and compared with -∞ once more. -/
def rowMax (y : Fin 16 → EReal) : EReal :=
  max (Ideal.ofBits .f32 0xFF800000#32)
    ((Finset.univ : Finset (Fin 16)).fold max (Ideal.ofBits .f32 0xFF800000#32) y)

/-- The logarithm of the softmax of a row of 16 values, at position j. -/
def logSoftmaxAt (y : Fin 16 → EReal) (j : Fin 16) : EReal :=
  (y j - rowMax y) - Ideal.log (∑ k : Fin 16, Ideal.exp (y k - rowMax y))

/-- Entry (r, j) of the last stage. -/
def finalAt (g0 g1 g2 : M2 50000 128) (b2 : M3 3 1 128) (wf : M3 3 128 16) (bf : M2 1 16) (r : Fin 50000) (j : Fin 16) :
    EReal :=
  logSoftmaxAt (fun k => logitAt g0 g1 g2 b2 wf bf r k) j

/-- The last stage, as one matrix. -/
def final (g0 g1 g2 : M2 50000 128) (b2 : M3 3 1 128) (wf : M3 3 128 16) (bf : M2 1 16) : M2 50000 16 :=
  fun i => finalAt g0 g1 g2 b2 wf bf (i 0) (i 1)

theorem final_apply (g0 g1 g2 : M2 50000 128) (b2 : M3 3 1 128) (wf : M3 3 128 16) (bf : M2 1 16) (r : Fin 50000)
    (j : Fin 16) : final g0 g1 g2 b2 wf bf (ix2 r j) = finalAt g0 g1 g2 b2 wf bf r j := rfl

/-- Entry (p, k, j) of the row blocks of slab i of a [3, 384, 128] weight: row 128·p + k of the slab. -/
def w2blkAt (i : Fin 3) (x5 : M3 3 384 128) (p : Fin 3) (k : Fin 128) (j : Fin 128) : EReal :=
  x5 (ix3 i ⟨p.val * 128 + k.val, by omega⟩ j)

/-- Slab i of a [3, 384, 128] weight cut into its three [128, 128] row blocks. -/
def w2blk (i : Fin 3) (x5 : M3 3 384 128) : M3 3 128 128 := fun j => w2blkAt i x5 (j 0) (j 1) (j 2)

theorem w2blk_apply (i : Fin 3) (x5 : M3 3 384 128) (p : Fin 3) (k : Fin 128) (j : Fin 128) :
    w2blk i x5 (ix3 p k j) = w2blkAt i x5 p k j := rfl

/-- Entry (p, k, j) of the row blocks of a [384, 16] weight: row 128·p + k. -/
def wfblkAt (x7 : M2 384 16) (p : Fin 3) (k : Fin 128) (j : Fin 16) : EReal :=
  x7 (ix2 ⟨p.val * 128 + k.val, by omega⟩ j)

/-- A [384, 16] weight cut into its three [128, 16] row blocks. -/
def wfblk (x7 : M2 384 16) : M3 3 128 16 := fun j => wfblkAt x7 (j 0) (j 1) (j 2)

theorem wfblk_apply (x7 : M2 384 16) (p : Fin 3) (k : Fin 128) (j : Fin 16) :
    wfblk x7 (ix3 p k j) = wfblkAt x7 p k j := rfl

/-- A vector of 16 values as a one-row matrix. -/
def bfrow (x8 : (⟨1, ![16]⟩ : Shape).Idx → EReal) : M2 1 16 := fun j => x8 (ix1 (j 1))

theorem bfrow_apply (x8 : (⟨1, ![16]⟩ : Shape).Idx → EReal) (j : Fin 16) : bfrow x8 (ix2 0 j) = x8 (ix1 j) := rfl

end Cert.Spec

end
-- ==== Proof.Reg1.lean ====
import proofs.«417311_j57097295233451_3_alg».proof.Proof.Gen.KernelIdeal.Frame
import proofs.«417311_j57097295233451_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The block product at an index -/

/-- Row coordinate of the left factor's index: the output's row. -/
theorem lhsRow (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
/-- Column coordinate of the left factor's index: the summation index. -/
theorem lhsCol (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
/-- Row coordinate of the right factor's index: the summation index. -/
theorem rhsRow (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
/-- Column coordinate of the right factor's index: the output's column. -/
theorem rhsCol (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- Entry (p, q) of a [2000, 512] by [512, 128] product started from zero is the sum over k of x[p,k]·w[k,q]. -/
theorem blockProduct_apply (x : FVec Ideal S2000x512 .bf16) (w : FVec Ideal S512x128 .bf16) (p : Fin 2000) (q : Fin 128) :
    matmul dot_S2000x512_S512x128_S2000x128_1_0_0_1_n_n none x w (constant (F := Ideal) S2000x128 .f32 0x00000000#32) (ix2 p q)
      = ∑ k : Fin 512, x (ix2 p k) * w (ix2 k q) := by
  refine (Ideal.matmul_constant_zero_apply dot_S2000x512_S512x128_S2000x128_1_0_0_1_n_n none x w (ix2 p q)).trans ?_
  rw [← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx (ix2 p q) ((ValueIdx.contrEquiv1 dot_S2000x512_S512x128_S2000x128_1_0_0_1_n_n 512 rfl rfl).symm k) = ix2 p k := funext fun a => Fin.ext (by
    match a with
    | ⟨0, _⟩ => exact lhsRow _ _
    | ⟨1, _⟩ => exact (lhsCol _ _).trans hk)
  have er : dot_S2000x512_S512x128_S2000x128_1_0_0_1_n_n.rhsIdx (ix2 p q) ((ValueIdx.contrEquiv1 dot_S2000x512_S512x128_S2000x128_1_0_0_1_n_n 512 rfl rfl).symm k) = ix2 k q := funext fun a => Fin.ext (by
    match a with
    | ⟨0, _⟩ => exact (rhsRow _ _).trans hk
    | ⟨1, _⟩ => exact rhsCol _ _)
  rw [el, er]

/-- The offset of a store or load that starts at the block's origin. -/
theorem zeroOffset : (![0, 0] : Fin 2 → Nat) = fun _ => 0 := funext fun a => by fin_cases a <;> rfl

/-! ## Region 0: the body's arithmetic at an index, and from its blocks to the array -/

/-- The body's arithmetic at entry (p, q) of its output block: the clamped affine map of row p of the block of x. -/
theorem pay0_apply (x : Vec Ideal S2000x512 .f32) (w : Vec Ideal S512x128 .f32) (b : Vec Ideal S1x128 .f32) (p : Fin 2000) (q : Fin 128) :
    k0_pay1 (F := Ideal) x w b (ix2 p q)
      = max ((∑ k : Fin 512, x (ix2 p k) * w (ix2 k q)) + b (ix2 0 q)) (Ideal.ofBits .f32 0x00000000#32) := by
  unfold k0_pay1
  refine congrArg₂ max (congrArg₂ (· + ·) ?_ ?_) rfl
  · rw [shapeCast_self]
    exact blockProduct_apply _ _ p q
  · rw [shapeCast_self]
    exact broadcastTo_1b_ab_apply b broadcasts_S1x128_S2000x128 p q

/-- The index maps over the 25 grid points: the block of x moves with the output's block along the rows and sits at
    column block 0; the weight and the bias row are whole (block 0, 0); the output's row block is one of 0..24 and its
    column block is 0. -/
theorem blockIdx0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 24 ∧ win0_3.index t (1 : Fin 2) = 0 :=
  (by decide +kernel : ∀ t : Fin grid0.N, _)

/-- Every row block 0..24 of the output is some point's. -/
theorem blockOnto0 : ∀ (q0 : Fin 25), ∃ t : Fin cfg0.N, win0_3.index t = ![q0.val, 0] :=
  (by decide +kernel : ∀ (q0 : Fin 25), ∃ t : Fin grid0.N, win0_3.index t = ![q0.val, 0])

/-- The row of the [50000, ·] arrays that row p of point t's block is: 2000 · (the point's row block) + p. -/
def rowOf0 (t : Fin cfg0.N) (p : Fin 2000) : Fin 50000 :=
  ⟨win0_3.index t (0 : Fin 2) * 2000 + p.val, by
    have h := (blockIdx0 t).2.2.2.2.2.2.1
    have hp := p.isLt
    omega⟩

/-- Entry (p, q) of what the body leaves at point t is the first stage at (row of p, q) of the arrays the region found. -/
theorem block0_apply (c : Dev nD) (t : Fin cfg0.N) (p : Fin 2000) (q : Fin 128) :
    k0_pay1 (F := Ideal) (iblk0 V c 0 t) (iblk0 V c 1 t) (iblk0 V c 2 t) (ix2 p q)
      = Cert.Spec.dense1At (V c main_arg0) (V c main_v1) (V c main_v3) (rowOf0 t p) q := by
  obtain ⟨e0, e1, e2, e3, e4, e5, e6, e7⟩ := blockIdx0 t
  refine (pay0_apply _ _ _ p q).trans ?_
  have hx : ∀ k : Fin 512, ((cfg0.win 0).blk t).view.emb (ix2 p k) = ix2 (rowOf0 t p) k := fun k => by
    funext a; apply Fin.ext
    match a with
    | ⟨0, _⟩ => show win0_0.index t (0 : Fin 2) * 2000 + 1 * p.val = win0_3.index t (0 : Fin 2) * 2000 + p.val; omega
    | ⟨1, _⟩ => show win0_0.index t (1 : Fin 2) * 512 + 1 * k.val = k.val; omega
  have hw : ∀ k : Fin 512, ((cfg0.win 1).blk t).view.emb (ix2 k q) = ix2 k q := fun k => by
    funext a; apply Fin.ext
    match a with
    | ⟨0, _⟩ => show win0_1.index t (0 : Fin 2) * 512 + 1 * k.val = k.val; omega
    | ⟨1, _⟩ => show win0_1.index t (1 : Fin 2) * 128 + 1 * q.val = q.val; omega
  have hb : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  unfold Cert.Spec.dense1At
  refine congrArg₂ max (congrArg₂ (· + ·) (Finset.sum_congr rfl fun k _ => ?_) ?_) rfl
  · exact congrArg₂ (fun u v : EReal => u * v) (congrArg (V c main_arg0) (hx k)) (congrArg (V c main_v1) (hw k))
  · exact congrArg (V c main_v3) hb

/-- What point t writes back is block t of the first stage of the arrays the region found. -/
theorem flushed0_eq (c : Dev nD) (t : Fin cfg0.N) :
    (dat0 (F := Ideal) V c).flushed 3 t
      = ((cfg0.win 3).blk t).view.read (Elt Ideal) (Cert.Spec.dense1 (V c main_arg0) (V c main_v1) (V c main_v3)) := by
  show (cfg0.win 3).cut (grid0.coords t) ((dat0 (F := Ideal) V c).after 3 t) = _
  rw [after0_3]
  unfold out0_3
  rw [View.canon_unit_zero zeroOffset]
  simp only [View.ld_unit_zero (S := S2000x512) zeroOffset, View.ld_unit_zero (S := S512x128) zeroOffset,
    View.ld_unit_zero (S := S1x128) zeroOffset]
  funext j
  obtain ⟨p, q, rfl⟩ : ∃ (p : Fin 2000) (q : Fin 128), j = ix2 p q := ⟨j 0, j 1, eq_ix2 j⟩
  refine (block0_apply V c t p q).trans ?_
  have hout : ((cfg0.win 3).blk t).view.emb (ix2 p q) = ix2 (rowOf0 t p) q := by
    obtain ⟨e0, e1, e2, e3, e4, e5, e6, e7⟩ := blockIdx0 t
    funext a; apply Fin.ext
    match a with
    | ⟨0, _⟩ => show win0_3.index t (0 : Fin 2) * 2000 + 1 * p.val = win0_3.index t (0 : Fin 2) * 2000 + p.val; omega
    | ⟨1, _⟩ => show win0_3.index t (1 : Fin 2) * 128 + 1 * q.val = q.val; omega
  show _ = Cert.Spec.dense1 (V c main_arg0) (V c main_v1) (V c main_v3) (((cfg0.win 3).blk t).view.emb (ix2 p q))
  rw [hout]
  rfl

/-- An index of the output array is in point t's block iff each coordinate is in the block's range on its axis. -/
theorem mem_block0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v4).slice (win0_3.rect t)).set ↔ _
  rw [View.set_slice_whole, Rect.mem_set_unit]
  exact Iff.rfl

/-- Every index of the output array is in the block of the point numbered (its row) / 2000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := blockOnto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_block0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- After region 0 its output array holds the first stage of the arrays the region found. -/
theorem arr0 (c : Dev nD) :
    (dat0 (F := Ideal) V c).arrAt 3 cfg0.N = Cert.Spec.dense1 (V c main_arg0) (V c main_v1) (V c main_v3) :=
  (dat0 (F := Ideal) V c).arrAt_eq_of_cover 3 _ (fun t _ => flushed0_eq V c t) cover0

end Cert.KernelIdeal.Reg1

end
-- ==== Proof.Reg1R1.lean ====
import proofs.«417311_j57097295233451_3_alg».proof.Proof.Gen.KernelIdeal.Frame
import proofs.«417311_j57097295233451_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«417311_j57097295233451_3_alg».proof.Proof.Reg1

noncomputable section

namespace Cert.KernelIdeal.Reg1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## Region 1: the body's arithmetic at an index, and from its blocks to the array -/

/-- The body's arithmetic at entry (p, q) of its output block: the clamped affine map of row p of the block of x. -/
theorem pay1_apply (x : Vec Ideal S2000x512 .f32) (w : Vec Ideal S512x128 .f32) (b : Vec Ideal S1x128 .f32) (p : Fin 2000) (q : Fin 128) :
    k1_pay1 (F := Ideal) x w b (ix2 p q)
      = max ((∑ k : Fin 512, x (ix2 p k) * w (ix2 k q)) + b (ix2 0 q)) (Ideal.ofBits .f32 0x00000000#32) := by
  unfold k1_pay1
  refine congrArg₂ max (congrArg₂ (· + ·) ?_ ?_) rfl
  · rw [shapeCast_self]
    exact blockProduct_apply _ _ p q
  · rw [shapeCast_self]
    exact broadcastTo_1b_ab_apply b broadcasts_S1x128_S2000x128 p q

/-- The index maps over the 25 grid points: the block of x moves with the output's block along the rows and sits at
    column block 0; the weight and the bias row are whole (block 0, 0); the output's row block is one of 0..24 and its
    column block is 0. -/
theorem blockIdx1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 24 ∧ win1_3.index t (1 : Fin 2) = 0 :=
  (by decide +kernel : ∀ t : Fin grid1.N, _)

/-- Every row block 0..24 of the output is some point's. -/
theorem blockOnto1 : ∀ (q0 : Fin 25), ∃ t : Fin cfg1.N, win1_3.index t = ![q0.val, 0] :=
  (by decide +kernel : ∀ (q0 : Fin 25), ∃ t : Fin grid1.N, win1_3.index t = ![q0.val, 0])

/-- The row of the [50000, ·] arrays that row p of point t's block is: 2000 · (the point's row block) + p. -/
def rowOf1 (t : Fin cfg1.N) (p : Fin 2000) : Fin 50000 :=
  ⟨win1_3.index t (0 : Fin 2) * 2000 + p.val, by
    have h := (blockIdx1 t).2.2.2.2.2.2.1
    have hp := p.isLt
    omega⟩

/-- Entry (p, q) of what the body leaves at point t is the first stage at (row of p, q) of the arrays the region found. -/
theorem block1_apply (c : Dev nD) (t : Fin cfg1.N) (p : Fin 2000) (q : Fin 128) :
    k1_pay1 (F := Ideal) (iblk1 V c 0 t) (iblk1 V c 1 t) (iblk1 V c 2 t) (ix2 p q)
      = Cert.Spec.dense1At (V c main_arg0) (V c main_v6) (V c main_v8) (rowOf1 t p) q := by
  obtain ⟨e0, e1, e2, e3, e4, e5, e6, e7⟩ := blockIdx1 t
  refine (pay1_apply _ _ _ p q).trans ?_
  have hx : ∀ k : Fin 512, ((cfg1.win 0).blk t).view.emb (ix2 p k) = ix2 (rowOf1 t p) k := fun k => by
    funext a; apply Fin.ext
    match a with
    | ⟨0, _⟩ => show win1_0.index t (0 : Fin 2) * 2000 + 1 * p.val = win1_3.index t (0 : Fin 2) * 2000 + p.val; omega
    | ⟨1, _⟩ => show win1_0.index t (1 : Fin 2) * 512 + 1 * k.val = k.val; omega
  have hw : ∀ k : Fin 512, ((cfg1.win 1).blk t).view.emb (ix2 k q) = ix2 k q := fun k => by
    funext a; apply Fin.ext
    match a with
    | ⟨0, _⟩ => show win1_1.index t (0 : Fin 2) * 512 + 1 * k.val = k.val; omega
    | ⟨1, _⟩ => show win1_1.index t (1 : Fin 2) * 128 + 1 * q.val = q.val; omega
  have hb : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 128 + 1 * q.val = q.val; omega
  unfold Cert.Spec.dense1At
  refine congrArg₂ max (congrArg₂ (· + ·) (Finset.sum_congr rfl fun k _ => ?_) ?_) rfl
  · exact congrArg₂ (fun u v : EReal => u * v) (congrArg (V c main_arg0) (hx k)) (congrArg (V c main_v6) (hw k))
  · exact congrArg (V c main_v8) hb

/-- What point t writes back is block t of the first stage of the arrays the region found. -/
theorem flushed1_eq (c : Dev nD) (t : Fin cfg1.N) :
    (dat1 (F := Ideal) V c).flushed 3 t
      = ((cfg1.win 3).blk t).view.read (Elt Ideal) (Cert.Spec.dense1 (V c main_arg0) (V c main_v6) (V c main_v8)) := by
  show (cfg1.win 3).cut (grid1.coords t) ((dat1 (F := Ideal) V c).after 3 t) = _
  rw [after1_3]
  unfold out1_3
  rw [View.canon_unit_zero zeroOffset]
  simp only [View.ld_unit_zero (S := S2000x512) zeroOffset, View.ld_unit_zero (S := S512x128) zeroOffset,
    View.ld_unit_zero (S := S1x128) zeroOffset]
  funext j
  obtain ⟨p, q, rfl⟩ : ∃ (p : Fin 2000) (q : Fin 128), j = ix2 p q := ⟨j 0, j 1, eq_ix2 j⟩
  refine (block1_apply V c t p q).trans ?_
  have hout : ((cfg1.win 3).blk t).view.emb (ix2 p q) = ix2 (rowOf1 t p) q := by
    obtain ⟨e0, e1, e2, e3, e4, e5, e6, e7⟩ := blockIdx1 t
    funext a; apply Fin.ext
    match a with
    | ⟨0, _⟩ => show win1_3.index t (0 : Fin 2) * 2000 + 1 * p.val = win1_3.index t (0 : Fin 2) * 2000 + p.val; omega
    | ⟨1, _⟩ => show win1_3.index t (1 : Fin 2) * 128 + 1 * q.val = q.val; omega
  show _ = Cert.Spec.dense1 (V c main_arg0) (V c main_v6) (V c main_v8) (((cfg1.win 3).blk t).view.emb (ix2 p q))
  rw [hout]
  rfl

/-- An index of the output array is in point t's block iff each coordinate is in the block's range on its axis. -/
theorem mem_block1 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v9).slice (win1_3.rect t)).set ↔ _
  rw [View.set_slice_whole, Rect.mem_set_unit]
  exact Iff.rfl

/-- Every index of the output array is in the block of the point numbered (its row) / 2000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := blockOnto1 ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_block1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- After region 1 its output array holds the first stage of the arrays the region found. -/
theorem arr1 (c : Dev nD) :
    (dat1 (F := Ideal) V c).arrAt 3 cfg1.N = Cert.Spec.dense1 (V c main_arg0) (V c main_v6) (V c main_v8) :=
  (dat1 (F := Ideal) V c).arrAt_eq_of_cover 3 _ (fun t _ => flushed1_eq V c t) cover1

end Cert.KernelIdeal.Reg1

end
-- ==== Proof.Reg1R2.lean ====
import proofs.«417311_j57097295233451_3_alg».proof.Proof.Gen.KernelIdeal.Frame
import proofs.«417311_j57097295233451_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«417311_j57097295233451_3_alg».proof.Proof.Reg1

noncomputable section

namespace Cert.KernelIdeal.Reg1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## Region 2: the body's arithmetic at an index, and from its blocks to the array -/

/-- The body's arithmetic at entry (p, q) of its output block: the clamped affine map of row p of the block of x. -/
theorem pay2_apply (x : Vec Ideal S2000x512 .f32) (w : Vec Ideal S512x128 .f32) (b : Vec Ideal S1x128 .f32) (p : Fin 2000) (q : Fin 128) :
    k2_pay1 (F := Ideal) x w b (ix2 p q)
      = max ((∑ k : Fin 512, x (ix2 p k) * w (ix2 k q)) + b (ix2 0 q)) (Ideal.ofBits .f32 0x00000000#32) := by
  unfold k2_pay1
  refine congrArg₂ max (congrArg₂ (· + ·) ?_ ?_) rfl
  · rw [shapeCast_self]
    exact blockProduct_apply _ _ p q
  · rw [shapeCast_self]
    exact broadcastTo_1b_ab_apply b broadcasts_S1x128_S2000x128 p q

/-- The index maps over the 25 grid points: the block of x moves with the output's block along the rows and sits at
    column block 0; the weight and the bias row are whole (block 0, 0); the output's row block is one of 0..24 and its
    column block is 0. -/
theorem blockIdx2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 24 ∧ win2_3.index t (1 : Fin 2) = 0 :=
  (by decide +kernel : ∀ t : Fin grid2.N, _)

/-- Every row block 0..24 of the output is some point's. -/
theorem blockOnto2 : ∀ (q0 : Fin 25), ∃ t : Fin cfg2.N, win2_3.index t = ![q0.val, 0] :=
  (by decide +kernel : ∀ (q0 : Fin 25), ∃ t : Fin grid2.N, win2_3.index t = ![q0.val, 0])

/-- The row of the [50000, ·] arrays that row p of point t's block is: 2000 · (the point's row block) + p. -/
def rowOf2 (t : Fin cfg2.N) (p : Fin 2000) : Fin 50000 :=
  ⟨win2_3.index t (0 : Fin 2) * 2000 + p.val, by
    have h := (blockIdx2 t).2.2.2.2.2.2.1
    have hp := p.isLt
    omega⟩

/-- Entry (p, q) of what the body leaves at point t is the first stage at (row of p, q) of the arrays the region found. -/
theorem block2_apply (c : Dev nD) (t : Fin cfg2.N) (p : Fin 2000) (q : Fin 128) :
    k2_pay1 (F := Ideal) (iblk2 V c 0 t) (iblk2 V c 1 t) (iblk2 V c 2 t) (ix2 p q)
      = Cert.Spec.dense1At (V c main_arg0) (V c main_v28) (V c main_v30) (rowOf2 t p) q := by
  obtain ⟨e0, e1, e2, e3, e4, e5, e6, e7⟩ := blockIdx2 t
  refine (pay2_apply _ _ _ p q).trans ?_
  have hx : ∀ k : Fin 512, ((cfg2.win 0).blk t).view.emb (ix2 p k) = ix2 (rowOf2 t p) k := fun k => by
    funext a; apply Fin.ext
    match a with
    | ⟨0, _⟩ => show win2_0.index t (0 : Fin 2) * 2000 + 1 * p.val = win2_3.index t (0 : Fin 2) * 2000 + p.val; omega
    | ⟨1, _⟩ => show win2_0.index t (1 : Fin 2) * 512 + 1 * k.val = k.val; omega
  have hw : ∀ k : Fin 512, ((cfg2.win 1).blk t).view.emb (ix2 k q) = ix2 k q := fun k => by
    funext a; apply Fin.ext
    match a with
    | ⟨0, _⟩ => show win2_1.index t (0 : Fin 2) * 512 + 1 * k.val = k.val; omega
    | ⟨1, _⟩ => show win2_1.index t (1 : Fin 2) * 128 + 1 * q.val = q.val; omega
  have hb : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 128 + 1 * q.val = q.val; omega
  unfold Cert.Spec.dense1At
  refine congrArg₂ max (congrArg₂ (· + ·) (Finset.sum_congr rfl fun k _ => ?_) ?_) rfl
  · exact congrArg₂ (fun u v : EReal => u * v) (congrArg (V c main_arg0) (hx k)) (congrArg (V c main_v28) (hw k))
  · exact congrArg (V c main_v30) hb

/-- What point t writes back is block t of the first stage of the arrays the region found. -/
theorem flushed2_eq (c : Dev nD) (t : Fin cfg2.N) :
    (dat2 (F := Ideal) V c).flushed 3 t
      = ((cfg2.win 3).blk t).view.read (Elt Ideal) (Cert.Spec.dense1 (V c main_arg0) (V c main_v28) (V c main_v30)) := by
  show (cfg2.win 3).cut (grid2.coords t) ((dat2 (F := Ideal) V c).after 3 t) = _
  rw [after2_3]
  unfold out2_3
  rw [View.canon_unit_zero zeroOffset]
  simp only [View.ld_unit_zero (S := S2000x512) zeroOffset, View.ld_unit_zero (S := S512x128) zeroOffset,
    View.ld_unit_zero (S := S1x128) zeroOffset]
  funext j
  obtain ⟨p, q, rfl⟩ : ∃ (p : Fin 2000) (q : Fin 128), j = ix2 p q := ⟨j 0, j 1, eq_ix2 j⟩
  refine (block2_apply V c t p q).trans ?_
  have hout : ((cfg2.win 3).blk t).view.emb (ix2 p q) = ix2 (rowOf2 t p) q := by
    obtain ⟨e0, e1, e2, e3, e4, e5, e6, e7⟩ := blockIdx2 t
    funext a; apply Fin.ext
    match a with
    | ⟨0, _⟩ => show win2_3.index t (0 : Fin 2) * 2000 + 1 * p.val = win2_3.index t (0 : Fin 2) * 2000 + p.val; omega
    | ⟨1, _⟩ => show win2_3.index t (1 : Fin 2) * 128 + 1 * q.val = q.val; omega
  show _ = Cert.Spec.dense1 (V c main_arg0) (V c main_v28) (V c main_v30) (((cfg2.win 3).blk t).view.emb (ix2 p q))
  rw [hout]
  rfl

/-- An index of the output array is in point t's block iff each coordinate is in the block's range on its axis. -/
theorem mem_block2 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v31).slice (win2_3.rect t)).set ↔ _
  rw [View.set_slice_whole, Rect.mem_set_unit]
  exact Iff.rfl

/-- Every index of the output array is in the block of the point numbered (its row) / 2000. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := blockOnto2 ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_block2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- After region 2 its output array holds the first stage of the arrays the region found. -/
theorem arr2 (c : Dev nD) :
    (dat2 (F := Ideal) V c).arrAt 3 cfg2.N = Cert.Spec.dense1 (V c main_arg0) (V c main_v28) (V c main_v30) :=
  (dat2 (F := Ideal) V c).arrAt_eq_of_cover 3 _ (fun t _ => flushed2_eq V c t) cover2

end Cert.KernelIdeal.Reg1

end
-- ==== Proof.Reg3.lean ====
import proofs.«417311_j57097295233451_3_alg».proof.Proof.Gen.KernelIdeal.Frame
import proofs.«417311_j57097295233451_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg3

open Cert.KernelIdeal Cert.KernelIdeal.Gen Idealize.ShloMosaic Idealize.ShloMosaic.TcCoe Idealize.SL.Sem
open Idealize.ShloMosaic.Pipeline (Dat)
open Idealize.ShloMosaic.ValueIdx

/-- The origin of a matrix block is the zero offset on both axes. -/
theorem origin2 : (![0, 0] : Fin 2 → Nat) = fun _ => 0 := funext fun a => by fin_cases a <;> rfl

/-- In a product of a [2000,128] matrix with a [128,128] matrix, the left operand is read at the output's row … -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and at the summation index as its column; -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand is read at the summation index as its row … -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and at the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A matrix product accumulated from zero, at entry (p, q): the sum over k of l[p,k] · r[k,q]. -/
theorem product_at (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- A [1,128,128] slab viewed as a [128,128] matrix reads entry (0, k, q) at (k, q). -/
theorem slab_at (w : Vec Ideal S1x128x128 .f32) (k q : Fin 128) :
    shapeCast S128x128 w shapeCasts_S1x128x128_S128x128 (ix2 k q) = w (ix3 0 k q) := by
  refine (shapeCast_dropUnit_apply ![128, 128] w shapeCasts_S1x128x128_S128x128 (ix2 k q)).trans ?_
  exact congrArg w (funext fun a => by match a with | ⟨0, _⟩ => rfl | ⟨1, _⟩ => rfl | ⟨2, _⟩ => rfl)

variable (V : (c : Dev nD) → (b : Ref sig .tc) → Buf (Elt Ideal) ((c : Thread nD τ).loc b))

/-! ## Region 3: the second stage with the weight stack main_v68 -/

/-- The body's arithmetic at entry (p, q) of a block: the three partial products of the three feature blocks with the
    three weight slabs, added left to right. -/
theorem block_at3 (x0 x1 x2 : Vec Ideal S2000x128 .f32) (w0 w1 w2 : Vec Ideal S1x128x128 .f32) (p : Fin 2000) (q : Fin 128) :
    k3_pay1 (F := Ideal) x0 x1 x2 w0 w1 w2 (ix2 p q)
      = ((∑ k : Fin 128, x0 (ix2 p k) * w0 (ix3 0 k q)) + (∑ k : Fin 128, x1 (ix2 p k) * w1 (ix3 0 k q)))
        + (∑ k : Fin 128, x2 (ix2 p k) * w2 (ix3 0 k q)) := by
  unfold k3_pay1
  simp only [addf_apply, product_at, truncf_apply, shapeCast_self]
  refine congrArg₂ (· + ·) (congrArg₂ (· + ·) ?_ ?_) ?_
  · exact Finset.sum_congr rfl fun k _ => congrArg (x0 (ix2 p k) * ·) (slab_at w0 k q)
  · exact Finset.sum_congr rfl fun k _ => congrArg (x1 (ix2 p k) * ·) (slab_at w1 k q)
  · exact Finset.sum_congr rfl fun k _ => congrArg (x2 (ix2 p k) * ·) (slab_at w2 k q)

/-- Where the blocks sit, decided over the 25 points: at point t the three feature blocks and the output block are row
    block t (column block 0), and the weight stack's one block is the whole stack. -/
theorem blocks3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 3) = 0 ∧ win3_3.index t (1 : Fin 3) = 0 ∧ win3_3.index t (2 : Fin 3) = 0
    ∧ win3_4.index t (0 : Fin 2) = t.val ∧ win3_4.index t (1 : Fin 2) = 0 :=
  (by decide +kernel : ∀ t : Fin grid3.N, _)

/-- Every one of the 25 row blocks of the output is some point's. -/
theorem onto3 : ∀ (b : Fin 25), ∃ t : Fin cfg3.N, win3_4.index t = ![b.val, 0] :=
  (by decide +kernel : ∀ (b : Fin 25), ∃ t : Fin grid3.N, win3_4.index t = ![b.val, 0])

/-- What point t writes back is row block t of the second stage of the four arrays as the region found them. -/
theorem flushed3 (c : Dev nD) (t : Fin cfg3.N) :
    (dat3 (F := Ideal) V c).flushed 4 t
      = ((cfg3.win 4).blk t).view.read (Elt Ideal)
          (Cert.Spec.dense2 (V c main_v4) (V c main_v26) (V c main_v65) (V c main_v68)) := by
  show (cfg3.win 4).cut (grid3.coords t) ((dat3 (F := Ideal) V c).after 4 t) = _
  rw [after3_4]
  unfold out3_4
  rw [View.canon_unit_zero origin2]
  simp only [View.ld_unit_zero (S := S2000x128) origin2]
  obtain ⟨e00, e01, e10, e11, e20, e21, e30, e31, e32, e40, e41⟩ := blocks3 t
  have ht : t.val < 25 := lt_of_lt_of_eq t.isLt N_3
  funext j
  obtain ⟨p, q, rfl⟩ : ∃ (p : Fin 2000) (q : Fin 128), j = ix2 p q := ⟨j 0, j 1, eq_ix2 j⟩
  have hp : p.val < 2000 := p.isLt
  have hq : q.val < 128 := q.isLt
  show k3_pay1 (F := Ideal) (iblk3 V c 0 t) (iblk3 V c 1 t) (iblk3 V c 2 t) (View.ld (iblk3 V c 3 t) r3_1)
      (View.ld (iblk3 V c 3 t) r3_2) (View.ld (iblk3 V c 3 t) r3_3) (ix2 p q)
    = Cert.Spec.dense2 (V c main_v4) (V c main_v26) (V c main_v65) (V c main_v68) (((cfg3.win 4).blk t).view.emb (ix2 p q))
  refine (block_at3 _ _ _ _ _ _ p q).trans ?_
  -- the row of the array that row p of block t is
  have hrow : ((cfg3.win 4).blk t).view.emb (ix2 p q) = ix2 (⟨t.val * 2000 + p.val, by omega⟩ : Fin 50000) q := by
    funext a; apply Fin.ext
    match a with
    | ⟨0, _⟩ => show win3_4.index t (0 : Fin 2) * 2000 + 1 * p.val = t.val * 2000 + p.val; omega
    | ⟨1, _⟩ => show win3_4.index t (1 : Fin 2) * 128 + 1 * q.val = q.val; omega
  rw [hrow, Cert.Spec.dense2_apply]
  unfold Cert.Spec.dense2At
  -- the three feature blocks read the arrays at that row
  have f0 : ∀ k : Fin 128, iblk3 V c 0 t (ix2 p k) = V c main_v4 (ix2 (⟨t.val * 2000 + p.val, by omega⟩ : Fin 50000) k) := fun k => by
    show V c main_v4 (((cfg3.win 0).blk t).view.emb (ix2 p k)) = _
    refine congrArg (V c main_v4) (funext fun a => Fin.ext ?_)
    have hk : k.val < 128 := k.isLt
    match a with
    | ⟨0, _⟩ => show win3_0.index t (0 : Fin 2) * 2000 + 1 * p.val = t.val * 2000 + p.val; omega
    | ⟨1, _⟩ => show win3_0.index t (1 : Fin 2) * 128 + 1 * k.val = k.val; omega
  have f1 : ∀ k : Fin 128, iblk3 V c 1 t (ix2 p k) = V c main_v26 (ix2 (⟨t.val * 2000 + p.val, by omega⟩ : Fin 50000) k) := fun k => by
    show V c main_v26 (((cfg3.win 1).blk t).view.emb (ix2 p k)) = _
    refine congrArg (V c main_v26) (funext fun a => Fin.ext ?_)
    have hk : k.val < 128 := k.isLt
    match a with
    | ⟨0, _⟩ => show win3_1.index t (0 : Fin 2) * 2000 + 1 * p.val = t.val * 2000 + p.val; omega
    | ⟨1, _⟩ => show win3_1.index t (1 : Fin 2) * 128 + 1 * k.val = k.val; omega
  have f2 : ∀ k : Fin 128, iblk3 V c 2 t (ix2 p k) = V c main_v65 (ix2 (⟨t.val * 2000 + p.val, by omega⟩ : Fin 50000) k) := fun k => by
    show V c main_v65 (((cfg3.win 2).blk t).view.emb (ix2 p k)) = _
    refine congrArg (V c main_v65) (funext fun a => Fin.ext ?_)
    have hk : k.val < 128 := k.isLt
    match a with
    | ⟨0, _⟩ => show win3_2.index t (0 : Fin 2) * 2000 + 1 * p.val = t.val * 2000 + p.val; omega
    | ⟨1, _⟩ => show win3_2.index t (1 : Fin 2) * 128 + 1 * k.val = k.val; omega
  -- the three slabs read the weight stack at slab 0, 1, 2
  have s0 : ∀ k : Fin 128, View.ld (iblk3 V c 3 t) r3_1 (ix3 0 k q) = V c main_v68 (ix3 0 k q) := fun k => by
    show V c main_v68 (((cfg3.win 3).blk t).view.emb (r3_1.idx (ix3 0 k q))) = _
    refine congrArg (V c main_v68) (funext fun a => Fin.ext ?_)
    have hk : k.val < 128 := k.isLt
    match a with
    | ⟨0, _⟩ => show win3_3.index t (0 : Fin 3) * 3 + 1 * (0 + 1 * 0) = 0; omega
    | ⟨1, _⟩ => show win3_3.index t (1 : Fin 3) * 128 + 1 * (0 + 1 * k.val) = k.val; omega
    | ⟨2, _⟩ => show win3_3.index t (2 : Fin 3) * 128 + 1 * (0 + 1 * q.val) = q.val; omega
  have s1 : ∀ k : Fin 128, View.ld (iblk3 V c 3 t) r3_2 (ix3 0 k q) = V c main_v68 (ix3 1 k q) := fun k => by
    show V c main_v68 (((cfg3.win 3).blk t).view.emb (r3_2.idx (ix3 0 k q))) = _
    refine congrArg (V c main_v68) (funext fun a => Fin.ext ?_)
    have hk : k.val < 128 := k.isLt
    match a with
    | ⟨0, _⟩ => show win3_3.index t (0 : Fin 3) * 3 + 1 * (1 + 1 * 0) = 1; omega
    | ⟨1, _⟩ => show win3_3.index t (1 : Fin 3) * 128 + 1 * (0 + 1 * k.val) = k.val; omega
    | ⟨2, _⟩ => show win3_3.index t (2 : Fin 3) * 128 + 1 * (0 + 1 * q.val) = q.val; omega
  have s2 : ∀ k : Fin 128, View.ld (iblk3 V c 3 t) r3_3 (ix3 0 k q) = V c main_v68 (ix3 2 k q) := fun k => by
    show V c main_v68 (((cfg3.win 3).blk t).view.emb (r3_3.idx (ix3 0 k q))) = _
    refine congrArg (V c main_v68) (funext fun a => Fin.ext ?_)
    have hk : k.val < 128 := k.isLt
    match a with
    | ⟨0, _⟩ => show win3_3.index t (0 : Fin 3) * 3 + 1 * (2 + 1 * 0) = 2; omega
    | ⟨1, _⟩ => show win3_3.index t (1 : Fin 3) * 128 + 1 * (0 + 1 * k.val) = k.val; omega
    | ⟨2, _⟩ => show win3_3.index t (2 : Fin 3) * 128 + 1 * (0 + 1 * q.val) = q.val; omega
  refine congrArg₂ (· + ·) (congrArg₂ (· + ·) ?_ ?_) ?_
  · exact Finset.sum_congr rfl fun k _ => congrArg₂ (· * ·) (f0 k) (s0 k)
  · exact Finset.sum_congr rfl fun k _ => congrArg₂ (· * ·) (f1 k) (s1 k)
  · exact Finset.sum_congr rfl fun k _ => congrArg₂ (· * ·) (f2 k) (s2 k)

/-- An index of the array is in point t's block iff each coordinate is in the block's range on its axis. -/
theorem mem_block3 (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v69).slice (win3_4.rect t)).set ↔ _
  rw [View.set_slice_whole, Rect.mem_set_unit]
  exact Iff.rfl

/-- Row r of the array is in the block of the point that writes row block r / 2000. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := onto3 ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_block3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- After region 3 its output array holds the second stage of the arrays the region found. -/
theorem arr3 (c : Dev nD) :
    (dat3 (F := Ideal) V c).arrAt 4 cfg3.N
      = Cert.Spec.dense2 (V c main_v4) (V c main_v26) (V c main_v65) (V c main_v68) :=
  (dat3 (F := Ideal) V c).arrAt_eq_of_cover 4 _ (fun t _ => flushed3 V c t) cover3

end Cert.KernelIdeal.Reg3

end
-- ==== Proof.Reg3R4.lean ====
import proofs.«417311_j57097295233451_3_alg».proof.Proof.Gen.KernelIdeal.Frame
import proofs.«417311_j57097295233451_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«417311_j57097295233451_3_alg».proof.Proof.Reg3

noncomputable section

namespace Cert.KernelIdeal.Reg3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## Region 4: the second stage with the weight stack main_v71 -/

/-- The body's arithmetic at entry (p, q) of a block: the three partial products of the three feature blocks with the
    three weight slabs, added left to right. -/
theorem block_at4 (x0 x1 x2 : Vec Ideal S2000x128 .f32) (w0 w1 w2 : Vec Ideal S1x128x128 .f32) (p : Fin 2000) (q : Fin 128) :
    k4_pay1 (F := Ideal) x0 x1 x2 w0 w1 w2 (ix2 p q)
      = ((∑ k : Fin 128, x0 (ix2 p k) * w0 (ix3 0 k q)) + (∑ k : Fin 128, x1 (ix2 p k) * w1 (ix3 0 k q)))
        + (∑ k : Fin 128, x2 (ix2 p k) * w2 (ix3 0 k q)) := by
  unfold k4_pay1
  simp only [addf_apply, product_at, truncf_apply, shapeCast_self]
  refine congrArg₂ (· + ·) (congrArg₂ (· + ·) ?_ ?_) ?_
  · exact Finset.sum_congr rfl fun k _ => congrArg (x0 (ix2 p k) * ·) (slab_at w0 k q)
  · exact Finset.sum_congr rfl fun k _ => congrArg (x1 (ix2 p k) * ·) (slab_at w1 k q)
  · exact Finset.sum_congr rfl fun k _ => congrArg (x2 (ix2 p k) * ·) (slab_at w2 k q)

/-- Where the blocks sit, decided over the 25 points: at point t the three feature blocks and the output block are row
    block t (column block 0), and the weight stack's one block is the whole stack. -/
theorem blocks4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 3) = 0 ∧ win4_3.index t (1 : Fin 3) = 0 ∧ win4_3.index t (2 : Fin 3) = 0
    ∧ win4_4.index t (0 : Fin 2) = t.val ∧ win4_4.index t (1 : Fin 2) = 0 :=
  (by decide +kernel : ∀ t : Fin grid4.N, _)

/-- Every one of the 25 row blocks of the output is some point's. -/
theorem onto4 : ∀ (b : Fin 25), ∃ t : Fin cfg4.N, win4_4.index t = ![b.val, 0] :=
  (by decide +kernel : ∀ (b : Fin 25), ∃ t : Fin grid4.N, win4_4.index t = ![b.val, 0])

/-- What point t writes back is row block t of the second stage of the four arrays as the region found them. -/
theorem flushed4 (c : Dev nD) (t : Fin cfg4.N) :
    (dat4 (F := Ideal) V c).flushed 4 t
      = ((cfg4.win 4).blk t).view.read (Elt Ideal)
          (Cert.Spec.dense2 (V c main_v4) (V c main_v26) (V c main_v65) (V c main_v71)) := by
  show (cfg4.win 4).cut (grid4.coords t) ((dat4 (F := Ideal) V c).after 4 t) = _
  rw [after4_4]
  unfold out4_4
  rw [View.canon_unit_zero origin2]
  simp only [View.ld_unit_zero (S := S2000x128) origin2]
  obtain ⟨e00, e01, e10, e11, e20, e21, e30, e31, e32, e40, e41⟩ := blocks4 t
  have ht : t.val < 25 := lt_of_lt_of_eq t.isLt N_4
  funext j
  obtain ⟨p, q, rfl⟩ : ∃ (p : Fin 2000) (q : Fin 128), j = ix2 p q := ⟨j 0, j 1, eq_ix2 j⟩
  have hp : p.val < 2000 := p.isLt
  have hq : q.val < 128 := q.isLt
  show k4_pay1 (F := Ideal) (iblk4 V c 0 t) (iblk4 V c 1 t) (iblk4 V c 2 t) (View.ld (iblk4 V c 3 t) r4_1)
      (View.ld (iblk4 V c 3 t) r4_2) (View.ld (iblk4 V c 3 t) r4_3) (ix2 p q)
    = Cert.Spec.dense2 (V c main_v4) (V c main_v26) (V c main_v65) (V c main_v71) (((cfg4.win 4).blk t).view.emb (ix2 p q))
  refine (block_at4 _ _ _ _ _ _ p q).trans ?_
  -- the row of the array that row p of block t is
  have hrow : ((cfg4.win 4).blk t).view.emb (ix2 p q) = ix2 (⟨t.val * 2000 + p.val, by omega⟩ : Fin 50000) q := by
    funext a; apply Fin.ext
    match a with
    | ⟨0, _⟩ => show win4_4.index t (0 : Fin 2) * 2000 + 1 * p.val = t.val * 2000 + p.val; omega
    | ⟨1, _⟩ => show win4_4.index t (1 : Fin 2) * 128 + 1 * q.val = q.val; omega
  rw [hrow, Cert.Spec.dense2_apply]
  unfold Cert.Spec.dense2At
  -- the three feature blocks read the arrays at that row
  have f0 : ∀ k : Fin 128, iblk4 V c 0 t (ix2 p k) = V c main_v4 (ix2 (⟨t.val * 2000 + p.val, by omega⟩ : Fin 50000) k) := fun k => by
    show V c main_v4 (((cfg4.win 0).blk t).view.emb (ix2 p k)) = _
    refine congrArg (V c main_v4) (funext fun a => Fin.ext ?_)
    have hk : k.val < 128 := k.isLt
    match a with
    | ⟨0, _⟩ => show win4_0.index t (0 : Fin 2) * 2000 + 1 * p.val = t.val * 2000 + p.val; omega
    | ⟨1, _⟩ => show win4_0.index t (1 : Fin 2) * 128 + 1 * k.val = k.val; omega
  have f1 : ∀ k : Fin 128, iblk4 V c 1 t (ix2 p k) = V c main_v26 (ix2 (⟨t.val * 2000 + p.val, by omega⟩ : Fin 50000) k) := fun k => by
    show V c main_v26 (((cfg4.win 1).blk t).view.emb (ix2 p k)) = _
    refine congrArg (V c main_v26) (funext fun a => Fin.ext ?_)
    have hk : k.val < 128 := k.isLt
    match a with
    | ⟨0, _⟩ => show win4_1.index t (0 : Fin 2) * 2000 + 1 * p.val = t.val * 2000 + p.val; omega
    | ⟨1, _⟩ => show win4_1.index t (1 : Fin 2) * 128 + 1 * k.val = k.val; omega
  have f2 : ∀ k : Fin 128, iblk4 V c 2 t (ix2 p k) = V c main_v65 (ix2 (⟨t.val * 2000 + p.val, by omega⟩ : Fin 50000) k) := fun k => by
    show V c main_v65 (((cfg4.win 2).blk t).view.emb (ix2 p k)) = _
    refine congrArg (V c main_v65) (funext fun a => Fin.ext ?_)
    have hk : k.val < 128 := k.isLt
    match a with
    | ⟨0, _⟩ => show win4_2.index t (0 : Fin 2) * 2000 + 1 * p.val = t.val * 2000 + p.val; omega
    | ⟨1, _⟩ => show win4_2.index t (1 : Fin 2) * 128 + 1 * k.val = k.val; omega
  -- the three slabs read the weight stack at slab 0, 1, 2
  have s0 : ∀ k : Fin 128, View.ld (iblk4 V c 3 t) r4_1 (ix3 0 k q) = V c main_v71 (ix3 0 k q) := fun k => by
    show V c main_v71 (((cfg4.win 3).blk t).view.emb (r4_1.idx (ix3 0 k q))) = _
    refine congrArg (V c main_v71) (funext fun a => Fin.ext ?_)
    have hk : k.val < 128 := k.isLt
    match a with
    | ⟨0, _⟩ => show win4_3.index t (0 : Fin 3) * 3 + 1 * (0 + 1 * 0) = 0; omega
    | ⟨1, _⟩ => show win4_3.index t (1 : Fin 3) * 128 + 1 * (0 + 1 * k.val) = k.val; omega
    | ⟨2, _⟩ => show win4_3.index t (2 : Fin 3) * 128 + 1 * (0 + 1 * q.val) = q.val; omega
  have s1 : ∀ k : Fin 128, View.ld (iblk4 V c 3 t) r4_2 (ix3 0 k q) = V c main_v71 (ix3 1 k q) := fun k => by
    show V c main_v71 (((cfg4.win 3).blk t).view.emb (r4_2.idx (ix3 0 k q))) = _
    refine congrArg (V c main_v71) (funext fun a => Fin.ext ?_)
    have hk : k.val < 128 := k.isLt
    match a with
    | ⟨0, _⟩ => show win4_3.index t (0 : Fin 3) * 3 + 1 * (1 + 1 * 0) = 1; omega
    | ⟨1, _⟩ => show win4_3.index t (1 : Fin 3) * 128 + 1 * (0 + 1 * k.val) = k.val; omega
    | ⟨2, _⟩ => show win4_3.index t (2 : Fin 3) * 128 + 1 * (0 + 1 * q.val) = q.val; omega
  have s2 : ∀ k : Fin 128, View.ld (iblk4 V c 3 t) r4_3 (ix3 0 k q) = V c main_v71 (ix3 2 k q) := fun k => by
    show V c main_v71 (((cfg4.win 3).blk t).view.emb (r4_3.idx (ix3 0 k q))) = _
    refine congrArg (V c main_v71) (funext fun a => Fin.ext ?_)
    have hk : k.val < 128 := k.isLt
    match a with
    | ⟨0, _⟩ => show win4_3.index t (0 : Fin 3) * 3 + 1 * (2 + 1 * 0) = 2; omega
    | ⟨1, _⟩ => show win4_3.index t (1 : Fin 3) * 128 + 1 * (0 + 1 * k.val) = k.val; omega
    | ⟨2, _⟩ => show win4_3.index t (2 : Fin 3) * 128 + 1 * (0 + 1 * q.val) = q.val; omega
  refine congrArg₂ (· + ·) (congrArg₂ (· + ·) ?_ ?_) ?_
  · exact Finset.sum_congr rfl fun k _ => congrArg₂ (· * ·) (f0 k) (s0 k)
  · exact Finset.sum_congr rfl fun k _ => congrArg₂ (· * ·) (f1 k) (s1 k)
  · exact Finset.sum_congr rfl fun k _ => congrArg₂ (· * ·) (f2 k) (s2 k)

/-- An index of the array is in point t's block iff each coordinate is in the block's range on its axis. -/
theorem mem_block4 (t : Fin cfg4.N) (i : S50000x128.Idx) :
    i ∈ ((cfg4.win 4).blk t).view.set ↔ ∀ a : Fin 2, win4_4.index t a * S2000x128.size a ≤ (i a).val ∧ (i a).val < win4_4.index t a * S2000x128.size a + S2000x128.size a := by
  show i ∈ ((View.whole main_v72).slice (win4_4.rect t)).set ↔ _
  rw [View.set_slice_whole, Rect.mem_set_unit]
  exact Iff.rfl

/-- Row r of the array is in the block of the point that writes row block r / 2000. -/
theorem cover4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  obtain ⟨t, ht⟩ := onto4 ⟨(i 0).val / 2000, by omega⟩
  have q0 : win4_4.index t (0 : Fin 2) = (i 0).val / 2000 := congrFun ht 0
  have q1 : win4_4.index t (1 : Fin 2) = 0 := congrFun ht 1
  refine ⟨t, flush4_4 t, ?_⟩
  rw [mem_block4]
  intro a
  match a with
  | ⟨0, _⟩ => show win4_4.index t (0 : Fin 2) * 2000 ≤ (i 0).val ∧ (i 0).val < win4_4.index t (0 : Fin 2) * 2000 + 2000; omega
  | ⟨1, _⟩ => show win4_4.index t (1 : Fin 2) * 128 ≤ (i 1).val ∧ (i 1).val < win4_4.index t (1 : Fin 2) * 128 + 128; omega

/-- After region 4 its output array holds the second stage of the arrays the region found. -/
theorem arr4 (c : Dev nD) :
    (dat4 (F := Ideal) V c).arrAt 4 cfg4.N
      = Cert.Spec.dense2 (V c main_v4) (V c main_v26) (V c main_v65) (V c main_v71) :=
  (dat4 (F := Ideal) V c).arrAt_eq_of_cover 4 _ (fun t _ => flushed4 V c t) cover4

end Cert.KernelIdeal.Reg3

end
-- ==== Proof.Reg3R5.lean ====
import proofs.«417311_j57097295233451_3_alg».proof.Proof.Gen.KernelIdeal.Frame
import proofs.«417311_j57097295233451_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«417311_j57097295233451_3_alg».proof.Proof.Reg3

noncomputable section

namespace Cert.KernelIdeal.Reg3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## Region 5: the second stage with the weight stack main_v91 -/

/-- The body's arithmetic at entry (p, q) of a block: the three partial products of the three feature blocks with the
    three weight slabs, added left to right. -/
theorem block_at5 (x0 x1 x2 : Vec Ideal S2000x128 .f32) (w0 w1 w2 : Vec Ideal S1x128x128 .f32) (p : Fin 2000) (q : Fin 128) :
    k5_pay1 (F := Ideal) x0 x1 x2 w0 w1 w2 (ix2 p q)
      = ((∑ k : Fin 128, x0 (ix2 p k) * w0 (ix3 0 k q)) + (∑ k : Fin 128, x1 (ix2 p k) * w1 (ix3 0 k q)))
        + (∑ k : Fin 128, x2 (ix2 p k) * w2 (ix3 0 k q)) := by
  unfold k5_pay1
  simp only [addf_apply, product_at, truncf_apply, shapeCast_self]
  refine congrArg₂ (· + ·) (congrArg₂ (· + ·) ?_ ?_) ?_
  · exact Finset.sum_congr rfl fun k _ => congrArg (x0 (ix2 p k) * ·) (slab_at w0 k q)
  · exact Finset.sum_congr rfl fun k _ => congrArg (x1 (ix2 p k) * ·) (slab_at w1 k q)
  · exact Finset.sum_congr rfl fun k _ => congrArg (x2 (ix2 p k) * ·) (slab_at w2 k q)

/-- Where the blocks sit, decided over the 25 points: at point t the three feature blocks and the output block are row
    block t (column block 0), and the weight stack's one block is the whole stack. -/
theorem blocks5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 3) = 0 ∧ win5_3.index t (1 : Fin 3) = 0 ∧ win5_3.index t (2 : Fin 3) = 0
    ∧ win5_4.index t (0 : Fin 2) = t.val ∧ win5_4.index t (1 : Fin 2) = 0 :=
  (by decide +kernel : ∀ t : Fin grid5.N, _)

/-- Every one of the 25 row blocks of the output is some point's. -/
theorem onto5 : ∀ (b : Fin 25), ∃ t : Fin cfg5.N, win5_4.index t = ![b.val, 0] :=
  (by decide +kernel : ∀ (b : Fin 25), ∃ t : Fin grid5.N, win5_4.index t = ![b.val, 0])

/-- What point t writes back is row block t of the second stage of the four arrays as the region found them. -/
theorem flushed5 (c : Dev nD) (t : Fin cfg5.N) :
    (dat5 (F := Ideal) V c).flushed 4 t
      = ((cfg5.win 4).blk t).view.read (Elt Ideal)
          (Cert.Spec.dense2 (V c main_v4) (V c main_v26) (V c main_v65) (V c main_v91)) := by
  show (cfg5.win 4).cut (grid5.coords t) ((dat5 (F := Ideal) V c).after 4 t) = _
  rw [after5_4]
  unfold out5_4
  rw [View.canon_unit_zero origin2]
  simp only [View.ld_unit_zero (S := S2000x128) origin2]
  obtain ⟨e00, e01, e10, e11, e20, e21, e30, e31, e32, e40, e41⟩ := blocks5 t
  have ht : t.val < 25 := lt_of_lt_of_eq t.isLt N_5
  funext j
  obtain ⟨p, q, rfl⟩ : ∃ (p : Fin 2000) (q : Fin 128), j = ix2 p q := ⟨j 0, j 1, eq_ix2 j⟩
  have hp : p.val < 2000 := p.isLt
  have hq : q.val < 128 := q.isLt
  show k5_pay1 (F := Ideal) (iblk5 V c 0 t) (iblk5 V c 1 t) (iblk5 V c 2 t) (View.ld (iblk5 V c 3 t) r5_1)
      (View.ld (iblk5 V c 3 t) r5_2) (View.ld (iblk5 V c 3 t) r5_3) (ix2 p q)
    = Cert.Spec.dense2 (V c main_v4) (V c main_v26) (V c main_v65) (V c main_v91) (((cfg5.win 4).blk t).view.emb (ix2 p q))
  refine (block_at5 _ _ _ _ _ _ p q).trans ?_
  -- the row of the array that row p of block t is
  have hrow : ((cfg5.win 4).blk t).view.emb (ix2 p q) = ix2 (⟨t.val * 2000 + p.val, by omega⟩ : Fin 50000) q := by
    funext a; apply Fin.ext
    match a with
    | ⟨0, _⟩ => show win5_4.index t (0 : Fin 2) * 2000 + 1 * p.val = t.val * 2000 + p.val; omega
    | ⟨1, _⟩ => show win5_4.index t (1 : Fin 2) * 128 + 1 * q.val = q.val; omega
  rw [hrow, Cert.Spec.dense2_apply]
  unfold Cert.Spec.dense2At
  -- the three feature blocks read the arrays at that row
  have f0 : ∀ k : Fin 128, iblk5 V c 0 t (ix2 p k) = V c main_v4 (ix2 (⟨t.val * 2000 + p.val, by omega⟩ : Fin 50000) k) := fun k => by
    show V c main_v4 (((cfg5.win 0).blk t).view.emb (ix2 p k)) = _
    refine congrArg (V c main_v4) (funext fun a => Fin.ext ?_)
    have hk : k.val < 128 := k.isLt
    match a with
    | ⟨0, _⟩ => show win5_0.index t (0 : Fin 2) * 2000 + 1 * p.val = t.val * 2000 + p.val; omega
    | ⟨1, _⟩ => show win5_0.index t (1 : Fin 2) * 128 + 1 * k.val = k.val; omega
  have f1 : ∀ k : Fin 128, iblk5 V c 1 t (ix2 p k) = V c main_v26 (ix2 (⟨t.val * 2000 + p.val, by omega⟩ : Fin 50000) k) := fun k => by
    show V c main_v26 (((cfg5.win 1).blk t).view.emb (ix2 p k)) = _
    refine congrArg (V c main_v26) (funext fun a => Fin.ext ?_)
    have hk : k.val < 128 := k.isLt
    match a with
    | ⟨0, _⟩ => show win5_1.index t (0 : Fin 2) * 2000 + 1 * p.val = t.val * 2000 + p.val; omega
    | ⟨1, _⟩ => show win5_1.index t (1 : Fin 2) * 128 + 1 * k.val = k.val; omega
  have f2 : ∀ k : Fin 128, iblk5 V c 2 t (ix2 p k) = V c main_v65 (ix2 (⟨t.val * 2000 + p.val, by omega⟩ : Fin 50000) k) := fun k => by
    show V c main_v65 (((cfg5.win 2).blk t).view.emb (ix2 p k)) = _
    refine congrArg (V c main_v65) (funext fun a => Fin.ext ?_)
    have hk : k.val < 128 := k.isLt
    match a with
    | ⟨0, _⟩ => show win5_2.index t (0 : Fin 2) * 2000 + 1 * p.val = t.val * 2000 + p.val; omega
    | ⟨1, _⟩ => show win5_2.index t (1 : Fin 2) * 128 + 1 * k.val = k.val; omega
  -- the three slabs read the weight stack at slab 0, 1, 2
  have s0 : ∀ k : Fin 128, View.ld (iblk5 V c 3 t) r5_1 (ix3 0 k q) = V c main_v91 (ix3 0 k q) := fun k => by
    show V c main_v91 (((cfg5.win 3).blk t).view.emb (r5_1.idx (ix3 0 k q))) = _
    refine congrArg (V c main_v91) (funext fun a => Fin.ext ?_)
    have hk : k.val < 128 := k.isLt
    match a with
    | ⟨0, _⟩ => show win5_3.index t (0 : Fin 3) * 3 + 1 * (0 + 1 * 0) = 0; omega
    | ⟨1, _⟩ => show win5_3.index t (1 : Fin 3) * 128 + 1 * (0 + 1 * k.val) = k.val; omega
    | ⟨2, _⟩ => show win5_3.index t (2 : Fin 3) * 128 + 1 * (0 + 1 * q.val) = q.val; omega
  have s1 : ∀ k : Fin 128, View.ld (iblk5 V c 3 t) r5_2 (ix3 0 k q) = V c main_v91 (ix3 1 k q) := fun k => by
    show V c main_v91 (((cfg5.win 3).blk t).view.emb (r5_2.idx (ix3 0 k q))) = _
    refine congrArg (V c main_v91) (funext fun a => Fin.ext ?_)
    have hk : k.val < 128 := k.isLt
    match a with
    | ⟨0, _⟩ => show win5_3.index t (0 : Fin 3) * 3 + 1 * (1 + 1 * 0) = 1; omega
    | ⟨1, _⟩ => show win5_3.index t (1 : Fin 3) * 128 + 1 * (0 + 1 * k.val) = k.val; omega
    | ⟨2, _⟩ => show win5_3.index t (2 : Fin 3) * 128 + 1 * (0 + 1 * q.val) = q.val; omega
  have s2 : ∀ k : Fin 128, View.ld (iblk5 V c 3 t) r5_3 (ix3 0 k q) = V c main_v91 (ix3 2 k q) := fun k => by
    show V c main_v91 (((cfg5.win 3).blk t).view.emb (r5_3.idx (ix3 0 k q))) = _
    refine congrArg (V c main_v91) (funext fun a => Fin.ext ?_)
    have hk : k.val < 128 := k.isLt
    match a with
    | ⟨0, _⟩ => show win5_3.index t (0 : Fin 3) * 3 + 1 * (2 + 1 * 0) = 2; omega
    | ⟨1, _⟩ => show win5_3.index t (1 : Fin 3) * 128 + 1 * (0 + 1 * k.val) = k.val; omega
    | ⟨2, _⟩ => show win5_3.index t (2 : Fin 3) * 128 + 1 * (0 + 1 * q.val) = q.val; omega
  refine congrArg₂ (· + ·) (congrArg₂ (· + ·) ?_ ?_) ?_
  · exact Finset.sum_congr rfl fun k _ => congrArg₂ (· * ·) (f0 k) (s0 k)
  · exact Finset.sum_congr rfl fun k _ => congrArg₂ (· * ·) (f1 k) (s1 k)
  · exact Finset.sum_congr rfl fun k _ => congrArg₂ (· * ·) (f2 k) (s2 k)

/-- An index of the array is in point t's block iff each coordinate is in the block's range on its axis. -/
theorem mem_block5 (t : Fin cfg5.N) (i : S50000x128.Idx) :
    i ∈ ((cfg5.win 4).blk t).view.set ↔ ∀ a : Fin 2, win5_4.index t a * S2000x128.size a ≤ (i a).val ∧ (i a).val < win5_4.index t a * S2000x128.size a + S2000x128.size a := by
  show i ∈ ((View.whole main_v92).slice (win5_4.rect t)).set ↔ _
  rw [View.set_slice_whole, Rect.mem_set_unit]
  exact Iff.rfl

/-- Row r of the array is in the block of the point that writes row block r / 2000. -/
theorem cover5 (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ := onto5 ⟨(i 0).val / 2000, by omega⟩
  have q0 : win5_4.index t (0 : Fin 2) = (i 0).val / 2000 := congrFun ht 0
  have q1 : win5_4.index t (1 : Fin 2) = 0 := congrFun ht 1
  refine ⟨t, flush5_4 t, ?_⟩
  rw [mem_block5]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 128 ≤ (i 1).val ∧ (i 1).val < win5_4.index t (1 : Fin 2) * 128 + 128; omega

/-- After region 5 its output array holds the second stage of the arrays the region found. -/
theorem arr5 (c : Dev nD) :
    (dat5 (F := Ideal) V c).arrAt 4 cfg5.N
      = Cert.Spec.dense2 (V c main_v4) (V c main_v26) (V c main_v65) (V c main_v91) :=
  (dat5 (F := Ideal) V c).arrAt_eq_of_cover 4 _ (fun t _ => flushed5 V c t) cover5

end Cert.KernelIdeal.Reg3

end
-- ==== Proof.Reg6.lean ====
import proofs.«417311_j57097295233451_3_alg».proof.Proof.Gen.KernelIdeal.Frame
import proofs.«417311_j57097295233451_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg6

open Cert.KernelIdeal Cert.KernelIdeal.Gen Idealize.ShloMosaic Idealize.ShloMosaic.TcCoe Idealize.SL.Sem
open Idealize.ShloMosaic.Pipeline (Dat)
open Idealize.ShloMosaic.ValueIdx

/-! ## Column forms of a vector -/

section Columns
variable {α : Type}

/-- A vector of length a laid as an [a, 1] column reads, at (p, u), the vector at p. -/
theorem col_cast_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column spread over b lanes reads, at (p, q), the column at p. -/
theorem col_spread_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Columns

/-! ## The slabs of the bias stack and of the weight stack, and the whole blocks -/

theorem zero2 : (![0, 0] : Fin 2 → Nat) = fun _ => 0 := funext fun a => by fin_cases a <;> rfl

/-- Slab 0 of the bias stack. -/
theorem bias_slab0 (x3 : Vec Ideal S3x1x128 .f32) (k : Fin 128) :
    View.ld x3 r6_1 (ix3 (0 : Fin 1) (0 : Fin 1) k) = x3 (ix3 (0 : Fin 3) (0 : Fin 1) k) :=
  congrArg x3 (funext fun a => Fin.ext (by
    match a with
    | ⟨0, _⟩ => rfl
    | ⟨1, _⟩ => rfl
    | ⟨2, _⟩ => show 0 + 1 * k.val = k.val; omega))
/-- Slab 1 of the bias stack. -/
theorem bias_slab1 (x3 : Vec Ideal S3x1x128 .f32) (k : Fin 128) :
    View.ld x3 r6_2 (ix3 (0 : Fin 1) (0 : Fin 1) k) = x3 (ix3 (1 : Fin 3) (0 : Fin 1) k) :=
  congrArg x3 (funext fun a => Fin.ext (by
    match a with
    | ⟨0, _⟩ => rfl
    | ⟨1, _⟩ => rfl
    | ⟨2, _⟩ => show 0 + 1 * k.val = k.val; omega))
/-- Slab 2 of the bias stack. -/
theorem bias_slab2 (x3 : Vec Ideal S3x1x128 .f32) (k : Fin 128) :
    View.ld x3 r6_3 (ix3 (0 : Fin 1) (0 : Fin 1) k) = x3 (ix3 (2 : Fin 3) (0 : Fin 1) k) :=
  congrArg x3 (funext fun a => Fin.ext (by
    match a with
    | ⟨0, _⟩ => rfl
    | ⟨1, _⟩ => rfl
    | ⟨2, _⟩ => show 0 + 1 * k.val = k.val; omega))
/-- Slab 0 of the weight stack. -/
theorem weight_slab0 (x4 : Vec Ideal S3x128x16 .f32) (k : Fin 128) (q : Fin 16) :
    View.ld x4 r6_4 (ix3 (0 : Fin 1) k q) = x4 (ix3 (0 : Fin 3) k q) :=
  congrArg x4 (funext fun a => Fin.ext (by
    match a with
    | ⟨0, _⟩ => rfl
    | ⟨1, _⟩ => show 0 + 1 * k.val = k.val; omega
    | ⟨2, _⟩ => show 0 + 1 * q.val = q.val; omega))
/-- Slab 1 of the weight stack. -/
theorem weight_slab1 (x4 : Vec Ideal S3x128x16 .f32) (k : Fin 128) (q : Fin 16) :
    View.ld x4 r6_5 (ix3 (0 : Fin 1) k q) = x4 (ix3 (1 : Fin 3) k q) :=
  congrArg x4 (funext fun a => Fin.ext (by
    match a with
    | ⟨0, _⟩ => rfl
    | ⟨1, _⟩ => show 0 + 1 * k.val = k.val; omega
    | ⟨2, _⟩ => show 0 + 1 * q.val = q.val; omega))
/-- Slab 2 of the weight stack. -/
theorem weight_slab2 (x4 : Vec Ideal S3x128x16 .f32) (k : Fin 128) (q : Fin 16) :
    View.ld x4 r6_6 (ix3 (0 : Fin 1) k q) = x4 (ix3 (2 : Fin 3) k q) :=
  congrArg x4 (funext fun a => Fin.ext (by
    match a with
    | ⟨0, _⟩ => rfl
    | ⟨1, _⟩ => show 0 + 1 * k.val = k.val; omega
    | ⟨2, _⟩ => show 0 + 1 * q.val = q.val; omega))

/-! ## One product of a [2000, 128] block with a [128, 16] slab -/

theorem lhs_axis0 (i : S2000x16.Idx) (q : dot_S2000x128_S128x16_S2000x16_1_0_0_1_n_n.contr.Idx) :
    (dot_S2000x128_S128x16_S2000x16_1_0_0_1_n_n.lhsIdx i q 0).val = (i 0).val := by
  unfold DotDims.lhsIdx
  rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
  rfl
theorem lhs_axis1 (i : S2000x16.Idx) (q : dot_S2000x128_S128x16_S2000x16_1_0_0_1_n_n.contr.Idx) :
    (dot_S2000x128_S128x16_S2000x16_1_0_0_1_n_n.lhsIdx i q 1).val = (q ⟨0, by decide⟩).val :=
  dot_S2000x128_S128x16_S2000x16_1_0_0_1_n_n.lhsIdx_val_of_single rfl i q
theorem rhs_axis0 (i : S2000x16.Idx) (q : dot_S2000x128_S128x16_S2000x16_1_0_0_1_n_n.contr.Idx) :
    (dot_S2000x128_S128x16_S2000x16_1_0_0_1_n_n.rhsIdx i q 0).val = (q ⟨0, by decide⟩).val :=
  dot_S2000x128_S128x16_S2000x16_1_0_0_1_n_n.rhsIdx_val_of_single rfl i q
theorem rhs_axis1 (i : S2000x16.Idx) (q : dot_S2000x128_S128x16_S2000x16_1_0_0_1_n_n.contr.Idx) :
    (dot_S2000x128_S128x16_S2000x16_1_0_0_1_n_n.rhsIdx i q 1).val = (i 1).val := by
  unfold DotDims.rhsIdx
  rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
  rfl

/-- The product into the zero splat, at (p, q): the sum over the 128 shared coordinates. -/
theorem dot_apply (l : FVec Ideal S2000x128 .bf16) (r : FVec Ideal S128x16 .bf16) (p : Fin 2000) (q : Fin 16) :
    matmul dot_S2000x128_S128x16_S2000x16_1_0_0_1_n_n none l r (constant (F := Ideal) S2000x16 .f32 0x00000000#32) (ix2 p q)
      = ∑ k : Fin 128, l (ix2 p k) * r (ix2 k q) := by
  refine (Ideal.matmul_constant_zero_apply dot_S2000x128_S128x16_S2000x16_1_0_0_1_n_n none l r (ix2 p q)).trans ?_
  rw [← Equiv.sum_comp (ValueIdx.contrEquiv1 dot_S2000x128_S128x16_S2000x16_1_0_0_1_n_n 128 rfl rfl).symm]
  refine Finset.sum_congr rfl fun k _ => ?_
  have hk := ValueIdx.contrEquiv1_symm_val dot_S2000x128_S128x16_S2000x16_1_0_0_1_n_n 128 rfl rfl k
  have el : dot_S2000x128_S128x16_S2000x16_1_0_0_1_n_n.lhsIdx (ix2 p q) ((ValueIdx.contrEquiv1 dot_S2000x128_S128x16_S2000x16_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x16_S2000x16_1_0_0_1_n_n.rhsIdx (ix2 p q) ((ValueIdx.contrEquiv1 dot_S2000x128_S128x16_S2000x16_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A feature block with its bias row added, at (p, k). -/
theorem biased_apply (g : Vec Ideal S2000x128 .f32) (b : Vec Ideal S1x1x128 .f32) (p : Fin 2000) (k : Fin 128) :
    k6_pay2 g b (ix2 p k) = g (ix2 p k) + b (ix3 (0 : Fin 1) (0 : Fin 1) k) := by
  unfold k6_pay2
  exact congrArg₂ (· + ·) (congrFun (shapeCast_self g _) _)
    ((broadcastTo_1b_ab_apply _ _ p k).trans (shapeCast_1ab_ab_apply b _ (0 : Fin 1) k))

/-- A weight slab without its unit axis, at (k, q). -/
theorem slab_apply (w : Vec Ideal S1x128x16 .f32) (k : Fin 128) (q : Fin 16) :
    k6_pay3 w (ix2 k q) = w (ix3 (0 : Fin 1) k q) := by
  unfold k6_pay3
  exact shapeCast_1ab_ab_apply w _ k q

/-- The partial product of a biased feature block with one weight slab. -/
def part (g : Vec Ideal S2000x128 .f32) (b : Vec Ideal S1x1x128 .f32) (w : Vec Ideal S1x128x16 .f32) : FVec Ideal S2000x16 .f32 :=
  matmul dot_S2000x128_S128x16_S2000x16_1_0_0_1_n_n none (k6_pay2 g b) (k6_pay3 w) (constant (F := Ideal) S2000x16 .f32 0x00000000#32)

theorem part_apply (g : Vec Ideal S2000x128 .f32) (b : Vec Ideal S1x1x128 .f32) (w : Vec Ideal S1x128x16 .f32)
    (p : Fin 2000) (q : Fin 16) :
    part g b w (ix2 p q) = ∑ k : Fin 128, (g (ix2 p k) + b (ix3 (0 : Fin 1) (0 : Fin 1) k)) * w (ix3 (0 : Fin 1) k q) := by
  unfold part
  refine (dot_apply _ _ p q).trans (Finset.sum_congr rfl fun k _ => ?_)
  rw [biased_apply, slab_apply]

/-! ## The logarithm of the softmax along the 16 lanes of a block -/

/-- The lane index (p, k) of row p. -/
theorem lane_idx (p : Fin 2000) (k : Fin 16) : reduces_S2000x16_S2000.lift (ix1 p) k = ix2 p k :=
  funext fun a => Fin.ext (by
    match a with
    | ⟨0, _⟩ => rfl
    | ⟨1, _⟩ => rfl)

/-- The row maxima of a block: the maximum over the lanes taken from -∞, compared with -∞ once more. -/
def rowMaxVec (y : FVec Ideal S2000x16 .f32) : FVec Ideal S2000 .f32 :=
  maximumf (broadcast S2000 (Scalar.ofBits .f32 0xFF800000#32))
    (multiReduction .maximumf [1] S2000 y 0xFF800000#32 reduces_S2000x16_S2000 (.inl rfl) rfl)

theorem rowMaxVec_apply (y : FVec Ideal S2000x16 .f32) (p : Fin 2000) :
    rowMaxVec y (ix1 p) = Cert.Spec.rowMax (fun k => y (ix2 p k)) := by
  unfold rowMaxVec Cert.Spec.rowMax
  refine congrArg (max (Ideal.ofBits .f32 0xFF800000#32)) ?_
  refine (Ideal.multiReduction_maximumf_single y _ reduces_S2000x16_S2000 _ _ (ix1 p)).trans ?_
  refine Finset.fold_congr fun k _ => ?_
  exact congrArg y (lane_idx p k)

/-- A block with its row maxima subtracted. -/
def shifted (y : FVec Ideal S2000x16 .f32) : FVec Ideal S2000x16 .f32 :=
  subf y (broadcastTo S2000x16 (shapeCast S2000x1 (rowMaxVec y) shapeCasts_S2000_S2000x1) broadcasts_S2000x1_S2000x16)

theorem shifted_apply (y : FVec Ideal S2000x16 .f32) (p : Fin 2000) (q : Fin 16) :
    shifted y (ix2 p q) = y (ix2 p q) - Cert.Spec.rowMax (fun k => y (ix2 p k)) := by
  unfold shifted
  refine congrArg (y (ix2 p q) - ·) ?_
  exact (col_spread_apply _ _ p q).trans ((col_cast_apply _ _ p (0 : Fin 1)).trans (rowMaxVec_apply y p))

/-- The sums of the exponentials along the lanes. -/
def expSum (y : FVec Ideal S2000x16 .f32) : FVec Ideal S2000 .f32 :=
  multiReduction .add [1] S2000 (Idealize.ShloMosaic.exp (shifted y)) 0x00000000#32 reduces_S2000x16_S2000 (.inl rfl) rfl

theorem expSum_apply (y : FVec Ideal S2000x16 .f32) (p : Fin 2000) :
    expSum y (ix1 p) = ∑ k : Fin 16, Ideal.exp (y (ix2 p k) - Cert.Spec.rowMax (fun k => y (ix2 p k))) := by
  unfold expSum
  refine (Ideal.multiReduction_add_single _ _ reduces_S2000x16_S2000 _ _ (ix1 p)).trans ?_
  refine Finset.sum_congr rfl fun k _ => ?_
  exact congrArg Ideal.exp ((congrArg (shifted y) (lane_idx p k)).trans (shifted_apply y p k))

/-- The logarithm of the softmax of a block, lane-wise. -/
def logSoftmaxBlock (y : FVec Ideal S2000x16 .f32) : FVec Ideal S2000x16 .f32 :=
  subf (shifted y)
    (broadcastTo S2000x16 (Idealize.ShloMosaic.log (shapeCast S2000x1 (expSum y) shapeCasts_S2000_S2000x1)) broadcasts_S2000x1_S2000x16)

theorem logSoftmaxBlock_apply (y : FVec Ideal S2000x16 .f32) (p : Fin 2000) (q : Fin 16) :
    logSoftmaxBlock y (ix2 p q) = Cert.Spec.logSoftmaxAt (fun k => y (ix2 p k)) q := by
  unfold logSoftmaxBlock Cert.Spec.logSoftmaxAt
  refine congrArg₂ (· - ·) (shifted_apply y p q) ?_
  refine (col_spread_apply _ _ p q).trans ?_
  show Ideal.log (shapeCast S2000x1 (expSum y) shapeCasts_S2000_S2000x1 (ix2 p (0 : Fin 1))) = _
  rw [col_cast_apply, expSum_apply]

/-! ## The body's block as the logarithm of the softmax of its logits -/

/-- The logits of a block: three partial products added left to right, plus the final bias row. -/
def logits (x0 x1 x2 : Vec Ideal S2000x128 .f32) (b0 b1 b2 : Vec Ideal S1x1x128 .f32) (w0 w1 w2 : Vec Ideal S1x128x16 .f32)
    (x5 : Vec Ideal S1x16 .f32) : FVec Ideal S2000x16 .f32 :=
  addf (addf (addf (part x0 b0 w0) (part x1 b1 w1)) (part x2 b2 w2))
    (broadcastTo S2000x16 (shapeCast S1x16 x5 shapeCasts_S1x16_S1x16) broadcasts_S1x16_S2000x16)

theorem logits_apply (x0 x1 x2 : Vec Ideal S2000x128 .f32) (b0 b1 b2 : Vec Ideal S1x1x128 .f32) (w0 w1 w2 : Vec Ideal S1x128x16 .f32)
    (x5 : Vec Ideal S1x16 .f32) (p : Fin 2000) (q : Fin 16) :
    logits x0 x1 x2 b0 b1 b2 w0 w1 w2 x5 (ix2 p q)
      = (((∑ k : Fin 128, (x0 (ix2 p k) + b0 (ix3 (0 : Fin 1) (0 : Fin 1) k)) * w0 (ix3 (0 : Fin 1) k q))
          + (∑ k : Fin 128, (x1 (ix2 p k) + b1 (ix3 (0 : Fin 1) (0 : Fin 1) k)) * w1 (ix3 (0 : Fin 1) k q)))
          + (∑ k : Fin 128, (x2 (ix2 p k) + b2 (ix3 (0 : Fin 1) (0 : Fin 1) k)) * w2 (ix3 (0 : Fin 1) k q)))
        + x5 (ix2 (0 : Fin 1) q) := by
  unfold logits
  refine congrArg₂ (· + ·) (congrArg₂ (· + ·) (congrArg₂ (· + ·) (part_apply x0 b0 w0 p q) (part_apply x1 b1 w1 p q)) (part_apply x2 b2 w2 p q)) ?_
  exact (broadcastTo_1b_ab_apply _ _ p q).trans (congrFun (shapeCast_self x5 _) _)

/-- The body's arithmetic is the logarithm of the softmax of the logits. -/
theorem payload_eq (x0 x1 x2 : Vec Ideal S2000x128 .f32) (b0 b1 b2 : Vec Ideal S1x1x128 .f32) (w0 w1 w2 : Vec Ideal S1x128x16 .f32)
    (x5 : Vec Ideal S1x16 .f32) :
    k6_pay1 (k6_pay2 x2 b2) (k6_pay3 w2) (k6_pay4 x0 b0 x1 b1 w0 w1) x5 = logSoftmaxBlock (logits x0 x1 x2 b0 b1 b2 w0 w1 w2 x5) := by
  unfold k6_pay1 k6_pay4 logSoftmaxBlock expSum shifted rowMaxVec logits part
  rfl

/-- What the body leaves in the output window, at (p, q), over the six blocks it loads: the logarithm of the softmax
    of row p's logits, each logit three sums over the 128 features plus the final bias. -/
theorem out_apply (x0 x1 x2 : Vec Ideal S2000x128 .f32) (x3 : Vec Ideal S3x1x128 .f32) (x4 : Vec Ideal S3x128x16 .f32)
    (x5 : Vec Ideal S1x16 .f32) (p : Fin 2000) (q : Fin 16) :
    out6_6 x0 x1 x2 x3 x4 x5 (ix2 p q) = Cert.Spec.logSoftmaxAt (fun j =>
      (((∑ k : Fin 128, (x0 (ix2 p k) + x3 (ix3 (0 : Fin 3) (0 : Fin 1) k)) * x4 (ix3 (0 : Fin 3) k j))
          + (∑ k : Fin 128, (x1 (ix2 p k) + x3 (ix3 (1 : Fin 3) (0 : Fin 1) k)) * x4 (ix3 (1 : Fin 3) k j)))
          + (∑ k : Fin 128, (x2 (ix2 p k) + x3 (ix3 (2 : Fin 3) (0 : Fin 1) k)) * x4 (ix3 (2 : Fin 3) k j)))
        + x5 (ix2 (0 : Fin 1) j)) q := by
  unfold out6_6
  rw [View.canon_unit_zero zero2]
  simp only [View.ld_unit_zero (S := S2000x128) zero2, View.ld_unit_zero (S := S1x16) zero2]
  refine (congrFun (payload_eq x0 x1 x2 (View.ld x3 r6_1) (View.ld x3 r6_2) (View.ld x3 r6_3) (View.ld x4 r6_4)
    (View.ld x4 r6_5) (View.ld x4 r6_6) x5) (ix2 p q)).trans ?_
  refine (logSoftmaxBlock_apply _ p q).trans ?_
  refine congrArg (fun f => Cert.Spec.logSoftmaxAt f q) (funext fun j => ?_)
  refine (logits_apply _ _ _ _ _ _ _ _ _ _ p j).trans ?_
  exact congrArg₂ (· + ·) (congrArg₂ (· + ·) (congrArg₂ (· + ·)
      (Finset.sum_congr rfl fun k _ => congrArg₂ (· * ·) (congrArg (x0 (ix2 p k) + ·) (bias_slab0 x3 k)) (weight_slab0 x4 k j))
      (Finset.sum_congr rfl fun k _ => congrArg₂ (· * ·) (congrArg (x1 (ix2 p k) + ·) (bias_slab1 x3 k)) (weight_slab1 x4 k j)))
      (Finset.sum_congr rfl fun k _ => congrArg₂ (· * ·) (congrArg (x2 (ix2 p k) + ·) (bias_slab2 x3 k)) (weight_slab2 x4 k j)))
    rfl

/-! ## From the blocks to the arrays -/

variable (V : (c : Dev nD) → (b : Ref sig .tc) → Buf (Elt Ideal) ((c : Thread nD τ).loc b))

/-- The block index maps over the grid: the three feature windows and the output window sit on block t at point t,
    the bias stack, the weight stack and the final bias row stay whole. -/
theorem index_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 3) = 0 ∧ win6_3.index t (1 : Fin 3) = 0 ∧ win6_3.index t (2 : Fin 3) = 0
    ∧ win6_4.index t (0 : Fin 3) = 0 ∧ win6_4.index t (1 : Fin 3) = 0 ∧ win6_4.index t (2 : Fin 3) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Element (p, k) of the first feature block at point t is the array's at row 2000 t + p. -/
theorem feat0_read (c : Dev nD) (t : Fin cfg6.N) (p : Fin 2000) (k : Fin 128) (r : Fin 50000)
    (hr : r.val = t.val * 2000 + p.val) :
    iblk6 V c 0 t (ix2 p k) = (V c main_v69 : Cert.Spec.M2 50000 128) (ix2 r k) := by
  obtain ⟨e0, e1, -⟩ := index_facts t
  show V c main_v69 (((cfg6.win 0).blk t).view.emb (ix2 p k)) = V c main_v69 (ix2 r k)
  refine congrArg (V c main_v69) (funext fun a => Fin.ext ?_)
  match a with
  | ⟨0, _⟩ => show win6_0.index t (0 : Fin 2) * 2000 + 1 * p.val = r.val; rw [e0, hr]; omega
  | ⟨1, _⟩ => show win6_0.index t (1 : Fin 2) * 128 + 1 * k.val = k.val; rw [e1]; omega

/-- Element (p, k) of the second feature block at point t is the array's at row 2000 t + p. -/
theorem feat1_read (c : Dev nD) (t : Fin cfg6.N) (p : Fin 2000) (k : Fin 128) (r : Fin 50000)
    (hr : r.val = t.val * 2000 + p.val) :
    iblk6 V c 1 t (ix2 p k) = (V c main_v89 : Cert.Spec.M2 50000 128) (ix2 r k) := by
  obtain ⟨-, -, e0, e1, -⟩ := index_facts t
  show V c main_v89 (((cfg6.win 1).blk t).view.emb (ix2 p k)) = V c main_v89 (ix2 r k)
  refine congrArg (V c main_v89) (funext fun a => Fin.ext ?_)
  match a with
  | ⟨0, _⟩ => show win6_1.index t (0 : Fin 2) * 2000 + 1 * p.val = r.val; rw [e0, hr]; omega
  | ⟨1, _⟩ => show win6_1.index t (1 : Fin 2) * 128 + 1 * k.val = k.val; rw [e1]; omega

/-- Element (p, k) of the third feature block at point t is the array's at row 2000 t + p. -/
theorem feat2_read (c : Dev nD) (t : Fin cfg6.N) (p : Fin 2000) (k : Fin 128) (r : Fin 50000)
    (hr : r.val = t.val * 2000 + p.val) :
    iblk6 V c 2 t (ix2 p k) = (V c main_v126 : Cert.Spec.M2 50000 128) (ix2 r k) := by
  obtain ⟨-, -, -, -, e0, e1, -⟩ := index_facts t
  show V c main_v126 (((cfg6.win 2).blk t).view.emb (ix2 p k)) = V c main_v126 (ix2 r k)
  refine congrArg (V c main_v126) (funext fun a => Fin.ext ?_)
  match a with
  | ⟨0, _⟩ => show win6_2.index t (0 : Fin 2) * 2000 + 1 * p.val = r.val; rw [e0, hr]; omega
  | ⟨1, _⟩ => show win6_2.index t (1 : Fin 2) * 128 + 1 * k.val = k.val; rw [e1]; omega

/-- The bias stack is whole at every point. -/
theorem bias_read (c : Dev nD) (t : Fin cfg6.N) (i : Fin 3) (k : Fin 128) :
    iblk6 V c 3 t (ix3 i (0 : Fin 1) k) = (V c main_arg6 : Cert.Spec.M3 3 1 128) (ix3 i (0 : Fin 1) k) := by
  obtain ⟨-, -, -, -, -, -, e0, e1, e2, -⟩ := index_facts t
  show V c main_arg6 (((cfg6.win 3).blk t).view.emb (ix3 i (0 : Fin 1) k)) = V c main_arg6 (ix3 i (0 : Fin 1) k)
  refine congrArg (V c main_arg6) (funext fun a => Fin.ext ?_)
  match a with
  | ⟨0, _⟩ => show win6_3.index t (0 : Fin 3) * 3 + 1 * i.val = i.val; rw [e0]; omega
  | ⟨1, _⟩ => show win6_3.index t (1 : Fin 3) * 1 + 1 * 0 = 0; rw [e1]
  | ⟨2, _⟩ => show win6_3.index t (2 : Fin 3) * 128 + 1 * k.val = k.val; rw [e2]; omega

/-- The weight stack is whole at every point. -/
theorem weight_read (c : Dev nD) (t : Fin cfg6.N) (i : Fin 3) (k : Fin 128) (j : Fin 16) :
    iblk6 V c 4 t (ix3 i k j) = (V c main_v127 : Cert.Spec.M3 3 128 16) (ix3 i k j) := by
  obtain ⟨-, -, -, -, -, -, -, -, -, e0, e1, e2, -⟩ := index_facts t
  show V c main_v127 (((cfg6.win 4).blk t).view.emb (ix3 i k j)) = V c main_v127 (ix3 i k j)
  refine congrArg (V c main_v127) (funext fun a => Fin.ext ?_)
  match a with
  | ⟨0, _⟩ => show win6_4.index t (0 : Fin 3) * 3 + 1 * i.val = i.val; rw [e0]; omega
  | ⟨1, _⟩ => show win6_4.index t (1 : Fin 3) * 128 + 1 * k.val = k.val; rw [e1]; omega
  | ⟨2, _⟩ => show win6_4.index t (2 : Fin 3) * 16 + 1 * j.val = j.val; rw [e2]; omega

/-- The final bias row is whole at every point. -/
theorem last_bias_read (c : Dev nD) (t : Fin cfg6.N) (j : Fin 16) :
    iblk6 V c 5 t (ix2 (0 : Fin 1) j) = (V c main_v128 : Cert.Spec.M2 1 16) (ix2 (0 : Fin 1) j) := by
  obtain ⟨-, -, -, -, -, -, -, -, -, -, -, -, e0, e1, -⟩ := index_facts t
  show V c main_v128 (((cfg6.win 5).blk t).view.emb (ix2 (0 : Fin 1) j)) = V c main_v128 (ix2 (0 : Fin 1) j)
  refine congrArg (V c main_v128) (funext fun a => Fin.ext ?_)
  match a with
  | ⟨0, _⟩ => show win6_5.index t (0 : Fin 2) * 1 + 1 * 0 = 0; rw [e0]
  | ⟨1, _⟩ => show win6_5.index t (1 : Fin 2) * 16 + 1 * j.val = j.val; rw [e1]; omega

/-- What point t writes back is block t of the last stage of the arrays the region found. -/
theorem flushed_eq (c : Dev nD) (t : Fin cfg6.N) :
    (dat6 (F := Ideal) V c).flushed 6 t = ((cfg6.win 6).blk t).view.read (Elt Ideal)
      (Cert.Spec.final (V c main_v69) (V c main_v89) (V c main_v126) (V c main_arg6) (V c main_v127) (V c main_v128)) := by
  show (cfg6.win 6).cut (grid6.coords t) ((dat6 (F := Ideal) V c).after 6 t) = _
  rw [after6_6]
  funext j
  obtain ⟨p, q, rfl⟩ : ∃ (p : Fin 2000) (q : Fin 16), j = ix2 p q := ⟨j 0, j 1, eq_ix2 j⟩
  have hN : cfg6.N = 25 := N_6
  have ht : t.val < cfg6.N := t.isLt
  have hp : p.val < 2000 := p.isLt
  obtain ⟨r, hr⟩ : ∃ r : Fin 50000, r.val = t.val * 2000 + p.val := ⟨⟨t.val * 2000 + p.val, by omega⟩, rfl⟩
  obtain ⟨-, -, -, -, -, -, -, -, -, -, -, -, -, -, e0, e1⟩ := index_facts t
  have hemb : ((cfg6.win 6).blk t).view.emb (ix2 p q) = (ix2 r q : S50000x16.Idx) := funext fun a => Fin.ext (by
    match a with
    | ⟨0, _⟩ => show win6_6.index t (0 : Fin 2) * 2000 + 1 * p.val = r.val; rw [e0, hr]; omega
    | ⟨1, _⟩ => show win6_6.index t (1 : Fin 2) * 16 + 1 * q.val = q.val; rw [e1]; omega)
  show out6_6 (iblk6 V c 0 t) (iblk6 V c 1 t) (iblk6 V c 2 t) (iblk6 V c 3 t) (iblk6 V c 4 t) (iblk6 V c 5 t) (ix2 p q)
    = Cert.Spec.final (V c main_v69) (V c main_v89) (V c main_v126) (V c main_arg6) (V c main_v127) (V c main_v128)
        (((cfg6.win 6).blk t).view.emb (ix2 p q))
  rw [hemb, Cert.Spec.final_apply]
  refine (out_apply _ _ _ _ _ _ p q).trans ?_
  unfold Cert.Spec.finalAt Cert.Spec.logitAt
  refine congrArg (fun f => Cert.Spec.logSoftmaxAt f q) (funext fun j => ?_)
  exact congrArg₂ (· + ·) (congrArg₂ (· + ·) (congrArg₂ (· + ·)
      (Finset.sum_congr rfl fun k _ => congrArg₂ (· * ·)
        (congrArg₂ (· + ·) (feat0_read V c t p k r hr) (bias_read V c t 0 k)) (weight_read V c t 0 k j))
      (Finset.sum_congr rfl fun k _ => congrArg₂ (· * ·)
        (congrArg₂ (· + ·) (feat1_read V c t p k r hr) (bias_read V c t 1 k)) (weight_read V c t 1 k j)))
      (Finset.sum_congr rfl fun k _ => congrArg₂ (· * ·)
        (congrArg₂ (· + ·) (feat2_read V c t p k r hr) (bias_read V c t 2 k)) (weight_read V c t 2 k j)))
    (last_bias_read V c t j)

/-- An index of the output array is in point t's block iff each coordinate is in the block's range on its axis. -/
theorem mem_block (t : Fin cfg6.N) (i : S50000x16.Idx) :
    i ∈ ((cfg6.win 6).blk t).view.set ↔ ∀ a : Fin 2, win6_6.index t a * S2000x16.size a ≤ (i a).val
      ∧ (i a).val < win6_6.index t a * S2000x16.size a + S2000x16.size a := by
  show i ∈ ((View.whole main_v129).slice (win6_6.rect t)).set ↔ _
  rw [View.set_slice_whole, Rect.mem_set_unit]
  exact Iff.rfl

/-- After region 6 its output array holds the last stage of the arrays the region found. -/
theorem arr6 (c : Dev nD) :
    (dat6 (F := Ideal) V c).arrAt 6 cfg6.N
      = Cert.Spec.final (V c main_v69) (V c main_v89) (V c main_v126) (V c main_arg6) (V c main_v127) (V c main_v128) := by
  refine (dat6 (F := Ideal) V c).arrAt_eq_of_cover 6 _ (fun t _ => flushed_eq V c t) fun i => ?_
  have hN : cfg6.N = 25 := N_6
  have hi0 : (i 0).val < 50000 := (i 0).isLt
  have hi1 : (i 1).val < 16 := (i 1).isLt
  obtain ⟨t, ht⟩ : ∃ t : Fin cfg6.N, t.val = (i 0).val / 2000 := ⟨⟨(i 0).val / 2000, by rw [hN]; omega⟩, rfl⟩
  obtain ⟨-, -, -, -, -, -, -, -, -, -, -, -, -, -, e0, e1⟩ := index_facts t
  refine ⟨t, flush6_6 t, ?_⟩
  rw [mem_block]
  intro a
  match a with
  | ⟨0, _⟩ =>
    show win6_6.index t (0 : Fin 2) * 2000 ≤ (i 0).val ∧ (i 0).val < win6_6.index t (0 : Fin 2) * 2000 + 2000
    rw [e0, ht]; omega
  | ⟨1, _⟩ =>
    show win6_6.index t (1 : Fin 2) * 16 ≤ (i 1).val ∧ (i 1).val < win6_6.index t (1 : Fin 2) * 16 + 16
    rw [e1]; omega

end Cert.KernelIdeal.Reg6

end
-- ==== Proof.KLayout.lean ====
import proofs.«417311_j57097295233451_3_alg».proof.Proof.Gen.KernelIdeal
import proofs.«417311_j57097295233451_3_alg».proof.Proof.Spec
import Idealize.ShloMosaic.Lib.Pipeline.Value
import Idealize.ShloMosaic.Lib.ValueIdx
import Idealize.ShloMosaic.Lib.ValueLayout

noncomputable section

namespace Cert.KernelIdeal.KLayout

open Cert.KernelIdeal Cert.KernelIdeal.Gen Idealize.ShloMosaic Idealize.ShloMosaic.TcCoe
open Idealize.ShloMosaic.ValueIdx

/-- Slab i of the [3, 384, 128] weight, recast as [3, 3, 128, 128], cut out and recast as [3, 128, 128], read at
    (p, k, q): the recast keeps the row-major position, so row 128·p + k of slab i. -/
theorem w2blk_at (i : Fin 3) (x5 : (⟨S3x384x128, .f32⟩ : BufTy).Contents (Elt Ideal))
    (hs : S3x3x128x128.Slices ![i.val, 0, 0, 0] S1x3x128x128) :
    shapeCast S3x128x128 (extractStridedSlice S1x3x128x128 ![i.val, 0, 0, 0]
        (shapeCast S3x3x128x128 x5 shapeCasts_S3x384x128_S3x3x128x128) hs)
      shapeCasts_S1x3x128x128_S3x128x128 = Cert.Spec.w2blk i x5 := by
  funext j
  obtain ⟨p, k, q, rfl⟩ : ∃ (p : Fin 3) (k : Fin 128) (q : Fin 128), j = ix3 p k q := ⟨j 0, j 1, j 2, eq_ix3 j⟩
  rw [Cert.Spec.w2blk_apply]
  unfold Cert.Spec.w2blkAt
  have hp : p.val < 3 := p.isLt
  have hk : k.val < 128 := k.isLt
  have hq : q.val < 128 := q.isLt
  have hi : i.val < 3 := i.isLt
  refine (shapeCast_apply _ shapeCasts_S1x3x128x128_S3x128x128 (ix3 p k q) (ix4 (0 : Fin 1) p k q) ?_).trans ?_
  · rw [Shape.rowMajor_val_four, Shape.rowMajor_val_three]
    show ((0 * 3 + p.val) * 128 + k.val) * 128 + q.val = (p.val * 128 + k.val) * 128 + q.val
    omega
  refine (extractStridedSlice_apply ![i.val, 0, 0, 0] _ hs (ix4 (0 : Fin 1) p k q) (ix4 i p k q) ?_).trans ?_
  · intro a
    match a with
    | ⟨0, _⟩ => show i.val = i.val + 0; omega
    | ⟨1, _⟩ => show p.val = 0 + p.val; omega
    | ⟨2, _⟩ => show k.val = 0 + k.val; omega
    | ⟨3, _⟩ => show q.val = 0 + q.val; omega
  exact shapeCast_apply x5 shapeCasts_S3x384x128_S3x3x128x128 (ix4 i p k q) (ix3 i ⟨p.val * 128 + k.val, by omega⟩ q) (by
    rw [Shape.rowMajor_val_three, Shape.rowMajor_val_four]
    show (i.val * 384 + (p.val * 128 + k.val)) * 128 + q.val = ((i.val * 3 + p.val) * 128 + k.val) * 128 + q.val
    omega)

/-- Slab 0 of the [3, 384, 128] weight, recast as [3, 3, 128, 128], cut out and recast as [3, 128, 128], is the slab's
    three row blocks. -/
theorem w2blk0 (x5 : (⟨S3x384x128, .f32⟩ : BufTy).Contents (Elt Ideal)) :
    shapeCast S3x128x128 (extractStridedSlice S1x3x128x128 ![0, 0, 0, 0]
        (shapeCast S3x3x128x128 x5 shapeCasts_S3x384x128_S3x3x128x128) slices_S3x3x128x128_S1x3x128x128_0_0_0_0)
      shapeCasts_S1x3x128x128_S3x128x128 = Cert.Spec.w2blk 0 x5 :=
  w2blk_at 0 x5 slices_S3x3x128x128_S1x3x128x128_0_0_0_0

/-- The same for slab 1. -/
theorem w2blk1 (x5 : (⟨S3x384x128, .f32⟩ : BufTy).Contents (Elt Ideal)) :
    shapeCast S3x128x128 (extractStridedSlice S1x3x128x128 ![1, 0, 0, 0]
        (shapeCast S3x3x128x128 x5 shapeCasts_S3x384x128_S3x3x128x128) slices_S3x3x128x128_S1x3x128x128_1_0_0_0)
      shapeCasts_S1x3x128x128_S3x128x128 = Cert.Spec.w2blk 1 x5 :=
  w2blk_at 1 x5 slices_S3x3x128x128_S1x3x128x128_1_0_0_0

/-- The same for slab 2. -/
theorem w2blk2 (x5 : (⟨S3x384x128, .f32⟩ : BufTy).Contents (Elt Ideal)) :
    shapeCast S3x128x128 (extractStridedSlice S1x3x128x128 ![2, 0, 0, 0]
        (shapeCast S3x3x128x128 x5 shapeCasts_S3x384x128_S3x3x128x128) slices_S3x3x128x128_S1x3x128x128_2_0_0_0)
      shapeCasts_S1x3x128x128_S3x128x128 = Cert.Spec.w2blk 2 x5 :=
  w2blk_at 2 x5 slices_S3x3x128x128_S1x3x128x128_2_0_0_0

/-- The [384, 16] weight recast as [3, 128, 16] is its three row blocks. -/
theorem wfblk (x7 : (⟨S384x16, .f32⟩ : BufTy).Contents (Elt Ideal)) :
    shapeCast S3x128x16 x7 shapeCasts_S384x16_S3x128x16 = Cert.Spec.wfblk x7 := by
  funext j
  obtain ⟨p, k, q, rfl⟩ : ∃ (p : Fin 3) (k : Fin 128) (q : Fin 16), j = ix3 p k q := ⟨j 0, j 1, j 2, eq_ix3 j⟩
  rw [Cert.Spec.wfblk_apply]
  unfold Cert.Spec.wfblkAt
  have hp : p.val < 3 := p.isLt
  have hk : k.val < 128 := k.isLt
  have hq : q.val < 16 := q.isLt
  exact shapeCast_apply x7 shapeCasts_S384x16_S3x128x16 (ix3 p k q) (ix2 ⟨p.val * 128 + k.val, by omega⟩ q) (by
    rw [Shape.rowMajor_val_two, Shape.rowMajor_val_three]
    show (p.val * 128 + k.val) * 16 + q.val = (p.val * 128 + k.val) * 16 + q.val
    rfl)

/-- The vector of 16 biases recast as [1, 16] is the vector as a row. -/
theorem bfrow (x8 : (⟨S16, .f32⟩ : BufTy).Contents (Elt Ideal)) :
    shapeCast S1x16 x8 shapeCasts_S16_S1x16 = Cert.Spec.bfrow x8 := by
  funext j
  obtain ⟨u, q, rfl⟩ : ∃ (u : Fin 1) (q : Fin 16), j = ix2 u q := ⟨j 0, j 1, eq_ix2 j⟩
  have hu : u = 0 := Subsingleton.elim _ _
  subst hu
  rw [Cert.Spec.bfrow_apply]
  exact shapeCast_a_1a_apply x8 shapeCasts_S16_S1x16 0 q

end Cert.KernelIdeal.KLayout

end
-- ==== Proof.RefDense1.lean ====
import proofs.«417311_j57097295233451_3_alg».proof.Proof.ReadP
import proofs.«417311_j57097295233451_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefDense1

open Cert.ReferenceIdeal Cert.ReferenceIdeal.Gen Cert.ReferenceIdeal.ReadP Idealize.ShloMosaic Idealize.ShloMosaic.TcCoe
open Idealize.ShloMosaic.ValueIdx

variable (x0 : (⟨S50000x512, .f32⟩ : BufTy).Contents (Elt Ideal)) (x1 : (⟨S2x800000, .i32⟩ : BufTy).Contents (Elt Ideal))
  (x2 : (⟨S800000, .f32⟩ : BufTy).Contents (Elt Ideal)) (x3 : (⟨S3x512x128, .f32⟩ : BufTy).Contents (Elt Ideal))
  (x4 : (⟨S3x1x128, .f32⟩ : BufTy).Contents (Elt Ideal)) (x5 : (⟨S3x384x128, .f32⟩ : BufTy).Contents (Elt Ideal))
  (x6 : (⟨S3x1x128, .f32⟩ : BufTy).Contents (Elt Ideal)) (x7 : (⟨S384x16, .f32⟩ : BufTy).Contents (Elt Ideal))
  (x8 : (⟨S16, .f32⟩ : BufTy).Contents (Elt Ideal))

/-- The reference's first hop-0 feature matrix is the first stage of x and slab 0 of the first-layer weight and bias. -/
theorem d1a : Cert.Spec.dense1 x0 (val_main_v1 (F := Ideal) x3) (val_main_v4 (F := Ideal) x4) = val_main_v7 (F := Ideal) x0 x3 x4 := by
  funext i
  obtain ⟨r, j, rfl⟩ : ∃ (r : Fin 50000) (j : Fin 128), i = ix2 r j := ⟨i 0, i 1, eq_ix2 i⟩
  rw [Cert.Spec.dense1_apply]
  unfold Cert.Spec.dense1At
  rw [val_main_v7_apply, val_main_v6_apply, val_main_v2_apply, val_main_v5_apply, val_main_call0_v0_apply, val_main_call0_cst_apply]
  generalize val_main_v1 (F := Ideal) x3 = w
  generalize val_main_v4 (F := Ideal) x4 = b
  have el : ∀ k : Fin 512, lidx_main_v2 (ix2 r j) k = ix2 r k := fun k =>
    funext fun a => Fin.ext (by match a with | ⟨0, _⟩ => rfl | ⟨1, _⟩ => rfl)
  have er : ∀ k : Fin 512, ridx_main_v2 (ix2 r j) k = ix2 k j := fun k =>
    funext fun a => Fin.ext (by match a with | ⟨0, _⟩ => rfl | ⟨1, _⟩ => rfl)
  have eb : idx_main_v5 (ix2 r j) = ix2 0 j :=
    funext fun a => Fin.ext (by match a with | ⟨0, _⟩ => rfl | ⟨1, _⟩ => rfl)
  simp only [el, er, eb, Ideal.addf_def, Ideal.maximumf_def, Ideal.ofBits_def]

end Cert.ReferenceIdeal.RefDense1

end
-- ==== Proof.RefDense1B.lean ====
import proofs.«417311_j57097295233451_3_alg».proof.Proof.ReadP
import proofs.«417311_j57097295233451_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefDense1

open Cert.ReferenceIdeal Cert.ReferenceIdeal.Gen Cert.ReferenceIdeal.ReadP Idealize.ShloMosaic Idealize.ShloMosaic.TcCoe
open Idealize.ShloMosaic.ValueIdx

variable (x0 : (⟨S50000x512, .f32⟩ : BufTy).Contents (Elt Ideal)) (x1 : (⟨S2x800000, .i32⟩ : BufTy).Contents (Elt Ideal))
  (x2 : (⟨S800000, .f32⟩ : BufTy).Contents (Elt Ideal)) (x3 : (⟨S3x512x128, .f32⟩ : BufTy).Contents (Elt Ideal))
  (x4 : (⟨S3x1x128, .f32⟩ : BufTy).Contents (Elt Ideal)) (x5 : (⟨S3x384x128, .f32⟩ : BufTy).Contents (Elt Ideal))
  (x6 : (⟨S3x1x128, .f32⟩ : BufTy).Contents (Elt Ideal)) (x7 : (⟨S384x16, .f32⟩ : BufTy).Contents (Elt Ideal))
  (x8 : (⟨S16, .f32⟩ : BufTy).Contents (Elt Ideal))

/-- The reference's second first-layer feature matrix is the first stage of x and slab 1 of the first-layer weight and bias. -/
theorem d1b : Cert.Spec.dense1 x0 (val_main_v9 (F := Ideal) x3) (val_main_v12 (F := Ideal) x4) = val_main_v15 (F := Ideal) x0 x3 x4 := by
  funext i
  obtain ⟨r, j, rfl⟩ : ∃ (r : Fin 50000) (j : Fin 128), i = ix2 r j := ⟨i 0, i 1, eq_ix2 i⟩
  rw [Cert.Spec.dense1_apply]
  unfold Cert.Spec.dense1At
  rw [val_main_v15_apply, val_main_v14_apply, val_main_v10_apply, val_main_v13_apply, val_main_call1_v0_apply, val_main_call1_cst_apply]
  generalize val_main_v9 (F := Ideal) x3 = w
  generalize val_main_v12 (F := Ideal) x4 = b
  have el : ∀ k : Fin 512, lidx_main_v10 (ix2 r j) k = ix2 r k := fun k =>
    funext fun a => Fin.ext (by match a with | ⟨0, _⟩ => rfl | ⟨1, _⟩ => rfl)
  have er : ∀ k : Fin 512, ridx_main_v10 (ix2 r j) k = ix2 k j := fun k =>
    funext fun a => Fin.ext (by match a with | ⟨0, _⟩ => rfl | ⟨1, _⟩ => rfl)
  have eb : idx_main_v13 (ix2 r j) = ix2 0 j :=
    funext fun a => Fin.ext (by match a with | ⟨0, _⟩ => rfl | ⟨1, _⟩ => rfl)
  simp only [el, er, eb, Ideal.addf_def, Ideal.maximumf_def, Ideal.ofBits_def]

end Cert.ReferenceIdeal.RefDense1

end
-- ==== Proof.RefDense1C.lean ====
import proofs.«417311_j57097295233451_3_alg».proof.Proof.ReadP
import proofs.«417311_j57097295233451_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefDense1

open Cert.ReferenceIdeal Cert.ReferenceIdeal.Gen Cert.ReferenceIdeal.ReadP Idealize.ShloMosaic Idealize.ShloMosaic.TcCoe
open Idealize.ShloMosaic.ValueIdx

variable (x0 : (⟨S50000x512, .f32⟩ : BufTy).Contents (Elt Ideal)) (x1 : (⟨S2x800000, .i32⟩ : BufTy).Contents (Elt Ideal))
  (x2 : (⟨S800000, .f32⟩ : BufTy).Contents (Elt Ideal)) (x3 : (⟨S3x512x128, .f32⟩ : BufTy).Contents (Elt Ideal))
  (x4 : (⟨S3x1x128, .f32⟩ : BufTy).Contents (Elt Ideal)) (x5 : (⟨S3x384x128, .f32⟩ : BufTy).Contents (Elt Ideal))
  (x6 : (⟨S3x1x128, .f32⟩ : BufTy).Contents (Elt Ideal)) (x7 : (⟨S384x16, .f32⟩ : BufTy).Contents (Elt Ideal))
  (x8 : (⟨S16, .f32⟩ : BufTy).Contents (Elt Ideal))

/-- The reference's third first-layer feature matrix is the first stage of x and slab 2 of the first-layer weight and bias. -/
theorem d1c : Cert.Spec.dense1 x0 (val_main_v34 (F := Ideal) x3) (val_main_v37 (F := Ideal) x4) = val_main_v40 (F := Ideal) x0 x3 x4 := by
  funext i
  obtain ⟨r, j, rfl⟩ : ∃ (r : Fin 50000) (j : Fin 128), i = ix2 r j := ⟨i 0, i 1, eq_ix2 i⟩
  rw [Cert.Spec.dense1_apply]
  unfold Cert.Spec.dense1At
  rw [val_main_v40_apply, val_main_v39_apply, val_main_v35_apply, val_main_v38_apply, val_main_call2_v0_apply, val_main_call2_cst_apply]
  generalize val_main_v34 (F := Ideal) x3 = w
  generalize val_main_v37 (F := Ideal) x4 = b
  have el : ∀ k : Fin 512, lidx_main_v35 (ix2 r j) k = ix2 r k := fun k =>
    funext fun a => Fin.ext (by match a with | ⟨0, _⟩ => rfl | ⟨1, _⟩ => rfl)
  have er : ∀ k : Fin 512, ridx_main_v35 (ix2 r j) k = ix2 k j := fun k =>
    funext fun a => Fin.ext (by match a with | ⟨0, _⟩ => rfl | ⟨1, _⟩ => rfl)
  have eb : idx_main_v38 (ix2 r j) = ix2 0 j :=
    funext fun a => Fin.ext (by match a with | ⟨0, _⟩ => rfl | ⟨1, _⟩ => rfl)
  simp only [el, er, eb, Ideal.addf_def, Ideal.maximumf_def, Ideal.ofBits_def]

end Cert.ReferenceIdeal.RefDense1

end
-- ==== Proof.RefDense2.lean ====
import proofs.«417311_j57097295233451_3_alg».proof.Proof.ReadP
import proofs.«417311_j57097295233451_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefDense2

open Cert.ReferenceIdeal Cert.ReferenceIdeal.Gen Cert.ReferenceIdeal.ReadP Idealize.ShloMosaic Idealize.ShloMosaic.TcCoe
open Idealize.ShloMosaic.ValueIdx

variable (x0 : (⟨S50000x512, .f32⟩ : BufTy).Contents (Elt Ideal)) (x1 : (⟨S2x800000, .i32⟩ : BufTy).Contents (Elt Ideal))
  (x2 : (⟨S800000, .f32⟩ : BufTy).Contents (Elt Ideal)) (x3 : (⟨S3x512x128, .f32⟩ : BufTy).Contents (Elt Ideal))
  (x4 : (⟨S3x1x128, .f32⟩ : BufTy).Contents (Elt Ideal)) (x5 : (⟨S3x384x128, .f32⟩ : BufTy).Contents (Elt Ideal))
  (x6 : (⟨S3x1x128, .f32⟩ : BufTy).Contents (Elt Ideal)) (x7 : (⟨S384x16, .f32⟩ : BufTy).Contents (Elt Ideal))
  (x8 : (⟨S16, .f32⟩ : BufTy).Contents (Elt Ideal))

/-- A sum over 384 terms is the sum of its three consecutive runs of 128 terms, added left to right. -/
theorem sum_three_runs {M : Type} [AddCommMonoid M] (f : Fin 384 → M) :
    ∑ k : Fin 384, f k = (∑ k : Fin 128, f ⟨k.val, by omega⟩ + ∑ k : Fin 128, f ⟨128 + k.val, by omega⟩)
      + ∑ k : Fin 128, f ⟨256 + k.val, by omega⟩ := by
  have h1 := Fin.sum_univ_add (a := 128 + 128) (b := 128) f
  have h2 := Fin.sum_univ_add (a := 128) (b := 128) (fun i : Fin (128 + 128) => f (Fin.castAdd 128 i))
  refine h1.trans ?_
  rw [h2]
  rfl

/-- Three matrices laid side by side, read in the first block of columns: the first matrix. -/
theorem side_by_side_0 (f0 f1 f2 : (⟨S50000x128, .f32⟩ : BufTy).Contents (Elt Ideal)) (r : Fin 50000) (k : Fin 128) :
    concatenate S50000x384 1 [⟨S50000x128, f0⟩, ⟨S50000x128, f1⟩, ⟨S50000x128, f2⟩] concatenates_S50000x128_S50000x128_S50000x128_S50000x384_d1 (ix2 r (⟨k.val, by omega⟩ : Fin 384)) = f0 (ix2 r k) :=
  concatenate_apply_piece (t := S50000x384) 1 [⟨S50000x128, f0⟩, ⟨S50000x128, f1⟩, ⟨S50000x128, f2⟩] concatenates_S50000x128_S50000x128_S50000x128_S50000x384_d1 (ix2 r (⟨k.val, by omega⟩ : Fin 384))
    0 (by simp) S50000x128 f0 rfl rfl 0 rfl (ix2 r k)
    (fun b hb => by match b with | ⟨0, _⟩ => rfl | ⟨1, _⟩ => exact absurd rfl hb)
    (by show 0 + k.val = k.val; omega)

/-- Three matrices laid side by side, read in the second block of columns: the second matrix. -/
theorem side_by_side_1 (f0 f1 f2 : (⟨S50000x128, .f32⟩ : BufTy).Contents (Elt Ideal)) (r : Fin 50000) (k : Fin 128) :
    concatenate S50000x384 1 [⟨S50000x128, f0⟩, ⟨S50000x128, f1⟩, ⟨S50000x128, f2⟩] concatenates_S50000x128_S50000x128_S50000x128_S50000x384_d1 (ix2 r (⟨128 + k.val, by omega⟩ : Fin 384)) = f1 (ix2 r k) :=
  concatenate_apply_piece (t := S50000x384) 1 [⟨S50000x128, f0⟩, ⟨S50000x128, f1⟩, ⟨S50000x128, f2⟩] concatenates_S50000x128_S50000x128_S50000x128_S50000x384_d1 (ix2 r (⟨128 + k.val, by omega⟩ : Fin 384))
    1 (by simp) S50000x128 f1 rfl rfl 128 rfl (ix2 r k)
    (fun b hb => by match b with | ⟨0, _⟩ => rfl | ⟨1, _⟩ => exact absurd rfl hb)
    (by show 128 + k.val = 128 + k.val; rfl)

/-- Three matrices laid side by side, read in the third block of columns: the third matrix. -/
theorem side_by_side_2 (f0 f1 f2 : (⟨S50000x128, .f32⟩ : BufTy).Contents (Elt Ideal)) (r : Fin 50000) (k : Fin 128) :
    concatenate S50000x384 1 [⟨S50000x128, f0⟩, ⟨S50000x128, f1⟩, ⟨S50000x128, f2⟩] concatenates_S50000x128_S50000x128_S50000x128_S50000x384_d1 (ix2 r (⟨256 + k.val, by omega⟩ : Fin 384)) = f2 (ix2 r k) :=
  concatenate_apply_piece (t := S50000x384) 1 [⟨S50000x128, f0⟩, ⟨S50000x128, f1⟩, ⟨S50000x128, f2⟩] concatenates_S50000x128_S50000x128_S50000x128_S50000x384_d1 (ix2 r (⟨256 + k.val, by omega⟩ : Fin 384))
    2 (by simp) S50000x128 f2 rfl rfl 256 rfl (ix2 r k)
    (fun b hb => by match b with | ⟨0, _⟩ => rfl | ⟨1, _⟩ => exact absurd rfl hb)
    (by show 256 + k.val = 256 + k.val; rfl)

/-- Row r of three matrices laid side by side, times column j of a 384-row matrix, is the sum of the three rows' products
    with the three runs of 128 rows of that matrix. -/
theorem side_by_side_dot (f0 f1 f2 : (⟨S50000x128, .f32⟩ : BufTy).Contents (Elt Ideal)) (w : (⟨S384x128, .f32⟩ : BufTy).Contents (Elt Ideal)) (r : Fin 50000) (j : Fin 128) :
    ∑ k : Fin 384, concatenate S50000x384 1 [⟨S50000x128, f0⟩, ⟨S50000x128, f1⟩, ⟨S50000x128, f2⟩] concatenates_S50000x128_S50000x128_S50000x128_S50000x384_d1 (ix2 r k) * w (ix2 k j)
      = (∑ k : Fin 128, f0 (ix2 r k) * w (ix2 (⟨k.val, by omega⟩ : Fin 384) j)
          + ∑ k : Fin 128, f1 (ix2 r k) * w (ix2 (⟨128 + k.val, by omega⟩ : Fin 384) j))
        + ∑ k : Fin 128, f2 (ix2 r k) * w (ix2 (⟨256 + k.val, by omega⟩ : Fin 384) j) := by
  rw [sum_three_runs]
  refine congrArg₂ (· + ·) (congrArg₂ (· + ·) ?_ ?_) ?_
  · exact Finset.sum_congr rfl fun k _ => congrArg (· * _) (side_by_side_0 f0 f1 f2 r k)
  · exact Finset.sum_congr rfl fun k _ => congrArg (· * _) (side_by_side_1 f0 f1 f2 r k)
  · exact Finset.sum_congr rfl fun k _ => congrArg (· * _) (side_by_side_2 f0 f1 f2 r k)

/-- Slab 0 of the second-layer weight, reshaped to a matrix, at row k and column j. -/
theorem slab0_apply (k : Fin 384) (j : Fin 128) :
    val_main_v77 (F := Ideal) x5 (ix2 k j) = x5 (ix3 0 k j) := by
  rw [val_main_v77_apply, val_main_v76_apply]
  refine congrArg x5 (funext fun a => Fin.ext ?_)
  have hk : k.val < 384 := k.isLt
  have hj : j.val < 128 := j.isLt
  match a with
  | ⟨0, _⟩ => rfl
  | ⟨1, _⟩ => show (k.val * 128 + j.val) / 128 % 384 = k.val; omega
  | ⟨2, _⟩ => show (k.val * 128 + j.val) % 128 = j.val; omega

/-- The product of the three feature matrices laid side by side with slab 0 of the second-layer weight is the second stage
    of the three matrices and that slab's three row blocks. -/
theorem d2a : Cert.Spec.dense2 (val_main_v7 (F := Ideal) x0 x3 x4) (val_main_v32 (F := Ideal) x0 x1 x2 x3 x4)
      (val_main_v74 (F := Ideal) x0 x1 x2 x3 x4) (Cert.Spec.w2blk 0 x5) = val_main_v78 (F := Ideal) x0 x1 x2 x3 x4 x5 := by
  funext i
  obtain ⟨r, j, rfl⟩ : ∃ (r : Fin 50000) (j : Fin 128), i = ix2 r j := ⟨i 0, i 1, eq_ix2 i⟩
  rw [Cert.Spec.dense2_apply, val_main_v78_apply]
  unfold Cert.Spec.dense2At val_main_v75
  generalize val_main_v7 (F := Ideal) x0 x3 x4 = f0
  generalize val_main_v32 (F := Ideal) x0 x1 x2 x3 x4 = f1
  generalize val_main_v74 (F := Ideal) x0 x1 x2 x3 x4 = f2
  have el : ∀ k : Fin 384, lidx_main_v78 (ix2 r j) k = ix2 r k := fun k =>
    funext fun a => Fin.ext (by match a with | ⟨0, _⟩ => rfl | ⟨1, _⟩ => rfl)
  have er : ∀ k : Fin 384, ridx_main_v78 (ix2 r j) k = ix2 k j := fun k =>
    funext fun a => Fin.ext (by match a with | ⟨0, _⟩ => rfl | ⟨1, _⟩ => rfl)
  simp only [el, er]
  rw [side_by_side_dot]
  simp only [slab0_apply, Cert.Spec.w2blk_apply]
  rfl

end Cert.ReferenceIdeal.RefDense2

end
-- ==== Proof.RefDense2B.lean ====
import proofs.«417311_j57097295233451_3_alg».proof.Proof.RefDense2
import proofs.«417311_j57097295233451_3_alg».proof.Proof.ReadP
import proofs.«417311_j57097295233451_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefDense2

open Cert.ReferenceIdeal Cert.ReferenceIdeal.Gen Cert.ReferenceIdeal.ReadP Idealize.ShloMosaic Idealize.ShloMosaic.TcCoe
open Idealize.ShloMosaic.ValueIdx

variable (x0 : (⟨S50000x512, .f32⟩ : BufTy).Contents (Elt Ideal)) (x1 : (⟨S2x800000, .i32⟩ : BufTy).Contents (Elt Ideal))
  (x2 : (⟨S800000, .f32⟩ : BufTy).Contents (Elt Ideal)) (x3 : (⟨S3x512x128, .f32⟩ : BufTy).Contents (Elt Ideal))
  (x4 : (⟨S3x1x128, .f32⟩ : BufTy).Contents (Elt Ideal)) (x5 : (⟨S3x384x128, .f32⟩ : BufTy).Contents (Elt Ideal))
  (x6 : (⟨S3x1x128, .f32⟩ : BufTy).Contents (Elt Ideal)) (x7 : (⟨S384x16, .f32⟩ : BufTy).Contents (Elt Ideal))
  (x8 : (⟨S16, .f32⟩ : BufTy).Contents (Elt Ideal))

/-- Slab 1 of the second-layer weight, reshaped to a matrix, at row k and column j. -/
theorem slab1_apply (k : Fin 384) (j : Fin 128) :
    val_main_v84 (F := Ideal) x5 (ix2 k j) = x5 (ix3 1 k j) := by
  rw [val_main_v84_apply, val_main_v83_apply]
  refine congrArg x5 (funext fun a => Fin.ext ?_)
  have hk : k.val < 384 := k.isLt
  have hj : j.val < 128 := j.isLt
  match a with
  | ⟨0, _⟩ => rfl
  | ⟨1, _⟩ => show (k.val * 128 + j.val) / 128 % 384 = k.val; omega
  | ⟨2, _⟩ => show (k.val * 128 + j.val) % 128 = j.val; omega

/-- The product of the three feature matrices laid side by side with slab 1 of the second-layer weight is the second stage
    of the three matrices and that slab's three row blocks. -/
theorem d2b : Cert.Spec.dense2 (val_main_v7 (F := Ideal) x0 x3 x4) (val_main_v32 (F := Ideal) x0 x1 x2 x3 x4)
      (val_main_v74 (F := Ideal) x0 x1 x2 x3 x4) (Cert.Spec.w2blk 1 x5) = val_main_v85 (F := Ideal) x0 x1 x2 x3 x4 x5 := by
  funext i
  obtain ⟨r, j, rfl⟩ : ∃ (r : Fin 50000) (j : Fin 128), i = ix2 r j := ⟨i 0, i 1, eq_ix2 i⟩
  rw [Cert.Spec.dense2_apply, val_main_v85_apply]
  unfold Cert.Spec.dense2At val_main_v75
  generalize val_main_v7 (F := Ideal) x0 x3 x4 = f0
  generalize val_main_v32 (F := Ideal) x0 x1 x2 x3 x4 = f1
  generalize val_main_v74 (F := Ideal) x0 x1 x2 x3 x4 = f2
  have el : ∀ k : Fin 384, lidx_main_v85 (ix2 r j) k = ix2 r k := fun k =>
    funext fun a => Fin.ext (by match a with | ⟨0, _⟩ => rfl | ⟨1, _⟩ => rfl)
  have er : ∀ k : Fin 384, ridx_main_v85 (ix2 r j) k = ix2 k j := fun k =>
    funext fun a => Fin.ext (by match a with | ⟨0, _⟩ => rfl | ⟨1, _⟩ => rfl)
  simp only [el, er]
  rw [side_by_side_dot]
  simp only [slab1_apply, Cert.Spec.w2blk_apply]
  rfl

end Cert.ReferenceIdeal.RefDense2

end
-- ==== Proof.RefDense2C.lean ====
import proofs.«417311_j57097295233451_3_alg».proof.Proof.RefDense2
import proofs.«417311_j57097295233451_3_alg».proof.Proof.ReadP
import proofs.«417311_j57097295233451_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefDense2

open Cert.ReferenceIdeal Cert.ReferenceIdeal.Gen Cert.ReferenceIdeal.ReadP Idealize.ShloMosaic Idealize.ShloMosaic.TcCoe
open Idealize.ShloMosaic.ValueIdx

variable (x0 : (⟨S50000x512, .f32⟩ : BufTy).Contents (Elt Ideal)) (x1 : (⟨S2x800000, .i32⟩ : BufTy).Contents (Elt Ideal))
  (x2 : (⟨S800000, .f32⟩ : BufTy).Contents (Elt Ideal)) (x3 : (⟨S3x512x128, .f32⟩ : BufTy).Contents (Elt Ideal))
  (x4 : (⟨S3x1x128, .f32⟩ : BufTy).Contents (Elt Ideal)) (x5 : (⟨S3x384x128, .f32⟩ : BufTy).Contents (Elt Ideal))
  (x6 : (⟨S3x1x128, .f32⟩ : BufTy).Contents (Elt Ideal)) (x7 : (⟨S384x16, .f32⟩ : BufTy).Contents (Elt Ideal))
  (x8 : (⟨S16, .f32⟩ : BufTy).Contents (Elt Ideal))

/-- Slab 2 of the second-layer weight, reshaped to a matrix, at row k and column j. -/
theorem slab2_apply (k : Fin 384) (j : Fin 128) :
    val_main_v108 (F := Ideal) x5 (ix2 k j) = x5 (ix3 2 k j) := by
  rw [val_main_v108_apply, val_main_v107_apply]
  refine congrArg x5 (funext fun a => Fin.ext ?_)
  have hk : k.val < 384 := k.isLt
  have hj : j.val < 128 := j.isLt
  match a with
  | ⟨0, _⟩ => rfl
  | ⟨1, _⟩ => show (k.val * 128 + j.val) / 128 % 384 = k.val; omega
  | ⟨2, _⟩ => show (k.val * 128 + j.val) % 128 = j.val; omega

/-- The product of the three feature matrices laid side by side with slab 2 of the second-layer weight is the second stage
    of the three matrices and that slab's three row blocks. -/
theorem d2c : Cert.Spec.dense2 (val_main_v7 (F := Ideal) x0 x3 x4) (val_main_v32 (F := Ideal) x0 x1 x2 x3 x4)
      (val_main_v74 (F := Ideal) x0 x1 x2 x3 x4) (Cert.Spec.w2blk 2 x5) = val_main_v109 (F := Ideal) x0 x1 x2 x3 x4 x5 := by
  funext i
  obtain ⟨r, j, rfl⟩ : ∃ (r : Fin 50000) (j : Fin 128), i = ix2 r j := ⟨i 0, i 1, eq_ix2 i⟩
  rw [Cert.Spec.dense2_apply, val_main_v109_apply]
  unfold Cert.Spec.dense2At val_main_v75
  generalize val_main_v7 (F := Ideal) x0 x3 x4 = f0
  generalize val_main_v32 (F := Ideal) x0 x1 x2 x3 x4 = f1
  generalize val_main_v74 (F := Ideal) x0 x1 x2 x3 x4 = f2
  have el : ∀ k : Fin 384, lidx_main_v109 (ix2 r j) k = ix2 r k := fun k =>
    funext fun a => Fin.ext (by match a with | ⟨0, _⟩ => rfl | ⟨1, _⟩ => rfl)
  have er : ∀ k : Fin 384, ridx_main_v109 (ix2 r j) k = ix2 k j := fun k =>
    funext fun a => Fin.ext (by match a with | ⟨0, _⟩ => rfl | ⟨1, _⟩ => rfl)
  simp only [el, er]
  rw [side_by_side_dot]
  simp only [slab2_apply, Cert.Spec.w2blk_apply]
  rfl

end Cert.ReferenceIdeal.RefDense2

end
-- ==== Proof.RefDense3.lean ====
import proofs.«417311_j57097295233451_3_alg».proof.Proof.ReadP
import proofs.«417311_j57097295233451_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefDense3

open Cert.ReferenceIdeal Cert.ReferenceIdeal.Gen Cert.ReferenceIdeal.ReadP Idealize.ShloMosaic Idealize.ShloMosaic.TcCoe
open Idealize.ShloMosaic.ValueIdx

variable (x0 : (⟨S50000x512, .f32⟩ : BufTy).Contents (Elt Ideal)) (x1 : (⟨S2x800000, .i32⟩ : BufTy).Contents (Elt Ideal))
  (x2 : (⟨S800000, .f32⟩ : BufTy).Contents (Elt Ideal)) (x3 : (⟨S3x512x128, .f32⟩ : BufTy).Contents (Elt Ideal))
  (x4 : (⟨S3x1x128, .f32⟩ : BufTy).Contents (Elt Ideal)) (x5 : (⟨S3x384x128, .f32⟩ : BufTy).Contents (Elt Ideal))
  (x6 : (⟨S3x1x128, .f32⟩ : BufTy).Contents (Elt Ideal)) (x7 : (⟨S384x16, .f32⟩ : BufTy).Contents (Elt Ideal))
  (x8 : (⟨S16, .f32⟩ : BufTy).Contents (Elt Ideal))

/-- A sum over 384 positions, cut into its three runs of 128. -/
theorem sum_three_runs (f : Fin 384 → EReal) :
    ∑ k : Fin 384, f k
      = ((∑ k : Fin 128, f ⟨0 * 128 + k.val, by omega⟩) + (∑ k : Fin 128, f ⟨1 * 128 + k.val, by omega⟩))
        + (∑ k : Fin 128, f ⟨2 * 128 + k.val, by omega⟩) := by
  have e : ∑ k : Fin 384, f k = ∑ k : Fin (128 + 128 + 128), f ⟨k.val, by omega⟩ := rfl
  rw [e, Fin.sum_univ_add, Fin.sum_univ_add]
  refine congrArg₂ (· + ·) (congrArg₂ (· + ·) ?_ ?_) ?_
  · exact Finset.sum_congr rfl fun k _ => congrArg f (Fin.ext (by simp <;> omega))
  · exact Finset.sum_congr rfl fun k _ => congrArg f (Fin.ext (by simp <;> omega))
  · exact Finset.sum_congr rfl fun k _ => congrArg f (Fin.ext (by simp <;> omega))

/-- Three matrices laid side by side, read in the run p of columns: matrix p. -/
theorem side_by_side_0 (y0 y1 y2 : S50000x128.Idx → EReal)
    (h : Shape.Concatenates ([(⟨S50000x128, y0⟩ : (s : Shape) × (s.Idx → EReal)), ⟨S50000x128, y1⟩, ⟨S50000x128, y2⟩].map (·.1)) S50000x384 1)
    (r : Fin 50000) (k : Fin 128) :
    concatenate S50000x384 1 [⟨S50000x128, y0⟩, ⟨S50000x128, y1⟩, ⟨S50000x128, y2⟩] h (ix2 r ⟨0 * 128 + k.val, by omega⟩)
      = y0 (ix2 r k) :=
  concatenate_apply_piece 1 _ h _ 0 (by show (0 : Nat) < 3; decide) S50000x128 y0 rfl rfl 0 rfl (ix2 r k)
    (fun b hb => match b with | ⟨0, _⟩ => rfl | ⟨1, _⟩ => absurd rfl hb) (by show 0 + k.val = 0 * 128 + k.val; omega)

theorem side_by_side_1 (y0 y1 y2 : S50000x128.Idx → EReal)
    (h : Shape.Concatenates ([(⟨S50000x128, y0⟩ : (s : Shape) × (s.Idx → EReal)), ⟨S50000x128, y1⟩, ⟨S50000x128, y2⟩].map (·.1)) S50000x384 1)
    (r : Fin 50000) (k : Fin 128) :
    concatenate S50000x384 1 [⟨S50000x128, y0⟩, ⟨S50000x128, y1⟩, ⟨S50000x128, y2⟩] h (ix2 r ⟨1 * 128 + k.val, by omega⟩)
      = y1 (ix2 r k) :=
  concatenate_apply_piece 1 _ h _ 1 (by show (1 : Nat) < 3; decide) S50000x128 y1 rfl rfl 128 rfl (ix2 r k)
    (fun b hb => match b with | ⟨0, _⟩ => rfl | ⟨1, _⟩ => absurd rfl hb) (by show 128 + k.val = 1 * 128 + k.val; omega)

theorem side_by_side_2 (y0 y1 y2 : S50000x128.Idx → EReal)
    (h : Shape.Concatenates ([(⟨S50000x128, y0⟩ : (s : Shape) × (s.Idx → EReal)), ⟨S50000x128, y1⟩, ⟨S50000x128, y2⟩].map (·.1)) S50000x384 1)
    (r : Fin 50000) (k : Fin 128) :
    concatenate S50000x384 1 [⟨S50000x128, y0⟩, ⟨S50000x128, y1⟩, ⟨S50000x128, y2⟩] h (ix2 r ⟨2 * 128 + k.val, by omega⟩)
      = y2 (ix2 r k) :=
  concatenate_apply_piece 1 _ h _ 2 (by show (2 : Nat) < 3; decide) S50000x128 y2 rfl rfl 256 rfl (ix2 r k)
    (fun b hb => match b with | ⟨0, _⟩ => rfl | ⟨1, _⟩ => absurd rfl hb) (by show 256 + k.val = 2 * 128 + k.val; omega)

/-- The first bias row spread over the rows, at (r, k): entry (0, 0, k) of the bias stack. -/
theorem bias_row_0 (r : Fin 50000) (k : Fin 128) : val_main_v81 (F := Ideal) x6 (ix2 r k) = x6 (ix3 0 0 k) := by
  rw [val_main_v81_apply, val_main_v80_apply, val_main_v79_apply]
  exact congrArg x6 (funext fun a => Fin.ext (by
    match a with
    | ⟨0, _⟩ => rfl
    | ⟨1, _⟩ => rfl
    | ⟨2, _⟩ => show (0 * 128 + k.val) % 128 = k.val; omega))

theorem bias_row_1 (r : Fin 50000) (k : Fin 128) : val_main_v105 (F := Ideal) x6 (ix2 r k) = x6 (ix3 1 0 k) := by
  rw [val_main_v105_apply, val_main_v104_apply, val_main_v103_apply]
  exact congrArg x6 (funext fun a => Fin.ext (by
    match a with
    | ⟨0, _⟩ => rfl
    | ⟨1, _⟩ => rfl
    | ⟨2, _⟩ => show (0 * 128 + k.val) % 128 = k.val; omega))

theorem bias_row_2 (r : Fin 50000) (k : Fin 128) : val_main_v146 (F := Ideal) x6 (ix2 r k) = x6 (ix3 2 0 k) := by
  rw [val_main_v146_apply, val_main_v145_apply, val_main_v144_apply]
  exact congrArg x6 (funext fun a => Fin.ext (by
    match a with
    | ⟨0, _⟩ => rfl
    | ⟨1, _⟩ => rfl
    | ⟨2, _⟩ => show (0 * 128 + k.val) % 128 = k.val; omega))

/-- The final bias spread over the rows, at (r, j): entry j. -/
theorem final_bias (r : Fin 50000) (j : Fin 16) : val_main_v151 (F := Ideal) x8 (ix2 r j) = x8 (ix1 j) := by
  rw [val_main_v151_apply, val_main_v150_apply]
  exact congrArg x8 (funext fun a => Fin.ext (by match a with | ⟨0, _⟩ => rfl))

/-- Logit (r, j) of the reference: the side-by-side product, run by run, plus the final bias. -/
theorem logits_eq (r : Fin 50000) (j : Fin 16) :
    val_main_v152 (F := Ideal) x0 x1 x2 x3 x4 x5 x6 x7 x8 (ix2 r j)
      = Cert.Spec.logitAt (val_main_v78 (F := Ideal) x0 x1 x2 x3 x4 x5) (val_main_v102 (F := Ideal) x0 x1 x2 x3 x4 x5)
          (val_main_v143 (F := Ideal) x0 x1 x2 x3 x4 x5) x6 (Cert.Spec.wfblk x7) (Cert.Spec.bfrow x8) r j := by
  rw [val_main_v152_apply, val_main_v149_apply, final_bias]
  unfold val_main_v148 val_main_v82 val_main_v106 val_main_v147
  generalize val_main_v78 (F := Ideal) x0 x1 x2 x3 x4 x5 = g0
  generalize val_main_v102 (F := Ideal) x0 x1 x2 x3 x4 x5 = g1
  generalize val_main_v143 (F := Ideal) x0 x1 x2 x3 x4 x5 = g2
  unfold Cert.Spec.logitAt
  rw [sum_three_runs]
  have el : ∀ (p : Nat) (k : Fin 128) (hp : p * 128 + k.val < 384),
      lidx_main_v149 (ix2 r j) ⟨p * 128 + k.val, hp⟩ = ix2 r ⟨p * 128 + k.val, hp⟩ := fun p k hp =>
    funext fun a => Fin.ext (by match a with | ⟨0, _⟩ => rfl | ⟨1, _⟩ => rfl)
  have er : ∀ (p : Nat) (k : Fin 128) (hp : p * 128 + k.val < 384),
      ridx_main_v149 (ix2 r j) ⟨p * 128 + k.val, hp⟩ = ix2 ⟨p * 128 + k.val, hp⟩ j := fun p k hp =>
    funext fun a => Fin.ext (by match a with | ⟨0, _⟩ => rfl | ⟨1, _⟩ => rfl)
  refine congrArg₂ (· + ·) (congrArg₂ (· + ·) (congrArg₂ (· + ·) ?_ ?_) ?_) rfl
  · refine Finset.sum_congr rfl fun k _ => ?_
    rw [el 0 k, er 0 k, side_by_side_0, ValueIdx.addf_apply, bias_row_0]
    rfl
  · refine Finset.sum_congr rfl fun k _ => ?_
    rw [el 1 k, er 1 k, side_by_side_1, ValueIdx.addf_apply, bias_row_1]
    rfl
  · refine Finset.sum_congr rfl fun k _ => ?_
    rw [el 2 k, er 2 k, side_by_side_2, ValueIdx.addf_apply, bias_row_2]
    rfl

/-- The row maximum of the reference at row r: the maximum of the row's 16 logits. -/
theorem row_max_eq (r : Fin 50000) :
    val_main_call3_v2 (F := Ideal) x0 x1 x2 x3 x4 x5 x6 x7 x8 (ix1 r)
      = Cert.Spec.rowMax (fun k => val_main_v152 (F := Ideal) x0 x1 x2 x3 x4 x5 x6 x7 x8 (ix2 r k)) := by
  rw [val_main_call3_v2_apply, val_main_call3_v1_apply, val_main_call3_cst_0_apply]
  unfold val_main_call3_v0
  generalize val_main_v152 (F := Ideal) x0 x1 x2 x3 x4 x5 x6 x7 x8 = y
  have h : S50000x16.Reduces [1] S50000 := by decide
  rw [Host.reduce_eq_fold_single (FloatOps.maximumf (F := Ideal) (φ := .f32)) y _ reducesTo_S50000x16_S50000_d1 h h_S_]
  have hf : (y ∘ h.lift (ix1 r)) = fun k : Fin 16 => y (ix2 r k) :=
    funext fun k => congrArg y (funext fun c => Fin.ext (by match c with | ⟨0, _⟩ => rfl | ⟨1, _⟩ => rfl))
  unfold Cert.Spec.rowMax
  exact congrArg (fun f => max (Ideal.ofBits .f32 0xFF800000#32)
    (Finset.fold max (Ideal.ofBits .f32 0xFF800000#32) f (Finset.univ : Finset (Fin 16)))) hf

/-- The shifted logit (r, j): the logit less the row's maximum. -/
theorem shifted_eq (r : Fin 50000) (j : Fin 16) :
    val_main_call3_v5 (F := Ideal) x0 x1 x2 x3 x4 x5 x6 x7 x8 (ix2 r j)
      = val_main_v152 (F := Ideal) x0 x1 x2 x3 x4 x5 x6 x7 x8 (ix2 r j)
        - Cert.Spec.rowMax (fun k => val_main_v152 (F := Ideal) x0 x1 x2 x3 x4 x5 x6 x7 x8 (ix2 r k)) := by
  rw [val_main_call3_v5_apply, val_main_call3_v4_apply, val_main_call3_v3_apply]
  have e : idx_main_call3_v3 (idx_main_call3_v4 (ix2 r j)) = ix1 r :=
    funext fun a => Fin.ext (by match a with | ⟨0, _⟩ => rfl)
  rw [e, row_max_eq]
  rfl

/-- The logarithm of the row's sum of exponentials, spread back over the row. -/
theorem log_sum_eq (r : Fin 50000) (j : Fin 16) :
    val_main_call3_v10 (F := Ideal) x0 x1 x2 x3 x4 x5 x6 x7 x8 (ix2 r j)
      = Ideal.log (∑ k : Fin 16, Ideal.exp (val_main_call3_v5 (F := Ideal) x0 x1 x2 x3 x4 x5 x6 x7 x8 (ix2 r k))) := by
  rw [val_main_call3_v10_apply, val_main_call3_v9_apply, val_main_call3_v8_apply, val_main_call3_v7_apply,
    val_main_call3_cst_1_apply]
  have e : ∀ k : Fin 16, idx_main_call3_v7 (idx_main_call3_v8 (idx_main_call3_v10 (ix2 r j))) k = ix2 r k := fun k =>
    funext fun a => Fin.ext (by match a with | ⟨0, _⟩ => rfl | ⟨1, _⟩ => rfl)
  simp only [e, val_main_call3_v6_apply, Ideal.hostUnary_exp_def, Ideal.hostUnary_log_def, Ideal.ofBits_def,
    Ideal.ofBits_zero_f32, zero_add]

/-- The reference's result is the last stage of its three second-layer feature matrices (before their biases), the
    second-layer bias, the final weight's three row blocks and the final bias as a row. -/
theorem d3 : Cert.Spec.final (val_main_v78 (F := Ideal) x0 x1 x2 x3 x4 x5) (val_main_v102 (F := Ideal) x0 x1 x2 x3 x4 x5)
      (val_main_v143 (F := Ideal) x0 x1 x2 x3 x4 x5) x6 (Cert.Spec.wfblk x7) (Cert.Spec.bfrow x8)
    = val_main_v153 (F := Ideal) x0 x1 x2 x3 x4 x5 x6 x7 x8 := by
  funext i
  obtain ⟨r, j, rfl⟩ : ∃ (r : Fin 50000) (j : Fin 16), i = ix2 r j := ⟨i 0, i 1, eq_ix2 i⟩
  rw [Cert.Spec.final_apply, val_main_v153_apply, log_sum_eq]
  unfold Cert.Spec.finalAt Cert.Spec.logSoftmaxAt
  simp only [shifted_eq, logits_eq]
  rfl

end Cert.ReferenceIdeal.RefDense3

end
-- ==== Proof.KVal.lean ====
/-
  What the kernel program's result buffer holds at the end, as the reference's own composed value of the arguments.

  The program is seven pallas regions among stretches of host operations. Every buffer is written once (by one host
  operation or as one region's output array), so the contents a buffer ends with are a function of the contents its
  operands end with: a host operation's function, or a region's stage formula (first stage, second stage, last stage).
  Reading the buffers in program order, each is identified with the value the reference program computes at the
  corresponding place: the first-stage matrices, their propagations (a gather and a scatter-add on the host, the same
  operations in both programs and never opened), the second-stage matrices (three partial products against the
  reference's one product with the matrices laid side by side), their propagations, and the log-softmax of the final
  projection.
-/
import proofs.«417311_j57097295233451_3_alg».proof.Proof.Stable
import proofs.«417311_j57097295233451_3_alg».proof.Proof.Reg1
import proofs.«417311_j57097295233451_3_alg».proof.Proof.Reg1R1
import proofs.«417311_j57097295233451_3_alg».proof.Proof.Reg1R2
import proofs.«417311_j57097295233451_3_alg».proof.Proof.Reg3
import proofs.«417311_j57097295233451_3_alg».proof.Proof.Reg3R4
import proofs.«417311_j57097295233451_3_alg».proof.Proof.Reg3R5
import proofs.«417311_j57097295233451_3_alg».proof.Proof.Reg6
import proofs.«417311_j57097295233451_3_alg».proof.Proof.KLayout
import proofs.«417311_j57097295233451_3_alg».proof.Proof.RefDense1
import proofs.«417311_j57097295233451_3_alg».proof.Proof.RefDense1B
import proofs.«417311_j57097295233451_3_alg».proof.Proof.RefDense1C
import proofs.«417311_j57097295233451_3_alg».proof.Proof.RefDense2
import proofs.«417311_j57097295233451_3_alg».proof.Proof.RefDense2B
import proofs.«417311_j57097295233451_3_alg».proof.Proof.RefDense2C
import proofs.«417311_j57097295233451_3_alg».proof.Proof.RefDense3

set_option maxRecDepth 16384

noncomputable section

namespace Cert.KernelIdeal.KVal

open Cert.KernelIdeal Cert.KernelIdeal.Gen Cert.KernelIdeal.Walk Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## The arguments, as launched -/

/-- Argument 0 as launched. -/
abbrev A0 := m ((c : Thread nD τ).loc main_arg0)
theorem e_arg0 : W14 m ρ c (Proc.devRef .tc main_arg0) = A0 m c := W14_main_arg0 m ρ c

/-- Argument 1 as launched. -/
abbrev A1 := m ((c : Thread nD τ).loc main_arg1)
theorem e_arg1 : W14 m ρ c (Proc.devRef .tc main_arg1) = A1 m c := W14_main_arg1 m ρ c

/-- Argument 2 as launched. -/
abbrev A2 := m ((c : Thread nD τ).loc main_arg2)
theorem e_arg2 : W14 m ρ c (Proc.devRef .tc main_arg2) = A2 m c := W14_main_arg2 m ρ c

/-- Argument 3 as launched. -/
abbrev A3 := m ((c : Thread nD τ).loc main_arg3)
theorem e_arg3 : W14 m ρ c (Proc.devRef .tc main_arg3) = A3 m c := W14_main_arg3 m ρ c

/-- Argument 4 as launched. -/
abbrev A4 := m ((c : Thread nD τ).loc main_arg4)
theorem e_arg4 : W14 m ρ c (Proc.devRef .tc main_arg4) = A4 m c := W14_main_arg4 m ρ c

/-- Argument 5 as launched. -/
abbrev A5 := m ((c : Thread nD τ).loc main_arg5)
theorem e_arg5 : W14 m ρ c (Proc.devRef .tc main_arg5) = A5 m c := W14_main_arg5 m ρ c

/-- Argument 6 as launched. -/
abbrev A6 := m ((c : Thread nD τ).loc main_arg6)
theorem e_arg6 : W14 m ρ c (Proc.devRef .tc main_arg6) = A6 m c := W14_main_arg6 m ρ c

/-- Argument 7 as launched. -/
abbrev A7 := m ((c : Thread nD τ).loc main_arg7)
theorem e_arg7 : W14 m ρ c (Proc.devRef .tc main_arg7) = A7 m c := W14_main_arg7 m ρ c

/-- Argument 8 as launched. -/
abbrev A8 := m ((c : Thread nD τ).loc main_arg8)
theorem e_arg8 : W14 m ρ c (Proc.devRef .tc main_arg8) = A8 m c := W14_main_arg8 m ρ c

/-! ## The first stage -/

/-- Slab 0 of the first-layer weight. -/
theorem e_v1 : W14 m ρ c (Proc.devRef .tc main_v1) = Cert.ReferenceIdeal.ReadP.val_main_v1 (F := Ideal) (A3 m c) := by
  rw [stable1 m ρ c main_v1 (by decide)]
  show StableHlo.after hostOps0 (W0 m ρ c) (Proc.devRef .tc main_v1) = _
  after_results_simp
  rfl

/-- Row 0 of the first-layer bias. -/
theorem e_v3 : W14 m ρ c (Proc.devRef .tc main_v3) = Cert.ReferenceIdeal.ReadP.val_main_v4 (F := Ideal) (A4 m c) := by
  rw [stable1 m ρ c main_v3 (by decide)]
  show StableHlo.after hostOps0 (W0 m ρ c) (Proc.devRef .tc main_v3) = _
  after_results_simp
  rfl

/-- The hop-0 first-stage matrix. -/
theorem e_v4 : W14 m ρ c (Proc.devRef .tc main_v4) = Cert.ReferenceIdeal.ReadP.val_main_v7 (F := Ideal) (A0 m c) (A3 m c) (A4 m c) := by
  rw [stable2 m ρ c main_v4 (by decide)]
  rw [show W2 m ρ c (Proc.devRef .tc main_v4) = (dat0 (V1 m ρ) c).arrAt 3 cfg0.N from W2_arr m ρ c 3]
  rw [Cert.KernelIdeal.Reg1.arr0 (V1 m ρ) c]
  rw [show V1 m ρ c main_arg0 = _ from (stable1 m ρ c main_arg0 (by decide)).symm.trans (e_arg0 m ρ c)]
  rw [show V1 m ρ c main_v1 = _ from (stable1 m ρ c main_v1 (by decide)).symm.trans (e_v1 m ρ c)]
  rw [show V1 m ρ c main_v3 = _ from (stable1 m ρ c main_v3 (by decide)).symm.trans (e_v3 m ρ c)]
  exact Cert.ReferenceIdeal.RefDense1.d1a (A0 m c) (A3 m c) (A4 m c)

/-- Slab 1 of the first-layer weight. -/
theorem e_v6 : W14 m ρ c (Proc.devRef .tc main_v6) = Cert.ReferenceIdeal.ReadP.val_main_v9 (F := Ideal) (A3 m c) := by
  rw [stable3 m ρ c main_v6 (by decide)]
  show StableHlo.after hostOps1 (W2 m ρ c) (Proc.devRef .tc main_v6) = _
  after_results_simp
  rw [← stable2 m ρ c main_arg3 (by decide)]
  rw [e_arg3 m ρ c]
  rfl

/-- Row 1 of the first-layer bias. -/
theorem e_v8 : W14 m ρ c (Proc.devRef .tc main_v8) = Cert.ReferenceIdeal.ReadP.val_main_v12 (F := Ideal) (A4 m c) := by
  rw [stable3 m ρ c main_v8 (by decide)]
  show StableHlo.after hostOps1 (W2 m ρ c) (Proc.devRef .tc main_v8) = _
  after_results_simp
  rw [← stable2 m ρ c main_arg4 (by decide)]
  rw [e_arg4 m ρ c]
  rfl

/-- The hop-1 first-stage matrix before its propagation. -/
theorem e_v9 : W14 m ρ c (Proc.devRef .tc main_v9) = Cert.ReferenceIdeal.ReadP.val_main_v15 (F := Ideal) (A0 m c) (A3 m c) (A4 m c) := by
  rw [stable4 m ρ c main_v9 (by decide)]
  rw [show W4 m ρ c (Proc.devRef .tc main_v9) = (dat1 (V3 m ρ) c).arrAt 3 cfg1.N from W4_arr m ρ c 3]
  rw [Cert.KernelIdeal.Reg1.arr1 (V3 m ρ) c]
  rw [show V3 m ρ c main_arg0 = _ from (stable3 m ρ c main_arg0 (by decide)).symm.trans (e_arg0 m ρ c)]
  rw [show V3 m ρ c main_v6 = _ from (stable3 m ρ c main_v6 (by decide)).symm.trans (e_v6 m ρ c)]
  rw [show V3 m ρ c main_v8 = _ from (stable3 m ρ c main_v8 (by decide)).symm.trans (e_v8 m ρ c)]
  exact Cert.ReferenceIdeal.RefDense1.d1b (A0 m c) (A3 m c) (A4 m c)

/-- The hop-1 first-stage matrix, propagated once. -/
theorem e_v26 : W14 m ρ c (Proc.devRef .tc main_v26) = Cert.ReferenceIdeal.ReadP.val_main_v32 (F := Ideal) (A0 m c) (A1 m c) (A2 m c) (A3 m c) (A4 m c) := by
  rw [stable5 m ρ c main_v26 (by decide)]
  show StableHlo.after hostOps2 (W4 m ρ c) (Proc.devRef .tc main_v26) = _
  after_results_simp
  rw [← stable4 m ρ c main_arg1 (by decide), ← stable4 m ρ c main_arg2 (by decide), ← stable4 m ρ c main_v9 (by decide)]
  rw [e_arg1 m ρ c, e_arg2 m ρ c, e_v9 m ρ c]
  rfl

/-- Slab 2 of the first-layer weight. -/
theorem e_v28 : W14 m ρ c (Proc.devRef .tc main_v28) = Cert.ReferenceIdeal.ReadP.val_main_v34 (F := Ideal) (A3 m c) := by
  rw [stable5 m ρ c main_v28 (by decide)]
  show StableHlo.after hostOps2 (W4 m ρ c) (Proc.devRef .tc main_v28) = _
  after_results_simp
  rw [← stable4 m ρ c main_arg3 (by decide)]
  rw [e_arg3 m ρ c]
  rfl

/-- Row 2 of the first-layer bias. -/
theorem e_v30 : W14 m ρ c (Proc.devRef .tc main_v30) = Cert.ReferenceIdeal.ReadP.val_main_v37 (F := Ideal) (A4 m c) := by
  rw [stable5 m ρ c main_v30 (by decide)]
  show StableHlo.after hostOps2 (W4 m ρ c) (Proc.devRef .tc main_v30) = _
  after_results_simp
  rw [← stable4 m ρ c main_arg4 (by decide)]
  rw [e_arg4 m ρ c]
  rfl

/-- The hop-2 first-stage matrix before its propagations. -/
theorem e_v31 : W14 m ρ c (Proc.devRef .tc main_v31) = Cert.ReferenceIdeal.ReadP.val_main_v40 (F := Ideal) (A0 m c) (A3 m c) (A4 m c) := by
  rw [stable6 m ρ c main_v31 (by decide)]
  rw [show W6 m ρ c (Proc.devRef .tc main_v31) = (dat2 (V5 m ρ) c).arrAt 3 cfg2.N from W6_arr m ρ c 3]
  rw [Cert.KernelIdeal.Reg1.arr2 (V5 m ρ) c]
  rw [show V5 m ρ c main_arg0 = _ from (stable5 m ρ c main_arg0 (by decide)).symm.trans (e_arg0 m ρ c)]
  rw [show V5 m ρ c main_v28 = _ from (stable5 m ρ c main_v28 (by decide)).symm.trans (e_v28 m ρ c)]
  rw [show V5 m ρ c main_v30 = _ from (stable5 m ρ c main_v30 (by decide)).symm.trans (e_v30 m ρ c)]
  exact Cert.ReferenceIdeal.RefDense1.d1c (A0 m c) (A3 m c) (A4 m c)

/-- The hop-2 first-stage matrix, propagated twice. -/
theorem e_v65 : W14 m ρ c (Proc.devRef .tc main_v65) = Cert.ReferenceIdeal.ReadP.val_main_v74 (F := Ideal) (A0 m c) (A1 m c) (A2 m c) (A3 m c) (A4 m c) := by
  rw [stable7 m ρ c main_v65 (by decide)]
  show StableHlo.after hostOps3 (W6 m ρ c) (Proc.devRef .tc main_v65) = _
  after_results_simp
  rw [← stable6 m ρ c main_arg1 (by decide), ← stable6 m ρ c main_arg2 (by decide), ← stable6 m ρ c main_v31 (by decide)]
  rw [e_arg1 m ρ c, e_arg2 m ρ c, e_v31 m ρ c]
  rfl

/-! ## The second stage -/

/-- The three row blocks of slab 0 of the second-layer weight. -/
theorem e_v68 : W14 m ρ c (Proc.devRef .tc main_v68) = Cert.Spec.w2blk 0 (A5 m c) := by
  rw [stable7 m ρ c main_v68 (by decide)]
  show StableHlo.after hostOps3 (W6 m ρ c) (Proc.devRef .tc main_v68) = _
  after_results_simp
  rw [← stable6 m ρ c main_arg5 (by decide)]
  rw [e_arg5 m ρ c]
  exact Cert.KernelIdeal.KLayout.w2blk0 (A5 m c)

/-- The second-layer weight recast as nine [128, 128] blocks. -/
theorem e_v66 : W14 m ρ c (Proc.devRef .tc main_v66) = shapeCast S3x3x128x128 (A5 m c) shapeCasts_S3x384x128_S3x3x128x128 := by
  rw [stable7 m ρ c main_v66 (by decide)]
  show StableHlo.after hostOps3 (W6 m ρ c) (Proc.devRef .tc main_v66) = _
  after_results_simp
  rw [← stable6 m ρ c main_arg5 (by decide)]
  rw [e_arg5 m ρ c]
  rfl

/-- The hop-0 second-stage matrix. -/
theorem e_v69 : W14 m ρ c (Proc.devRef .tc main_v69) = Cert.ReferenceIdeal.ReadP.val_main_v78 (F := Ideal) (A0 m c) (A1 m c) (A2 m c) (A3 m c) (A4 m c) (A5 m c) := by
  rw [stable8 m ρ c main_v69 (by decide)]
  rw [show W8 m ρ c (Proc.devRef .tc main_v69) = (dat3 (V7 m ρ) c).arrAt 4 cfg3.N from W8_arr m ρ c 4]
  rw [Cert.KernelIdeal.Reg3.arr3 (V7 m ρ) c]
  rw [show V7 m ρ c main_v4 = _ from (stable7 m ρ c main_v4 (by decide)).symm.trans (e_v4 m ρ c)]
  rw [show V7 m ρ c main_v26 = _ from (stable7 m ρ c main_v26 (by decide)).symm.trans (e_v26 m ρ c)]
  rw [show V7 m ρ c main_v65 = _ from (stable7 m ρ c main_v65 (by decide)).symm.trans (e_v65 m ρ c)]
  rw [show V7 m ρ c main_v68 = _ from (stable7 m ρ c main_v68 (by decide)).symm.trans (e_v68 m ρ c)]
  exact Cert.ReferenceIdeal.RefDense2.d2a (A0 m c) (A1 m c) (A2 m c) (A3 m c) (A4 m c) (A5 m c)

/-- The three row blocks of slab 1 of the second-layer weight. -/
theorem e_v71 : W14 m ρ c (Proc.devRef .tc main_v71) = Cert.Spec.w2blk 1 (A5 m c) := by
  rw [stable9 m ρ c main_v71 (by decide)]
  show StableHlo.after hostOps4 (W8 m ρ c) (Proc.devRef .tc main_v71) = _
  after_results_simp
  rw [← stable8 m ρ c main_v66 (by decide)]
  rw [e_v66 m ρ c]
  exact Cert.KernelIdeal.KLayout.w2blk1 (A5 m c)

/-- The hop-1 second-stage matrix before its propagation. -/
theorem e_v72 : W14 m ρ c (Proc.devRef .tc main_v72) = Cert.ReferenceIdeal.ReadP.val_main_v85 (F := Ideal) (A0 m c) (A1 m c) (A2 m c) (A3 m c) (A4 m c) (A5 m c) := by
  rw [stable10 m ρ c main_v72 (by decide)]
  rw [show W10 m ρ c (Proc.devRef .tc main_v72) = (dat4 (V9 m ρ) c).arrAt 4 cfg4.N from W10_arr m ρ c 4]
  rw [Cert.KernelIdeal.Reg3.arr4 (V9 m ρ) c]
  rw [show V9 m ρ c main_v4 = _ from (stable9 m ρ c main_v4 (by decide)).symm.trans (e_v4 m ρ c)]
  rw [show V9 m ρ c main_v26 = _ from (stable9 m ρ c main_v26 (by decide)).symm.trans (e_v26 m ρ c)]
  rw [show V9 m ρ c main_v65 = _ from (stable9 m ρ c main_v65 (by decide)).symm.trans (e_v65 m ρ c)]
  rw [show V9 m ρ c main_v71 = _ from (stable9 m ρ c main_v71 (by decide)).symm.trans (e_v71 m ρ c)]
  exact Cert.ReferenceIdeal.RefDense2.d2b (A0 m c) (A1 m c) (A2 m c) (A3 m c) (A4 m c) (A5 m c)

/-- The hop-1 second-stage matrix, propagated once. -/
theorem e_v89 : W14 m ρ c (Proc.devRef .tc main_v89) = Cert.ReferenceIdeal.ReadP.val_main_v102 (F := Ideal) (A0 m c) (A1 m c) (A2 m c) (A3 m c) (A4 m c) (A5 m c) := by
  rw [stable11 m ρ c main_v89 (by decide)]
  show StableHlo.after hostOps5 (W10 m ρ c) (Proc.devRef .tc main_v89) = _
  after_results_simp
  rw [← stable10 m ρ c main_arg1 (by decide), ← stable10 m ρ c main_arg2 (by decide), ← stable10 m ρ c main_v72 (by decide)]
  rw [e_arg1 m ρ c, e_arg2 m ρ c, e_v72 m ρ c]
  rfl

/-- The three row blocks of slab 2 of the second-layer weight. -/
theorem e_v91 : W14 m ρ c (Proc.devRef .tc main_v91) = Cert.Spec.w2blk 2 (A5 m c) := by
  rw [stable11 m ρ c main_v91 (by decide)]
  show StableHlo.after hostOps5 (W10 m ρ c) (Proc.devRef .tc main_v91) = _
  after_results_simp
  rw [← stable10 m ρ c main_v66 (by decide)]
  rw [e_v66 m ρ c]
  exact Cert.KernelIdeal.KLayout.w2blk2 (A5 m c)

/-- The hop-2 second-stage matrix before its propagations. -/
theorem e_v92 : W14 m ρ c (Proc.devRef .tc main_v92) = Cert.ReferenceIdeal.ReadP.val_main_v109 (F := Ideal) (A0 m c) (A1 m c) (A2 m c) (A3 m c) (A4 m c) (A5 m c) := by
  rw [stable12 m ρ c main_v92 (by decide)]
  rw [show W12 m ρ c (Proc.devRef .tc main_v92) = (dat5 (V11 m ρ) c).arrAt 4 cfg5.N from W12_arr m ρ c 4]
  rw [Cert.KernelIdeal.Reg3.arr5 (V11 m ρ) c]
  rw [show V11 m ρ c main_v4 = _ from (stable11 m ρ c main_v4 (by decide)).symm.trans (e_v4 m ρ c)]
  rw [show V11 m ρ c main_v26 = _ from (stable11 m ρ c main_v26 (by decide)).symm.trans (e_v26 m ρ c)]
  rw [show V11 m ρ c main_v65 = _ from (stable11 m ρ c main_v65 (by decide)).symm.trans (e_v65 m ρ c)]
  rw [show V11 m ρ c main_v91 = _ from (stable11 m ρ c main_v91 (by decide)).symm.trans (e_v91 m ρ c)]
  exact Cert.ReferenceIdeal.RefDense2.d2c (A0 m c) (A1 m c) (A2 m c) (A3 m c) (A4 m c) (A5 m c)

/-- The hop-2 second-stage matrix, propagated twice. -/
theorem e_v126 : W14 m ρ c (Proc.devRef .tc main_v126) = Cert.ReferenceIdeal.ReadP.val_main_v143 (F := Ideal) (A0 m c) (A1 m c) (A2 m c) (A3 m c) (A4 m c) (A5 m c) := by
  rw [stable13 m ρ c main_v126 (by decide)]
  show StableHlo.after hostOps6 (W12 m ρ c) (Proc.devRef .tc main_v126) = _
  after_results_simp
  rw [← stable12 m ρ c main_arg1 (by decide), ← stable12 m ρ c main_arg2 (by decide), ← stable12 m ρ c main_v92 (by decide)]
  rw [e_arg1 m ρ c, e_arg2 m ρ c, e_v92 m ρ c]
  rfl

/-! ## The last stage -/

/-- The three row blocks of the final weight. -/
theorem e_v127 : W14 m ρ c (Proc.devRef .tc main_v127) = Cert.Spec.wfblk (A7 m c) := by
  rw [stable13 m ρ c main_v127 (by decide)]
  show StableHlo.after hostOps6 (W12 m ρ c) (Proc.devRef .tc main_v127) = _
  after_results_simp
  rw [← stable12 m ρ c main_arg7 (by decide)]
  rw [e_arg7 m ρ c]
  exact Cert.KernelIdeal.KLayout.wfblk (A7 m c)

/-- The final bias as a row. -/
theorem e_v128 : W14 m ρ c (Proc.devRef .tc main_v128) = Cert.Spec.bfrow (A8 m c) := by
  rw [stable13 m ρ c main_v128 (by decide)]
  show StableHlo.after hostOps6 (W12 m ρ c) (Proc.devRef .tc main_v128) = _
  after_results_simp
  rw [← stable12 m ρ c main_arg8 (by decide)]
  rw [e_arg8 m ρ c]
  exact Cert.KernelIdeal.KLayout.bfrow (A8 m c)

/-- The result: the log-softmax of the final projection, as the reference computes it. -/
theorem e_v129 : W14 m ρ c (Proc.devRef .tc main_v129) = Cert.ReferenceIdeal.ReadP.val_main_v153 (F := Ideal) (A0 m c) (A1 m c) (A2 m c) (A3 m c) (A4 m c) (A5 m c) (A6 m c) (A7 m c) (A8 m c) := by
  rw [show W14 m ρ c (Proc.devRef .tc main_v129) = (dat6 (V13 m ρ) c).arrAt 6 cfg6.N from W14_arr m ρ c 6]
  rw [Cert.KernelIdeal.Reg6.arr6 (V13 m ρ) c]
  rw [show V13 m ρ c main_v69 = _ from (stable13 m ρ c main_v69 (by decide)).symm.trans (e_v69 m ρ c)]
  rw [show V13 m ρ c main_v89 = _ from (stable13 m ρ c main_v89 (by decide)).symm.trans (e_v89 m ρ c)]
  rw [show V13 m ρ c main_v126 = _ from (stable13 m ρ c main_v126 (by decide)).symm.trans (e_v126 m ρ c)]
  rw [show V13 m ρ c main_arg6 = _ from (stable13 m ρ c main_arg6 (by decide)).symm.trans (e_arg6 m ρ c)]
  rw [show V13 m ρ c main_v127 = _ from (stable13 m ρ c main_v127 (by decide)).symm.trans (e_v127 m ρ c)]
  rw [show V13 m ρ c main_v128 = _ from (stable13 m ρ c main_v128 (by decide)).symm.trans (e_v128 m ρ c)]
  exact Cert.ReferenceIdeal.RefDense3.d3 (A0 m c) (A1 m c) (A2 m c) (A3 m c) (A4 m c) (A5 m c) (A6 m c) (A7 m c) (A8 m c)

end Cert.KernelIdeal.KVal

end
-- ==== Proof.LibSsaT.lean ====
/-
  One-step equations of a single-assignment line of host operations, over typed references.

  Inside a module-local function an operation is stated over typed references: its function acts between the types the
  references carry, and the buffers' own types are reached by a transport along each reference's type equation. Read
  through that transport, the one-step equations keep the operation's function at the head of the right-hand side, so
  that comparing such an equation with a statement over literal buffers never has to open the function.
-/
import proofs.«417311_j57097295233451_3_alg».proof.Proof.LibSsa

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- Reading a typed reference's buffer back at the reference's type undoes storing at it. -/
theorem ofBuf_toBuf {T : BufTy} (y : TRef sig T) (v : T.Contents Val) : y.ofBuf (y.toBuf v) = v := by
  obtain ⟨r, hr, _, _⟩ := y
  subst hr
  rfl

/-- One step over typed references, no operand. -/
theorem at_tnullary (h : WritesAre ops ys) (k : Nat) (W : Valuation τ sig Val) {Ty : BufTy} (y : TRef sig Ty)
    (v : Ty.Contents Val) (hop : ops[k]? = some (TRef.nullary y v)) (hy : y.ref ∉ ys.drop (k + 1)) :
    y.ofBuf (after ops W (Proc.devRef .tc y.ref)) = v := by
  rw [at_nullary h k W _ _ hop hy]; exact ofBuf_toBuf y _

/-- One step over typed references, one operand. -/
theorem at_tunary (h : WritesAre ops ys) (k : Nat) (W : Valuation τ sig Val) {Tx Ty : BufTy} (x : TRef sig Tx)
    (y : TRef sig Ty) (f : Tx.Contents Val → Ty.Contents Val) (hop : ops[k]? = some (TRef.unary x y f))
    (hy : y.ref ∉ ys.drop (k + 1)) (hx : x.ref ∉ ys.drop k) :
    y.ofBuf (after ops W (Proc.devRef .tc y.ref)) = f (x.ofBuf (after ops W (Proc.devRef .tc x.ref))) := by
  rw [at_unary h k W _ _ _ hop hy hx]; exact ofBuf_toBuf y _

/-- One step over typed references, two operands. -/
theorem at_tbinary (h : WritesAre ops ys) (k : Nat) (W : Valuation τ sig Val) {Ta Tb Ty : BufTy} (a : TRef sig Ta)
    (b : TRef sig Tb) (y : TRef sig Ty) (f : Ta.Contents Val → Tb.Contents Val → Ty.Contents Val)
    (hop : ops[k]? = some (TRef.binary a b y f))
    (hy : y.ref ∉ ys.drop (k + 1)) (ha : a.ref ∉ ys.drop k) (hb : b.ref ∉ ys.drop k) :
    y.ofBuf (after ops W (Proc.devRef .tc y.ref))
      = f (a.ofBuf (after ops W (Proc.devRef .tc a.ref))) (b.ofBuf (after ops W (Proc.devRef .tc b.ref))) := by
  rw [at_binary h k W _ _ _ _ hop hy ha hb]; exact ofBuf_toBuf y _

/-- One step over typed references, three operands. -/
theorem at_tternary (h : WritesAre ops ys) (k : Nat) (W : Valuation τ sig Val) {Tc Ta Tb Ty : BufTy} (c : TRef sig Tc)
    (a : TRef sig Ta) (b : TRef sig Tb) (y : TRef sig Ty)
    (f : Tc.Contents Val → Ta.Contents Val → Tb.Contents Val → Ty.Contents Val)
    (hop : ops[k]? = some (TRef.ternary c a b y f))
    (hy : y.ref ∉ ys.drop (k + 1)) (hc : c.ref ∉ ys.drop k) (ha : a.ref ∉ ys.drop k) (hb : b.ref ∉ ys.drop k) :
    y.ofBuf (after ops W (Proc.devRef .tc y.ref))
      = f (c.ofBuf (after ops W (Proc.devRef .tc c.ref))) (a.ofBuf (after ops W (Proc.devRef .tc a.ref)))
          (b.ofBuf (after ops W (Proc.devRef .tc b.ref))) := by
  rw [at_ternary h k W _ _ _ _ _ hop hy hc ha hb]; exact ofBuf_toBuf y _

end Cert.LibSsa
-- ==== Proof.LibNary.lean ====
import Idealize.ShloMosaic.Lib.StableHlo.Run

/-! A host operation with a literal family of THREE operand references (a three-piece concatenate): its result
    with each operand's contents read at that operand's own reference, so that the contents of the operands can
    be rewritten further, one operation at a time. -/

noncomputable section

namespace Cert.LibNary

open Idealize.ShloMosaic Idealize.ShloMosaic.StableHlo

variable {τ : Topo} {sig : RefSig} {Val : EltTy → Type}
variable {x a b y : Ref sig .tc}

/-- The result buffer of a three-operand operation holds the operation's function applied to the three operands'
    contents, operand `k` read at reference `k` of the literal family. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a))
          (Fin.cons (F (Proc.devRef .tc b)) (fun i => i.elim0)))) := by
  rw [nary_result]; congr 1; funext k; fin_cases k <;> rfl

/-- The same equation with the result reference kept out of the simplifier's index, so that one simplification
    pass can use it on a reference it has not yet reduced. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a))
          (Fin.cons (F (Proc.devRef .tc b)) (fun i => i.elim0)))) :=
  nary3_result f hxs hy F

end Cert.LibNary

end
-- ==== Proof.RefRunSteps0.lean ====
/-
  The reference program's line of host operations: the buffers it writes, operation by operation.

  Every operation of the line writes exactly one buffer, and the list of the written references has no repetition:
  the line is in single-assignment form. No operation allocates a buffer, and no argument of the program is among
  the written references, so every argument's buffer ends as the line found it.
-/
import proofs.«417311_j57097295233451_3_alg».proof.Proof.RunP
import proofs.«417311_j57097295233451_3_alg».proof.Proof.LibStretch
import proofs.«417311_j57097295233451_3_alg».proof.Proof.LibSsa

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo
open Cert.LibStretch Cert.LibSsa

variable {F : FTy → Type} [FloatOps F]

/-- The buffers the operations of the line write, in order. -/
abbrev ys : List (Ref sig .tc) :=
  [
    main_v0, main_v1, main_v2, main_v3, main_v4, main_v5, main_v6, main_call0_cst,
    main_call0_v0, main_v7, main_v8, main_v9, main_v10, main_v11, main_v12, main_v13,
    main_v14, main_call1_cst, main_call1_v0, main_v15, main_v16, main_v17, main_v18, main_v19,
    main_v20, main_c, main_v21, main_v22, main_c_0, main_v23, main_v24, main_v25,
    main_v26, main_v27, main_v28, main_v29, main_cst, main_v30, main_v31, main_v32,
    main_v33, main_v34, main_v35, main_v36, main_v37, main_v38, main_v39, main_call2_cst,
    main_call2_v0, main_v40, main_v41, main_v42, main_v43, main_v44, main_v45, main_c_1,
    main_v46, main_v47, main_c_2, main_v48, main_v49, main_v50, main_v51, main_v52,
    main_v53, main_v54, main_cst_3, main_v55, main_v56, main_v57, main_v58, main_v59,
    main_v60, main_v61, main_v62, main_c_4, main_v63, main_v64, main_c_5, main_v65,
    main_v66, main_v67, main_v68, main_v69, main_v70, main_v71, main_cst_6, main_v72,
    main_v73, main_v74, main_v75, main_v76, main_v77, main_v78, main_v79, main_v80,
    main_v81, main_v82, main_v83, main_v84, main_v85, main_v86, main_v87, main_v88,
    main_v89, main_v90, main_c_7, main_v91, main_v92, main_c_8, main_v93, main_v94,
    main_v95, main_v96, main_v97, main_v98, main_v99, main_cst_9, main_v100, main_v101,
    main_v102, main_v103, main_v104, main_v105, main_v106, main_v107, main_v108, main_v109,
    main_v110, main_v111, main_v112, main_v113, main_v114, main_c_10, main_v115, main_v116,
    main_c_11, main_v117, main_v118, main_v119, main_v120, main_v121, main_v122, main_v123,
    main_cst_12, main_v124, main_v125, main_v126, main_v127, main_v128, main_v129, main_v130,
    main_v131, main_c_13, main_v132, main_v133, main_c_14, main_v134, main_v135, main_v136,
    main_v137, main_v138, main_v139, main_v140, main_cst_15, main_v141, main_v142, main_v143,
    main_v144, main_v145, main_v146, main_v147, main_v148, main_v149, main_v150, main_v151,
    main_v152, main_call3_cst, main_call3_v0, main_call3_cst_0, main_call3_v1, main_call3_v2, main_call3_v3, main_call3_v4,
    main_call3_v5, main_call3_v6, main_call3_cst_1, main_call3_v7, main_call3_v8, main_call3_v9, main_call3_v10, main_v153
  ]

/-- Operation by operation, the line writes exactly these buffers. -/
theorem writes : WritesAre (ops : List (HloOp τ sig (Elt F))) ys := by
  writes_are

/-- No operation of the line allocates a buffer. -/
theorem ops_fresh : (ops : List (HloOp τ sig (Elt F))).Forall fun op => op.fresh = ∅ := by
  simp only [List.Forall]; repeat' constructor

/-- Argument 0 is never written: its buffer ends as the line found it. -/
theorem keep_main_arg0 (W : Valuation τ sig (Elt F)) :
    after (ops (F := F)) W (Proc.devRef .tc main_arg0) = W (Proc.devRef .tc main_arg0) :=
  keeps writes W main_arg0 (by decide)

/-- Argument 1 is never written: its buffer ends as the line found it. -/
theorem keep_main_arg1 (W : Valuation τ sig (Elt F)) :
    after (ops (F := F)) W (Proc.devRef .tc main_arg1) = W (Proc.devRef .tc main_arg1) :=
  keeps writes W main_arg1 (by decide)

/-- Argument 2 is never written: its buffer ends as the line found it. -/
theorem keep_main_arg2 (W : Valuation τ sig (Elt F)) :
    after (ops (F := F)) W (Proc.devRef .tc main_arg2) = W (Proc.devRef .tc main_arg2) :=
  keeps writes W main_arg2 (by decide)

/-- Argument 3 is never written: its buffer ends as the line found it. -/
theorem keep_main_arg3 (W : Valuation τ sig (Elt F)) :
    after (ops (F := F)) W (Proc.devRef .tc main_arg3) = W (Proc.devRef .tc main_arg3) :=
  keeps writes W main_arg3 (by decide)

/-- Argument 4 is never written: its buffer ends as the line found it. -/
theorem keep_main_arg4 (W : Valuation τ sig (Elt F)) :
    after (ops (F := F)) W (Proc.devRef .tc main_arg4) = W (Proc.devRef .tc main_arg4) :=
  keeps writes W main_arg4 (by decide)

/-- Argument 5 is never written: its buffer ends as the line found it. -/
theorem keep_main_arg5 (W : Valuation τ sig (Elt F)) :
    after (ops (F := F)) W (Proc.devRef .tc main_arg5) = W (Proc.devRef .tc main_arg5) :=
  keeps writes W main_arg5 (by decide)

/-- Argument 6 is never written: its buffer ends as the line found it. -/
theorem keep_main_arg6 (W : Valuation τ sig (Elt F)) :
    after (ops (F := F)) W (Proc.devRef .tc main_arg6) = W (Proc.devRef .tc main_arg6) :=
  keeps writes W main_arg6 (by decide)

/-- Argument 7 is never written: its buffer ends as the line found it. -/
theorem keep_main_arg7 (W : Valuation τ sig (Elt F)) :
    after (ops (F := F)) W (Proc.devRef .tc main_arg7) = W (Proc.devRef .tc main_arg7) :=
  keeps writes W main_arg7 (by decide)

/-- Argument 8 is never written: its buffer ends as the line found it. -/
theorem keep_main_arg8 (W : Valuation τ sig (Elt F)) :
    after (ops (F := F)) W (Proc.devRef .tc main_arg8) = W (Proc.devRef .tc main_arg8) :=
  keeps writes W main_arg8 (by decide)

end Cert.ReferenceIdeal.RefRun

end
-- ==== Proof.LibSsaTL.lean ====
/-
  One-step equations of a single-assignment line of host operations, over typed references that carry the buffer's
  own type.

  A typed reference to a literal buffer, typed at that buffer's own type, moves contents along an equation that is
  reflexivity: reading and storing through it are the identity. For such references the one-step equations hold
  between the buffers' final contents themselves, with no transport on either side; an operation printed at a literal
  type that the buffer's type computes to is such an operation.
-/
import proofs.«417311_j57097295233451_3_alg».proof.Proof.LibSsaT

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- One step over typed references at the buffers' own types, no operand. -/
theorem at_lnullary (h : WritesAre ops ys) (k : Nat) (W : Valuation τ sig Val) {y : Ref sig .tc} (hyd hys)
    (v : y.ty.Contents Val) (hop : ops[k]? = some (TRef.nullary (TRef.of (T := y.ty) y rfl hyd hys) v))
    (hy : y ∉ ys.drop (k + 1)) :
    after ops W (Proc.devRef .tc y) = v :=
  at_tnullary h k W (TRef.of (T := y.ty) y rfl hyd hys) v hop hy

/-- One step over typed references at the buffers' own types, one operand. -/
theorem at_lunary (h : WritesAre ops ys) (k : Nat) (W : Valuation τ sig Val) {x y : Ref sig .tc} (hxd hxs hyd hys)
    (f : x.ty.Contents Val → y.ty.Contents Val)
    (hop : ops[k]? = some (TRef.unary (TRef.of (T := x.ty) x rfl hxd hxs) (TRef.of (T := y.ty) y rfl hyd hys) f))
    (hy : y ∉ ys.drop (k + 1)) (hx : x ∉ ys.drop k) :
    after ops W (Proc.devRef .tc y) = f (after ops W (Proc.devRef .tc x)) :=
  at_tunary h k W (TRef.of (T := x.ty) x rfl hxd hxs) (TRef.of (T := y.ty) y rfl hyd hys) f hop hy hx

/-- One step over typed references at the buffers' own types, two operands. -/
theorem at_lbinary (h : WritesAre ops ys) (k : Nat) (W : Valuation τ sig Val) {a b y : Ref sig .tc}
    (had has hbd hbs hyd hys) (f : a.ty.Contents Val → b.ty.Contents Val → y.ty.Contents Val)
    (hop : ops[k]? = some (TRef.binary (TRef.of (T := a.ty) a rfl had has) (TRef.of (T := b.ty) b rfl hbd hbs)
      (TRef.of (T := y.ty) y rfl hyd hys) f))
    (hy : y ∉ ys.drop (k + 1)) (ha : a ∉ ys.drop k) (hb : b ∉ ys.drop k) :
    after ops W (Proc.devRef .tc y) = f (after ops W (Proc.devRef .tc a)) (after ops W (Proc.devRef .tc b)) :=
  at_tbinary h k W (TRef.of (T := a.ty) a rfl had has) (TRef.of (T := b.ty) b rfl hbd hbs)
    (TRef.of (T := y.ty) y rfl hyd hys) f hop hy ha hb

/-- One step over typed references at the buffers' own types, three operands. -/
theorem at_lternary (h : WritesAre ops ys) (k : Nat) (W : Valuation τ sig Val) {c a b y : Ref sig .tc}
    (hcd hcs had has hbd hbs hyd hys)
    (f : c.ty.Contents Val → a.ty.Contents Val → b.ty.Contents Val → y.ty.Contents Val)
    (hop : ops[k]? = some (TRef.ternary (TRef.of (T := c.ty) c rfl hcd hcs) (TRef.of (T := a.ty) a rfl had has)
      (TRef.of (T := b.ty) b rfl hbd hbs) (TRef.of (T := y.ty) y rfl hyd hys) f))
    (hy : y ∉ ys.drop (k + 1)) (hc : c ∉ ys.drop k) (ha : a ∉ ys.drop k) (hb : b ∉ ys.drop k) :
    after ops W (Proc.devRef .tc y)
      = f (after ops W (Proc.devRef .tc c)) (after ops W (Proc.devRef .tc a)) (after ops W (Proc.devRef .tc b)) :=
  at_tternary h k W (TRef.of (T := c.ty) c rfl hcd hcs) (TRef.of (T := a.ty) a rfl had has)
    (TRef.of (T := b.ty) b rfl hbd hbs) (TRef.of (T := y.ty) y rfl hyd hys) f hop hy hc ha hb

end Cert.LibSsa
-- ==== Proof.LibSsaN3.lean ====
/-
  The one-step equation of a single-assignment line of host operations for an operation with a literal family of
  three operand references (a three-piece concatenate).

  As for one, two or three separately named operands: the result buffer of the operation at position k, not written
  again, holds the operation's function applied to the family of the three operands' final contents, operand i read
  at reference i of the family; none of the three operands is written at or after position k.
-/
import proofs.«417311_j57097295233451_3_alg».proof.Proof.LibSsa
import proofs.«417311_j57097295233451_3_alg».proof.Proof.LibNary

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- One step, a literal family of three operands: the result buffer holds the function of the family of the three
    operands' final contents. -/
theorem at_nary3 (h : WritesAre ops ys) (k : Nat) (W : Valuation τ sig Val) {x a b y : Ref sig .tc}
    (f : ((i : Fin 3) → ((![x, a, b] : Fin 3 → Ref sig .tc) i).ty.Contents Val) → y.ty.Contents Val) (hxs hy0)
    (hop : ops[k]? = some (nary ![x, a, b] y f hxs hy0))
    (hy : y ∉ ys.drop (k + 1)) (hx : x ∉ ys.drop k) (ha : a ∉ ys.drop k) (hb : b ∉ ys.drop k) :
    after ops W (Proc.devRef .tc y)
      = f (Fin.cons (after ops W (Proc.devRef .tc x)) (Fin.cons (after ops W (Proc.devRef .tc a))
          (Fin.cons (after ops W (Proc.devRef .tc b)) (fun i => i.elim0)))) := by
  rw [after_at h k W _ hop y hy, ← read_take h k W x hx, ← read_take h k W a ha, ← read_take h k W b hb]
  exact Cert.LibNary.nary3_result f hxs hy0 _

end Cert.LibSsa
-- ==== Proof.RefRunSteps1.lean ====
/-
  The reference program's line read one operation at a time: operations 0 to 191 (counting from 0).

  For each operation, in program order: the buffer it writes ends holding its stage value, the operation's function
  of its operands' stage values, as a function of the contents the program's arguments had when the line began.
  Each is the line's one-step equation at the operation's position (the result is not written again, and no operand
  is written at or after that position), with each operand's final contents rewritten by the operand's own lemma,
  an earlier one, or, for an argument, by the fact that the line never writes it.
-/
import proofs.«417311_j57097295233451_3_alg».proof.Proof.ReadP
import proofs.«417311_j57097295233451_3_alg».proof.Proof.LibSsaTL
import proofs.«417311_j57097295233451_3_alg».proof.Proof.LibSsaN3
import proofs.«417311_j57097295233451_3_alg».proof.Proof.RefRunSteps0

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Cert.LibStretch Cert.LibSsa

variable {F : FTy → Type} [FloatOps F]

/-- Operation 0: the buffer it writes ends holding its stage value. -/
theorem holds_main_v0 (W : Valuation τ sig (Elt F)) :
    after (ops (F := F)) W (Proc.devRef .tc main_v0) = val_main_v0 (F := F) (W (Proc.devRef .tc main_arg3)) := by
  have h := at_unary (x := main_arg3) (y := main_v0) writes 0 W _ _ _ rfl (by decide) (by decide)
  rw [keep_main_arg3 W] at h
  exact h

/-- Operation 1: the buffer it writes ends holding its stage value. -/
theorem holds_main_v1 (W : Valuation τ sig (Elt F)) :
    after (ops (F := F)) W (Proc.devRef .tc main_v1) = val_main_v1 (F := F) (W (Proc.devRef .tc main_arg3)) := by
  have h := at_reshape (x := main_v0) (y := main_v1) writes 1 W _ _ _ _ rfl (by decide) (by decide)
  rw [holds_main_v0 W] at h
  exact h

/-- Operation 2: the buffer it writes ends holding its stage value. -/
theorem holds_main_v2 (W : Valuation τ sig (Elt F)) :
    after (ops (F := F)) W (Proc.devRef .tc main_v2) = val_main_v2 (F := F) (W (Proc.devRef .tc main_arg0)) (W (Proc.devRef .tc main_arg3)) := by
  have h := at_binary (a := main_arg0) (b := main_v1) (y := main_v2) writes 2 W _ _ _ _ rfl (by decide) (by decide) (by decide)
  rw [keep_main_arg0 W, holds_main_v1 W] at h
  exact h

/-- Operation 3: the buffer it writes ends holding its stage value. -/
theorem holds_main_v3 (W : Valuation τ sig (Elt F)) :
    after (ops (F := F)) W (Proc.devRef .tc main_v3) = val_main_v3 (F := F) (W (Proc.devRef .tc main_arg4)) := by
  have h := at_unary (x := main_arg4) (y := main_v3) writes 3 W _ _ _ rfl (by decide) (by decide)
  rw [keep_main_arg4 W] at h
  exact h

/-- Operation 4: the buffer it writes ends holding its stage value. -/
theorem holds_main_v4 (W : Valuation τ sig (Elt F)) :
    after (ops (F := F)) W (Proc.devRef .tc main_v4) = val_main_v4 (F := F) (W (Proc.devRef .tc main_arg4)) := by
  have h := at_reshape (x := main_v3) (y := main_v4) writes 4 W _ _ _ _ rfl (by decide) (by decide)
  rw [holds_main_v3 W] at h
  exact h

/-- Operation 5: the buffer it writes ends holding its stage value. -/
theorem holds_main_v5 (W : Valuation τ sig (Elt F)) :
    after (ops (F := F)) W (Proc.devRef .tc main_v5) = val_main_v5 (F := F) (W (Proc.devRef .tc main_arg4)) := by
  have h := at_unary (x := main_v4) (y := main_v5) writes 5 W _ _ _ rfl (by decide) (by decide)
  rw [holds_main_v4 W] at h
  exact h

/-- Operation 6: the buffer it writes ends holding its stage value. -/
theorem holds_main_v6 (W : Valuation τ sig (Elt F)) :
    after (ops (F := F)) W (Proc.devRef .tc main_v6) = val_main_v6 (F := F) (W (Proc.devRef .tc main_arg0)) (W (Proc.devRef .tc main_arg3)) (W (Proc.devRef .tc main_arg4)) := by
  have h := at_binary (a := main_v2) (b := main_v5) (y := main_v6) writes 6 W _ _ _ _ rfl (by decide) (by decide) (by decide)
  rw [holds_main_v2 W, holds_main_v5 W] at h
  exact h

/-- Operation 7: the buffer it writes ends holding its stage value. -/
theorem holds_main_call0_cst (W : Valuation τ sig (Elt F)) :
    after (ops (F := F)) W (Proc.devRef .tc main_call0_cst) = val_main_call0_cst (F := F) := by
  have h := at_lnullary (y := main_call0_cst) writes 7 W _ _ _ rfl (by decide)
  exact h

/-- Operation 8: the buffer it writes ends holding its stage value. -/
theorem holds_main_call0_v0 (W : Valuation τ sig (Elt F)) :
    after (ops (F := F)) W (Proc.devRef .tc main_call0_v0) = val_main_call0_v0 (F := F) := by
  have h := at_lunary (x := main_call0_cst) (y := main_call0_v0) writes 8 W _ _ _ _ _ rfl (by decide) (by decide)
  rw [holds_main_call0_cst W] at h
  exact h

/-- Operation 9: the buffer it writes ends holding its stage value. -/
theorem holds_main_v7 (W : Valuation τ sig (Elt F)) :
    after (ops (F := F)) W (Proc.devRef .tc main_v7) = val_main_v7 (F := F) (W (Proc.devRef .tc main_arg0)) (W (Proc.devRef .tc main_arg3)) (W (Proc.devRef .tc main_arg4)) := by
  have h := at_lbinary (a := main_v6) (b := main_call0_v0) (y := main_v7) writes 9 W _ _ _ _ _ _ _ rfl (by decide) (by decide) (by decide)
  rw [holds_main_v6 W, holds_main_call0_v0 W] at h
  exact h

/-- Operation 10: the buffer it writes ends holding its stage value. -/
theorem holds_main_v8 (W : Valuation τ sig (Elt F)) :
    after (ops (F := F)) W (Proc.devRef .tc main_v8) = val_main_v8 (F := F) (W (Proc.devRef .tc main_arg3)) := by
  have h := at_unary (x := main_arg3) (y := main_v8) writes 10 W _ _ _ rfl (by decide) (by decide)
  rw [keep_main_arg3 W] at h
  exact h

/-- Operation 11: the buffer it writes ends holding its stage value. -/
theorem holds_main_v9 (W : Valuation τ sig (Elt F)) :
    after (ops (F := F)) W (Proc.devRef .tc main_v9) = val_main_v9 (F := F) (W (Proc.devRef .tc main_arg3)) := by
  have h := at_reshape (x := main_v8) (y := main_v9) writes 11 W _ _ _ _ rfl (by decide) (by decide)
  rw [holds_main_v8 W] at h
  exact h

/-- Operation 12: the buffer it writes ends holding its stage value. -/
theorem holds_main_v10 (W : Valuation τ sig (Elt F)) :
    after (ops (F := F)) W (Proc.devRef .tc main_v10) = val_main_v10 (F := F) (W (Proc.devRef .tc main_arg0)) (W (Proc.devRef .tc main_arg3)) := by
  have h := at_binary (a := main_arg0) (b := main_v9) (y := main_v10) writes 12 W _ _ _ _ rfl (by decide) (by decide) (by decide)
  rw [keep_main_arg0 W, holds_main_v9 W] at h
  exact h

/-- Operation 13: the buffer it writes ends holding its stage value. -/
theorem holds_main_v11 (W : Valuation τ sig (Elt F)) :
    after (ops (F := F)) W (Proc.devRef .tc main_v11) = val_main_v11 (F := F) (W (Proc.devRef .tc main_arg4)) := by
  have h := at_unary (x := main_arg4) (y := main_v11) writes 13 W _ _ _ rfl (by decide) (by decide)
  rw [keep_main_arg4 W] at h
  exact h

/-- Operation 14: the buffer it writes ends holding its stage value. -/
theorem holds_main_v12 (W : Valuation τ sig (Elt F)) :
    after (ops (F := F)) W (Proc.devRef .tc main_v12) = val_main_v12 (F := F) (W (Proc.devRef .tc main_arg4)) := by
  have h := at_reshape (x := main_v11) (y := main_v12) writes 14 W _ _ _ _ rfl (by decide) (by decide)
  rw [holds_main_v11 W] at h
  exact h

/-- Operation 15: the buffer it writes ends holding its stage value. -/
theorem holds_main_v13 (W : Valuation τ sig (Elt F)) :
    after (ops (F := F)) W (Proc.devRef .tc main_v13) = val_main_v13 (F := F) (W (Proc.devRef .tc main_arg4)) := by
  have h := at_unary (x := main_v12) (y := main_v13) writes 15 W _ _ _ rfl (by decide) (by decide)
  rw [holds_main_v12 W] at h
  exact h

/-- Operation 16: the buffer it writes ends holding its stage value. -/
theorem holds_main_v14 (W : Valuation τ sig (Elt F)) :
    after (ops (F := F)) W (Proc.devRef .tc main_v14) = val_main_v14 (F := F) (W (Proc.devRef .tc main_arg0)) (W (Proc.devRef .tc main_arg3)) (W (Proc.devRef .tc main_arg4)) := by
  have h := at_binary (a := main_v10) (b := main_v13) (y := main_v14) writes 16 W _ _ _ _ rfl (by decide) (by decide) (by decide)
  rw [holds_main_v10 W, holds_main_v13 W] at h
  exact h

/-- Operation 17: the buffer it writes ends holding its stage value. -/
theorem holds_main_call1_cst (W : Valuation τ sig (Elt F)) :
    after (ops (F := F)) W (Proc.devRef .tc main_call1_cst) = val_main_call1_cst (F := F) := by
  have h := at_lnullary (y := main_call1_cst) writes 17 W _ _ _ rfl (by decide)
  exact h

/-- Operation 18: the buffer it writes ends holding its stage value. -/
theorem holds_main_call1_v0 (W : Valuation τ sig (Elt F)) :
    after (ops (F := F)) W (Proc.devRef .tc main_call1_v0) = val_main_call1_v0 (F := F) := by
  have h := at_lunary (x := main_call1_cst) (y := main_call1_v0) writes 18 W _ _ _ _ _ rfl (by decide) (by decide)
  rw [holds_main_call1_cst W] at h
  exact h

/-- Operation 19: the buffer it writes ends holding its stage value. -/
theorem holds_main_v15 (W : Valuation τ sig (Elt F)) :
    after (ops (F := F)) W (Proc.devRef .tc main_v15) = val_main_v15 (F := F) (W (Proc.devRef .tc main_arg0)) (W (Proc.devRef .tc main_arg3)) (W (Proc.devRef .tc main_arg4)) := by
  have h := at_lbinary (a := main_v14) (b := main_call1_v0) (y := main_v15) writes 19 W _ _ _ _ _ _ _ rfl (by decide) (by decide) (by decide)
  rw [holds_main_v14 W, holds_main_call1_v0 W] at h
  exact h

/-- Operation 20: the buffer it writes ends holding its stage value. -/
theorem holds_main_v16 (W : Valuation τ sig (Elt F)) :
    after (ops (F := F)) W (Proc.devRef .tc main_v16) = val_main_v16 (F := F) (W (Proc.devRef .tc main_arg1)) := by
  have h := at_unary (x := main_arg1) (y := main_v16) writes 20 W _ _ _ rfl (by decide) (by decide)
  rw [keep_main_arg1 W] at h
  exact h

/-- Operation 21: the buffer it writes ends holding its stage value. -/
theorem holds_main_v17 (W : Valuation τ sig (Elt F)) :
    after (ops (F := F)) W (Proc.devRef .tc main_v17) = val_main_v17 (F := F) (W (Proc.devRef .tc main_arg1)) := by
  have h := at_reshape (x := main_v16) (y := main_v17) writes 21 W _ _ _ _ rfl (by decide) (by decide)
  rw [holds_main_v16 W] at h
  exact h

/-- Operation 22: the buffer it writes ends holding its stage value. -/
theorem holds_main_v18 (W : Valuation τ sig (Elt F)) :
    after (ops (F := F)) W (Proc.devRef .tc main_v18) = val_main_v18 (F := F) (W (Proc.devRef .tc main_arg1)) := by
  have h := at_unary (x := main_arg1) (y := main_v18) writes 22 W _ _ _ rfl (by decide) (by decide)
  rw [keep_main_arg1 W] at h
  exact h

/-- Operation 23: the buffer it writes ends holding its stage value. -/
theorem holds_main_v19 (W : Valuation τ sig (Elt F)) :
    after (ops (F := F)) W (Proc.devRef .tc main_v19) = val_main_v19 (F := F) (W (Proc.devRef .tc main_arg1)) := by
  have h := at_reshape (x := main_v18) (y := main_v19) writes 23 W _ _ _ _ rfl (by decide) (by decide)
  rw [holds_main_v18 W] at h
  exact h

/-- Operation 24: the buffer it writes ends holding its stage value. -/
theorem holds_main_v20 (W : Valuation τ sig (Elt F)) :
    after (ops (F := F)) W (Proc.devRef .tc main_v20) = val_main_v20 (F := F) (W (Proc.devRef .tc main_arg2)) := by
  have h := at_unary (x := main_arg2) (y := main_v20) writes 24 W _ _ _ rfl (by decide) (by decide)
  rw [keep_main_arg2 W] at h
  exact h

/-- Operation 25: the buffer it writes ends holding its stage value. -/
theorem holds_main_c (W : Valuation τ sig (Elt F)) :
    after (ops (F := F)) W (Proc.devRef .tc main_c) = val_main_c (F := F) := by
  have h := at_nullary (y := main_c) writes 25 W _ _ rfl (by decide)
  exact h

/-- Operation 26: the buffer it writes ends holding its stage value. -/
theorem holds_main_v21 (W : Valuation τ sig (Elt F)) :
    after (ops (F := F)) W (Proc.devRef .tc main_v21) = val_main_v21 (F := F) := by
  have h := at_unary (x := main_c) (y := main_v21) writes 26 W _ _ _ rfl (by decide) (by decide)
  rw [holds_main_c W] at h
  exact h

/-- Operation 27: the buffer it writes ends holding its stage value. -/
theorem holds_main_v22 (W : Valuation τ sig (Elt F)) :
    after (ops (F := F)) W (Proc.devRef .tc main_v22) = val_main_v22 (F := F) (W (Proc.devRef .tc main_arg1)) := by
  have h := at_binary (a := main_v19) (b := main_v21) (y := main_v22) writes 27 W _ _ _ _ rfl (by decide) (by decide) (by decide)
  rw [holds_main_v19 W, holds_main_v21 W] at h
  exact h

/-- Operation 28: the buffer it writes ends holding its stage value. -/
theorem holds_main_c_0 (W : Valuation τ sig (Elt F)) :
    after (ops (F := F)) W (Proc.devRef .tc main_c_0) = val_main_c_0 (F := F) := by
  have h := at_nullary (y := main_c_0) writes 28 W _ _ rfl (by decide)
  exact h

/-- Operation 29: the buffer it writes ends holding its stage value. -/
theorem holds_main_v23 (W : Valuation τ sig (Elt F)) :
    after (ops (F := F)) W (Proc.devRef .tc main_v23) = val_main_v23 (F := F) := by
  have h := at_unary (x := main_c_0) (y := main_v23) writes 29 W _ _ _ rfl (by decide) (by decide)
  rw [holds_main_c_0 W] at h
  exact h

/-- Operation 30: the buffer it writes ends holding its stage value. -/
theorem holds_main_v24 (W : Valuation τ sig (Elt F)) :
    after (ops (F := F)) W (Proc.devRef .tc main_v24) = val_main_v24 (F := F) (W (Proc.devRef .tc main_arg1)) := by
  have h := at_binary (a := main_v19) (b := main_v23) (y := main_v24) writes 30 W _ _ _ _ rfl (by decide) (by decide) (by decide)
  rw [holds_main_v19 W, holds_main_v23 W] at h
  exact h

/-- Operation 31: the buffer it writes ends holding its stage value. -/
theorem holds_main_v25 (W : Valuation τ sig (Elt F)) :
    after (ops (F := F)) W (Proc.devRef .tc main_v25) = val_main_v25 (F := F) (W (Proc.devRef .tc main_arg1)) := by
  have h := at_ternary (c := main_v22) (a := main_v24) (b := main_v19) (y := main_v25) writes 31 W _ _ _ _ _ rfl (by decide) (by decide) (by decide) (by decide)
  rw [holds_main_v22 W, holds_main_v24 W, holds_main_v19 W] at h
  exact h

/-- Operation 32: the buffer it writes ends holding its stage value. -/
theorem holds_main_v26 (W : Valuation τ sig (Elt F)) :
    after (ops (F := F)) W (Proc.devRef .tc main_v26) = val_main_v26 (F := F) (W (Proc.devRef .tc main_arg1)) := by
  have h := at_unary (x := main_v25) (y := main_v26) writes 32 W _ _ _ rfl (by decide) (by decide)
  rw [holds_main_v25 W] at h
  exact h

/-- Operation 33: the buffer it writes ends holding its stage value. -/
theorem holds_main_v27 (W : Valuation τ sig (Elt F)) :
    after (ops (F := F)) W (Proc.devRef .tc main_v27) = val_main_v27 (F := F) (W (Proc.devRef .tc main_arg0)) (W (Proc.devRef .tc main_arg1)) (W (Proc.devRef .tc main_arg3)) (W (Proc.devRef .tc main_arg4)) := by
  have h := at_binary (a := main_v15) (b := main_v26) (y := main_v27) writes 33 W _ _ _ _ rfl (by decide) (by decide) (by decide)
  rw [holds_main_v15 W, holds_main_v26 W] at h
  exact h

/-- Operation 34: the buffer it writes ends holding its stage value. -/
theorem holds_main_v28 (W : Valuation τ sig (Elt F)) :
    after (ops (F := F)) W (Proc.devRef .tc main_v28) = val_main_v28 (F := F) (W (Proc.devRef .tc main_arg2)) := by
  have h := at_unary (x := main_v20) (y := main_v28) writes 34 W _ _ _ rfl (by decide) (by decide)
  rw [holds_main_v20 W] at h
  exact h

/-- Operation 35: the buffer it writes ends holding its stage value. -/
theorem holds_main_v29 (W : Valuation τ sig (Elt F)) :
    after (ops (F := F)) W (Proc.devRef .tc main_v29) = val_main_v29 (F := F) (W (Proc.devRef .tc main_arg0)) (W (Proc.devRef .tc main_arg1)) (W (Proc.devRef .tc main_arg2)) (W (Proc.devRef .tc main_arg3)) (W (Proc.devRef .tc main_arg4)) := by
  have h := at_binary (a := main_v28) (b := main_v27) (y := main_v29) writes 35 W _ _ _ _ rfl (by decide) (by decide) (by decide)
  rw [holds_main_v28 W, holds_main_v27 W] at h
  exact h

/-- Operation 36: the buffer it writes ends holding its stage value. -/
theorem holds_main_cst (W : Valuation τ sig (Elt F)) :
    after (ops (F := F)) W (Proc.devRef .tc main_cst) = val_main_cst (F := F) := by
  have h := at_nullary (y := main_cst) writes 36 W _ _ rfl (by decide)
  exact h

/-- Operation 37: the buffer it writes ends holding its stage value. -/
theorem holds_main_v30 (W : Valuation τ sig (Elt F)) :
    after (ops (F := F)) W (Proc.devRef .tc main_v30) = val_main_v30 (F := F) := by
  have h := at_unary (x := main_cst) (y := main_v30) writes 37 W _ _ _ rfl (by decide) (by decide)
  rw [holds_main_cst W] at h
  exact h

/-- Operation 38: the buffer it writes ends holding its stage value. -/
theorem holds_main_v31 (W : Valuation τ sig (Elt F)) :
    after (ops (F := F)) W (Proc.devRef .tc main_v31) = val_main_v31 (F := F) (W (Proc.devRef .tc main_arg1)) := by
  have h := at_unary (x := main_v17) (y := main_v31) writes 38 W _ _ _ rfl (by decide) (by decide)
  rw [holds_main_v17 W] at h
  exact h

/-- Operation 39: the buffer it writes ends holding its stage value. -/
theorem holds_main_v32 (W : Valuation τ sig (Elt F)) :
    after (ops (F := F)) W (Proc.devRef .tc main_v32) = val_main_v32 (F := F) (W (Proc.devRef .tc main_arg0)) (W (Proc.devRef .tc main_arg1)) (W (Proc.devRef .tc main_arg2)) (W (Proc.devRef .tc main_arg3)) (W (Proc.devRef .tc main_arg4)) := by
  have h := at_ternary (c := main_v30) (a := main_v31) (b := main_v29) (y := main_v32) writes 39 W _ _ _ _ _ rfl (by decide) (by decide) (by decide) (by decide)
  rw [holds_main_v30 W, holds_main_v31 W, holds_main_v29 W] at h
  exact h

/-- Operation 40: the buffer it writes ends holding its stage value. -/
theorem holds_main_v33 (W : Valuation τ sig (Elt F)) :
    after (ops (F := F)) W (Proc.devRef .tc main_v33) = val_main_v33 (F := F) (W (Proc.devRef .tc main_arg3)) := by
  have h := at_unary (x := main_arg3) (y := main_v33) writes 40 W _ _ _ rfl (by decide) (by decide)
  rw [keep_main_arg3 W] at h
  exact h

/-- Operation 41: the buffer it writes ends holding its stage value. -/
theorem holds_main_v34 (W : Valuation τ sig (Elt F)) :
    after (ops (F := F)) W (Proc.devRef .tc main_v34) = val_main_v34 (F := F) (W (Proc.devRef .tc main_arg3)) := by
  have h := at_reshape (x := main_v33) (y := main_v34) writes 41 W _ _ _ _ rfl (by decide) (by decide)
  rw [holds_main_v33 W] at h
  exact h

/-- Operation 42: the buffer it writes ends holding its stage value. -/
theorem holds_main_v35 (W : Valuation τ sig (Elt F)) :
    after (ops (F := F)) W (Proc.devRef .tc main_v35) = val_main_v35 (F := F) (W (Proc.devRef .tc main_arg0)) (W (Proc.devRef .tc main_arg3)) := by
  have h := at_binary (a := main_arg0) (b := main_v34) (y := main_v35) writes 42 W _ _ _ _ rfl (by decide) (by decide) (by decide)
  rw [keep_main_arg0 W, holds_main_v34 W] at h
  exact h

/-- Operation 43: the buffer it writes ends holding its stage value. -/
theorem holds_main_v36 (W : Valuation τ sig (Elt F)) :
    after (ops (F := F)) W (Proc.devRef .tc main_v36) = val_main_v36 (F := F) (W (Proc.devRef .tc main_arg4)) := by
  have h := at_unary (x := main_arg4) (y := main_v36) writes 43 W _ _ _ rfl (by decide) (by decide)
  rw [keep_main_arg4 W] at h
  exact h

/-- Operation 44: the buffer it writes ends holding its stage value. -/
theorem holds_main_v37 (W : Valuation τ sig (Elt F)) :
    after (ops (F := F)) W (Proc.devRef .tc main_v37) = val_main_v37 (F := F) (W (Proc.devRef .tc main_arg4)) := by
  have h := at_reshape (x := main_v36) (y := main_v37) writes 44 W _ _ _ _ rfl (by decide) (by decide)
  rw [holds_main_v36 W] at h
  exact h

/-- Operation 45: the buffer it writes ends holding its stage value. -/
theorem holds_main_v38 (W : Valuation τ sig (Elt F)) :
    after (ops (F := F)) W (Proc.devRef .tc main_v38) = val_main_v38 (F := F) (W (Proc.devRef .tc main_arg4)) := by
  have h := at_unary (x := main_v37) (y := main_v38) writes 45 W _ _ _ rfl (by decide) (by decide)
  rw [holds_main_v37 W] at h
  exact h

/-- Operation 46: the buffer it writes ends holding its stage value. -/
theorem holds_main_v39 (W : Valuation τ sig (Elt F)) :
    after (ops (F := F)) W (Proc.devRef .tc main_v39) = val_main_v39 (F := F) (W (Proc.devRef .tc main_arg0)) (W (Proc.devRef .tc main_arg3)) (W (Proc.devRef .tc main_arg4)) := by
  have h := at_binary (a := main_v35) (b := main_v38) (y := main_v39) writes 46 W _ _ _ _ rfl (by decide) (by decide) (by decide)
  rw [holds_main_v35 W, holds_main_v38 W] at h
  exact h

/-- Operation 47: the buffer it writes ends holding its stage value. -/
theorem holds_main_call2_cst (W : Valuation τ sig (Elt F)) :
    after (ops (F := F)) W (Proc.devRef .tc main_call2_cst) = val_main_call2_cst (F := F) := by
  have h := at_lnullary (y := main_call2_cst) writes 47 W _ _ _ rfl (by decide)
  exact h

/-- Operation 48: the buffer it writes ends holding its stage value. -/
theorem holds_main_call2_v0 (W : Valuation τ sig (Elt F)) :
    after (ops (F := F)) W (Proc.devRef .tc main_call2_v0) = val_main_call2_v0 (F := F) := by
  have h := at_lunary (x := main_call2_cst) (y := main_call2_v0) writes 48 W _ _ _ _ _ rfl (by decide) (by decide)
  rw [holds_main_call2_cst W] at h
  exact h

/-- Operation 49: the buffer it writes ends holding its stage value. -/
theorem holds_main_v40 (W : Valuation τ sig (Elt F)) :
    after (ops (F := F)) W (Proc.devRef .tc main_v40) = val_main_v40 (F := F) (W (Proc.devRef .tc main_arg0)) (W (Proc.devRef .tc main_arg3)) (W (Proc.devRef .tc main_arg4)) := by
  have h := at_lbinary (a := main_v39) (b := main_call2_v0) (y := main_v40) writes 49 W _ _ _ _ _ _ _ rfl (by decide) (by decide) (by decide)
  rw [holds_main_v39 W, holds_main_call2_v0 W] at h
  exact h

/-- Operation 50: the buffer it writes ends holding its stage value. -/
theorem holds_main_v41 (W : Valuation τ sig (Elt F)) :
    after (ops (F := F)) W (Proc.devRef .tc main_v41) = val_main_v41 (F := F) (W (Proc.devRef .tc main_arg1)) := by
  have h := at_unary (x := main_arg1) (y := main_v41) writes 50 W _ _ _ rfl (by decide) (by decide)
  rw [keep_main_arg1 W] at h
  exact h

/-- Operation 51: the buffer it writes ends holding its stage value. -/
theorem holds_main_v42 (W : Valuation τ sig (Elt F)) :
    after (ops (F := F)) W (Proc.devRef .tc main_v42) = val_main_v42 (F := F) (W (Proc.devRef .tc main_arg1)) := by
  have h := at_reshape (x := main_v41) (y := main_v42) writes 51 W _ _ _ _ rfl (by decide) (by decide)
  rw [holds_main_v41 W] at h
  exact h

/-- Operation 52: the buffer it writes ends holding its stage value. -/
theorem holds_main_v43 (W : Valuation τ sig (Elt F)) :
    after (ops (F := F)) W (Proc.devRef .tc main_v43) = val_main_v43 (F := F) (W (Proc.devRef .tc main_arg1)) := by
  have h := at_unary (x := main_arg1) (y := main_v43) writes 52 W _ _ _ rfl (by decide) (by decide)
  rw [keep_main_arg1 W] at h
  exact h

/-- Operation 53: the buffer it writes ends holding its stage value. -/
theorem holds_main_v44 (W : Valuation τ sig (Elt F)) :
    after (ops (F := F)) W (Proc.devRef .tc main_v44) = val_main_v44 (F := F) (W (Proc.devRef .tc main_arg1)) := by
  have h := at_reshape (x := main_v43) (y := main_v44) writes 53 W _ _ _ _ rfl (by decide) (by decide)
  rw [holds_main_v43 W] at h
  exact h

/-- Operation 54: the buffer it writes ends holding its stage value. -/
theorem holds_main_v45 (W : Valuation τ sig (Elt F)) :
    after (ops (F := F)) W (Proc.devRef .tc main_v45) = val_main_v45 (F := F) (W (Proc.devRef .tc main_arg2)) := by
  have h := at_unary (x := main_arg2) (y := main_v45) writes 54 W _ _ _ rfl (by decide) (by decide)
  rw [keep_main_arg2 W] at h
  exact h

/-- Operation 55: the buffer it writes ends holding its stage value. -/
theorem holds_main_c_1 (W : Valuation τ sig (Elt F)) :
    after (ops (F := F)) W (Proc.devRef .tc main_c_1) = val_main_c_1 (F := F) := by
  have h := at_nullary (y := main_c_1) writes 55 W _ _ rfl (by decide)
  exact h

/-- Operation 56: the buffer it writes ends holding its stage value. -/
theorem holds_main_v46 (W : Valuation τ sig (Elt F)) :
    after (ops (F := F)) W (Proc.devRef .tc main_v46) = val_main_v46 (F := F) := by
  have h := at_unary (x := main_c_1) (y := main_v46) writes 56 W _ _ _ rfl (by decide) (by decide)
  rw [holds_main_c_1 W] at h
  exact h

/-- Operation 57: the buffer it writes ends holding its stage value. -/
theorem holds_main_v47 (W : Valuation τ sig (Elt F)) :
    after (ops (F := F)) W (Proc.devRef .tc main_v47) = val_main_v47 (F := F) (W (Proc.devRef .tc main_arg1)) := by
  have h := at_binary (a := main_v44) (b := main_v46) (y := main_v47) writes 57 W _ _ _ _ rfl (by decide) (by decide) (by decide)
  rw [holds_main_v44 W, holds_main_v46 W] at h
  exact h

/-- Operation 58: the buffer it writes ends holding its stage value. -/
theorem holds_main_c_2 (W : Valuation τ sig (Elt F)) :
    after (ops (F := F)) W (Proc.devRef .tc main_c_2) = val_main_c_2 (F := F) := by
  have h := at_nullary (y := main_c_2) writes 58 W _ _ rfl (by decide)
  exact h

/-- Operation 59: the buffer it writes ends holding its stage value. -/
theorem holds_main_v48 (W : Valuation τ sig (Elt F)) :
    after (ops (F := F)) W (Proc.devRef .tc main_v48) = val_main_v48 (F := F) := by
  have h := at_unary (x := main_c_2) (y := main_v48) writes 59 W _ _ _ rfl (by decide) (by decide)
  rw [holds_main_c_2 W] at h
  exact h

/-- Operation 60: the buffer it writes ends holding its stage value. -/
theorem holds_main_v49 (W : Valuation τ sig (Elt F)) :
    after (ops (F := F)) W (Proc.devRef .tc main_v49) = val_main_v49 (F := F) (W (Proc.devRef .tc main_arg1)) := by
  have h := at_binary (a := main_v44) (b := main_v48) (y := main_v49) writes 60 W _ _ _ _ rfl (by decide) (by decide) (by decide)
  rw [holds_main_v44 W, holds_main_v48 W] at h
  exact h

/-- Operation 61: the buffer it writes ends holding its stage value. -/
theorem holds_main_v50 (W : Valuation τ sig (Elt F)) :
    after (ops (F := F)) W (Proc.devRef .tc main_v50) = val_main_v50 (F := F) (W (Proc.devRef .tc main_arg1)) := by
  have h := at_ternary (c := main_v47) (a := main_v49) (b := main_v44) (y := main_v50) writes 61 W _ _ _ _ _ rfl (by decide) (by decide) (by decide) (by decide)
  rw [holds_main_v47 W, holds_main_v49 W, holds_main_v44 W] at h
  exact h

/-- Operation 62: the buffer it writes ends holding its stage value. -/
theorem holds_main_v51 (W : Valuation τ sig (Elt F)) :
    after (ops (F := F)) W (Proc.devRef .tc main_v51) = val_main_v51 (F := F) (W (Proc.devRef .tc main_arg1)) := by
  have h := at_unary (x := main_v50) (y := main_v51) writes 62 W _ _ _ rfl (by decide) (by decide)
  rw [holds_main_v50 W] at h
  exact h

/-- Operation 63: the buffer it writes ends holding its stage value. -/
theorem holds_main_v52 (W : Valuation τ sig (Elt F)) :
    after (ops (F := F)) W (Proc.devRef .tc main_v52) = val_main_v52 (F := F) (W (Proc.devRef .tc main_arg0)) (W (Proc.devRef .tc main_arg1)) (W (Proc.devRef .tc main_arg3)) (W (Proc.devRef .tc main_arg4)) := by
  have h := at_binary (a := main_v40) (b := main_v51) (y := main_v52) writes 63 W _ _ _ _ rfl (by decide) (by decide) (by decide)
  rw [holds_main_v40 W, holds_main_v51 W] at h
  exact h

/-- Operation 64: the buffer it writes ends holding its stage value. -/
theorem holds_main_v53 (W : Valuation τ sig (Elt F)) :
    after (ops (F := F)) W (Proc.devRef .tc main_v53) = val_main_v53 (F := F) (W (Proc.devRef .tc main_arg2)) := by
  have h := at_unary (x := main_v45) (y := main_v53) writes 64 W _ _ _ rfl (by decide) (by decide)
  rw [holds_main_v45 W] at h
  exact h

/-- Operation 65: the buffer it writes ends holding its stage value. -/
theorem holds_main_v54 (W : Valuation τ sig (Elt F)) :
    after (ops (F := F)) W (Proc.devRef .tc main_v54) = val_main_v54 (F := F) (W (Proc.devRef .tc main_arg0)) (W (Proc.devRef .tc main_arg1)) (W (Proc.devRef .tc main_arg2)) (W (Proc.devRef .tc main_arg3)) (W (Proc.devRef .tc main_arg4)) := by
  have h := at_binary (a := main_v53) (b := main_v52) (y := main_v54) writes 65 W _ _ _ _ rfl (by decide) (by decide) (by decide)
  rw [holds_main_v53 W, holds_main_v52 W] at h
  exact h

/-- Operation 66: the buffer it writes ends holding its stage value. -/
theorem holds_main_cst_3 (W : Valuation τ sig (Elt F)) :
    after (ops (F := F)) W (Proc.devRef .tc main_cst_3) = val_main_cst_3 (F := F) := by
  have h := at_nullary (y := main_cst_3) writes 66 W _ _ rfl (by decide)
  exact h

/-- Operation 67: the buffer it writes ends holding its stage value. -/
theorem holds_main_v55 (W : Valuation τ sig (Elt F)) :
    after (ops (F := F)) W (Proc.devRef .tc main_v55) = val_main_v55 (F := F) := by
  have h := at_unary (x := main_cst_3) (y := main_v55) writes 67 W _ _ _ rfl (by decide) (by decide)
  rw [holds_main_cst_3 W] at h
  exact h

/-- Operation 68: the buffer it writes ends holding its stage value. -/
theorem holds_main_v56 (W : Valuation τ sig (Elt F)) :
    after (ops (F := F)) W (Proc.devRef .tc main_v56) = val_main_v56 (F := F) (W (Proc.devRef .tc main_arg1)) := by
  have h := at_unary (x := main_v42) (y := main_v56) writes 68 W _ _ _ rfl (by decide) (by decide)
  rw [holds_main_v42 W] at h
  exact h

/-- Operation 69: the buffer it writes ends holding its stage value. -/
theorem holds_main_v57 (W : Valuation τ sig (Elt F)) :
    after (ops (F := F)) W (Proc.devRef .tc main_v57) = val_main_v57 (F := F) (W (Proc.devRef .tc main_arg0)) (W (Proc.devRef .tc main_arg1)) (W (Proc.devRef .tc main_arg2)) (W (Proc.devRef .tc main_arg3)) (W (Proc.devRef .tc main_arg4)) := by
  have h := at_ternary (c := main_v55) (a := main_v56) (b := main_v54) (y := main_v57) writes 69 W _ _ _ _ _ rfl (by decide) (by decide) (by decide) (by decide)
  rw [holds_main_v55 W, holds_main_v56 W, holds_main_v54 W] at h
  exact h

/-- Operation 70: the buffer it writes ends holding its stage value. -/
theorem holds_main_v58 (W : Valuation τ sig (Elt F)) :
    after (ops (F := F)) W (Proc.devRef .tc main_v58) = val_main_v58 (F := F) (W (Proc.devRef .tc main_arg1)) := by
  have h := at_unary (x := main_arg1) (y := main_v58) writes 70 W _ _ _ rfl (by decide) (by decide)
  rw [keep_main_arg1 W] at h
  exact h

/-- Operation 71: the buffer it writes ends holding its stage value. -/
theorem holds_main_v59 (W : Valuation τ sig (Elt F)) :
    after (ops (F := F)) W (Proc.devRef .tc main_v59) = val_main_v59 (F := F) (W (Proc.devRef .tc main_arg1)) := by
  have h := at_reshape (x := main_v58) (y := main_v59) writes 71 W _ _ _ _ rfl (by decide) (by decide)
  rw [holds_main_v58 W] at h
  exact h

/-- Operation 72: the buffer it writes ends holding its stage value. -/
theorem holds_main_v60 (W : Valuation τ sig (Elt F)) :
    after (ops (F := F)) W (Proc.devRef .tc main_v60) = val_main_v60 (F := F) (W (Proc.devRef .tc main_arg1)) := by
  have h := at_unary (x := main_arg1) (y := main_v60) writes 72 W _ _ _ rfl (by decide) (by decide)
  rw [keep_main_arg1 W] at h
  exact h

/-- Operation 73: the buffer it writes ends holding its stage value. -/
theorem holds_main_v61 (W : Valuation τ sig (Elt F)) :
    after (ops (F := F)) W (Proc.devRef .tc main_v61) = val_main_v61 (F := F) (W (Proc.devRef .tc main_arg1)) := by
  have h := at_reshape (x := main_v60) (y := main_v61) writes 73 W _ _ _ _ rfl (by decide) (by decide)
  rw [holds_main_v60 W] at h
  exact h

/-- Operation 74: the buffer it writes ends holding its stage value. -/
theorem holds_main_v62 (W : Valuation τ sig (Elt F)) :
    after (ops (F := F)) W (Proc.devRef .tc main_v62) = val_main_v62 (F := F) (W (Proc.devRef .tc main_arg2)) := by
  have h := at_unary (x := main_arg2) (y := main_v62) writes 74 W _ _ _ rfl (by decide) (by decide)
  rw [keep_main_arg2 W] at h
  exact h

/-- Operation 75: the buffer it writes ends holding its stage value. -/
theorem holds_main_c_4 (W : Valuation τ sig (Elt F)) :
    after (ops (F := F)) W (Proc.devRef .tc main_c_4) = val_main_c_4 (F := F) := by
  have h := at_nullary (y := main_c_4) writes 75 W _ _ rfl (by decide)
  exact h

/-- Operation 76: the buffer it writes ends holding its stage value. -/
theorem holds_main_v63 (W : Valuation τ sig (Elt F)) :
    after (ops (F := F)) W (Proc.devRef .tc main_v63) = val_main_v63 (F := F) := by
  have h := at_unary (x := main_c_4) (y := main_v63) writes 76 W _ _ _ rfl (by decide) (by decide)
  rw [holds_main_c_4 W] at h
  exact h

/-- Operation 77: the buffer it writes ends holding its stage value. -/
theorem holds_main_v64 (W : Valuation τ sig (Elt F)) :
    after (ops (F := F)) W (Proc.devRef .tc main_v64) = val_main_v64 (F := F) (W (Proc.devRef .tc main_arg1)) := by
  have h := at_binary (a := main_v61) (b := main_v63) (y := main_v64) writes 77 W _ _ _ _ rfl (by decide) (by decide) (by decide)
  rw [holds_main_v61 W, holds_main_v63 W] at h
  exact h

/-- Operation 78: the buffer it writes ends holding its stage value. -/
theorem holds_main_c_5 (W : Valuation τ sig (Elt F)) :
    after (ops (F := F)) W (Proc.devRef .tc main_c_5) = val_main_c_5 (F := F) := by
  have h := at_nullary (y := main_c_5) writes 78 W _ _ rfl (by decide)
  exact h

/-- Operation 79: the buffer it writes ends holding its stage value. -/
theorem holds_main_v65 (W : Valuation τ sig (Elt F)) :
    after (ops (F := F)) W (Proc.devRef .tc main_v65) = val_main_v65 (F := F) := by
  have h := at_unary (x := main_c_5) (y := main_v65) writes 79 W _ _ _ rfl (by decide) (by decide)
  rw [holds_main_c_5 W] at h
  exact h

/-- Operation 80: the buffer it writes ends holding its stage value. -/
theorem holds_main_v66 (W : Valuation τ sig (Elt F)) :
    after (ops (F := F)) W (Proc.devRef .tc main_v66) = val_main_v66 (F := F) (W (Proc.devRef .tc main_arg1)) := by
  have h := at_binary (a := main_v61) (b := main_v65) (y := main_v66) writes 80 W _ _ _ _ rfl (by decide) (by decide) (by decide)
  rw [holds_main_v61 W, holds_main_v65 W] at h
  exact h

/-- Operation 81: the buffer it writes ends holding its stage value. -/
theorem holds_main_v67 (W : Valuation τ sig (Elt F)) :
    after (ops (F := F)) W (Proc.devRef .tc main_v67) = val_main_v67 (F := F) (W (Proc.devRef .tc main_arg1)) := by
  have h := at_ternary (c := main_v64) (a := main_v66) (b := main_v61) (y := main_v67) writes 81 W _ _ _ _ _ rfl (by decide) (by decide) (by decide) (by decide)
  rw [holds_main_v64 W, holds_main_v66 W, holds_main_v61 W] at h
  exact h

/-- Operation 82: the buffer it writes ends holding its stage value. -/
theorem holds_main_v68 (W : Valuation τ sig (Elt F)) :
    after (ops (F := F)) W (Proc.devRef .tc main_v68) = val_main_v68 (F := F) (W (Proc.devRef .tc main_arg1)) := by
  have h := at_unary (x := main_v67) (y := main_v68) writes 82 W _ _ _ rfl (by decide) (by decide)
  rw [holds_main_v67 W] at h
  exact h

/-- Operation 83: the buffer it writes ends holding its stage value. -/
theorem holds_main_v69 (W : Valuation τ sig (Elt F)) :
    after (ops (F := F)) W (Proc.devRef .tc main_v69) = val_main_v69 (F := F) (W (Proc.devRef .tc main_arg0)) (W (Proc.devRef .tc main_arg1)) (W (Proc.devRef .tc main_arg2)) (W (Proc.devRef .tc main_arg3)) (W (Proc.devRef .tc main_arg4)) := by
  have h := at_binary (a := main_v57) (b := main_v68) (y := main_v69) writes 83 W _ _ _ _ rfl (by decide) (by decide) (by decide)
  rw [holds_main_v57 W, holds_main_v68 W] at h
  exact h

/-- Operation 84: the buffer it writes ends holding its stage value. -/
theorem holds_main_v70 (W : Valuation τ sig (Elt F)) :
    after (ops (F := F)) W (Proc.devRef .tc main_v70) = val_main_v70 (F := F) (W (Proc.devRef .tc main_arg2)) := by
  have h := at_unary (x := main_v62) (y := main_v70) writes 84 W _ _ _ rfl (by decide) (by decide)
  rw [holds_main_v62 W] at h
  exact h

/-- Operation 85: the buffer it writes ends holding its stage value. -/
theorem holds_main_v71 (W : Valuation τ sig (Elt F)) :
    after (ops (F := F)) W (Proc.devRef .tc main_v71) = val_main_v71 (F := F) (W (Proc.devRef .tc main_arg0)) (W (Proc.devRef .tc main_arg1)) (W (Proc.devRef .tc main_arg2)) (W (Proc.devRef .tc main_arg3)) (W (Proc.devRef .tc main_arg4)) := by
  have h := at_binary (a := main_v70) (b := main_v69) (y := main_v71) writes 85 W _ _ _ _ rfl (by decide) (by decide) (by decide)
  rw [holds_main_v70 W, holds_main_v69 W] at h
  exact h

/-- Operation 86: the buffer it writes ends holding its stage value. -/
theorem holds_main_cst_6 (W : Valuation τ sig (Elt F)) :
    after (ops (F := F)) W (Proc.devRef .tc main_cst_6) = val_main_cst_6 (F := F) := by
  have h := at_nullary (y := main_cst_6) writes 86 W _ _ rfl (by decide)
  exact h

/-- Operation 87: the buffer it writes ends holding its stage value. -/
theorem holds_main_v72 (W : Valuation τ sig (Elt F)) :
    after (ops (F := F)) W (Proc.devRef .tc main_v72) = val_main_v72 (F := F) := by
  have h := at_unary (x := main_cst_6) (y := main_v72) writes 87 W _ _ _ rfl (by decide) (by decide)
  rw [holds_main_cst_6 W] at h
  exact h

/-- Operation 88: the buffer it writes ends holding its stage value. -/
theorem holds_main_v73 (W : Valuation τ sig (Elt F)) :
    after (ops (F := F)) W (Proc.devRef .tc main_v73) = val_main_v73 (F := F) (W (Proc.devRef .tc main_arg1)) := by
  have h := at_unary (x := main_v59) (y := main_v73) writes 88 W _ _ _ rfl (by decide) (by decide)
  rw [holds_main_v59 W] at h
  exact h

/-- Operation 89: the buffer it writes ends holding its stage value. -/
theorem holds_main_v74 (W : Valuation τ sig (Elt F)) :
    after (ops (F := F)) W (Proc.devRef .tc main_v74) = val_main_v74 (F := F) (W (Proc.devRef .tc main_arg0)) (W (Proc.devRef .tc main_arg1)) (W (Proc.devRef .tc main_arg2)) (W (Proc.devRef .tc main_arg3)) (W (Proc.devRef .tc main_arg4)) := by
  have h := at_ternary (c := main_v72) (a := main_v73) (b := main_v71) (y := main_v74) writes 89 W _ _ _ _ _ rfl (by decide) (by decide) (by decide) (by decide)
  rw [holds_main_v72 W, holds_main_v73 W, holds_main_v71 W] at h
  exact h

/-- Operation 90: the buffer it writes ends holding its stage value. -/
theorem holds_main_v75 (W : Valuation τ sig (Elt F)) :
    after (ops (F := F)) W (Proc.devRef .tc main_v75) = val_main_v75 (F := F) (W (Proc.devRef .tc main_arg0)) (W (Proc.devRef .tc main_arg1)) (W (Proc.devRef .tc main_arg2)) (W (Proc.devRef .tc main_arg3)) (W (Proc.devRef .tc main_arg4)) := by
  have h := at_nary3 (x := main_v7) (a := main_v32) (b := main_v74) (y := main_v75) writes 90 W _ _ _ rfl (by decide) (by decide) (by decide) (by decide)
  rw [holds_main_v7 W, holds_main_v32 W, holds_main_v74 W] at h
  exact h

/-- Operation 91: the buffer it writes ends holding its stage value. -/
theorem holds_main_v76 (W : Valuation τ sig (Elt F)) :
    after (ops (F := F)) W (Proc.devRef .tc main_v76) = val_main_v76 (F := F) (W (Proc.devRef .tc main_arg5)) := by
  have h := at_unary (x := main_arg5) (y := main_v76) writes 91 W _ _ _ rfl (by decide) (by decide)
  rw [keep_main_arg5 W] at h
  exact h

/-- Operation 92: the buffer it writes ends holding its stage value. -/
theorem holds_main_v77 (W : Valuation τ sig (Elt F)) :
    after (ops (F := F)) W (Proc.devRef .tc main_v77) = val_main_v77 (F := F) (W (Proc.devRef .tc main_arg5)) := by
  have h := at_reshape (x := main_v76) (y := main_v77) writes 92 W _ _ _ _ rfl (by decide) (by decide)
  rw [holds_main_v76 W] at h
  exact h

/-- Operation 93: the buffer it writes ends holding its stage value. -/
theorem holds_main_v78 (W : Valuation τ sig (Elt F)) :
    after (ops (F := F)) W (Proc.devRef .tc main_v78) = val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h := at_binary (a := main_v75) (b := main_v77) (y := main_v78) writes 93 W _ _ _ _ rfl (by decide) (by decide) (by decide)
  rw [holds_main_v75 W, holds_main_v77 W] at h
  exact h

/-- Operation 94: the buffer it writes ends holding its stage value. -/
theorem holds_main_v79 (W : Valuation τ sig (Elt F)) :
    after (ops (F := F)) W (Proc.devRef .tc main_v79) = val_main_v79 (F := F) (W (Proc.devRef .tc main_arg6)) := by
  have h := at_unary (x := main_arg6) (y := main_v79) writes 94 W _ _ _ rfl (by decide) (by decide)
  rw [keep_main_arg6 W] at h
  exact h

/-- Operation 95: the buffer it writes ends holding its stage value. -/
theorem holds_main_v80 (W : Valuation τ sig (Elt F)) :
    after (ops (F := F)) W (Proc.devRef .tc main_v80) = val_main_v80 (F := F) (W (Proc.devRef .tc main_arg6)) := by
  have h := at_reshape (x := main_v79) (y := main_v80) writes 95 W _ _ _ _ rfl (by decide) (by decide)
  rw [holds_main_v79 W] at h
  exact h

/-- Operation 96: the buffer it writes ends holding its stage value. -/
theorem holds_main_v81 (W : Valuation τ sig (Elt F)) :
    after (ops (F := F)) W (Proc.devRef .tc main_v81) = val_main_v81 (F := F) (W (Proc.devRef .tc main_arg6)) := by
  have h := at_unary (x := main_v80) (y := main_v81) writes 96 W _ _ _ rfl (by decide) (by decide)
  rw [holds_main_v80 W] at h
  exact h

/-- Operation 97: the buffer it writes ends holding its stage value. -/
theorem holds_main_v82 (W : Valuation τ sig (Elt F)) :
    after (ops (F := F)) W (Proc.devRef .tc main_v82) = val_main_v82 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  have h := at_binary (a := main_v78) (b := main_v81) (y := main_v82) writes 97 W _ _ _ _ rfl (by decide) (by decide) (by decide)
  rw [holds_main_v78 W, holds_main_v81 W] at h
  exact h

/-- Operation 98: the buffer it writes ends holding its stage value. -/
theorem holds_main_v83 (W : Valuation τ sig (Elt F)) :
    after (ops (F := F)) W (Proc.devRef .tc main_v83) = val_main_v83 (F := F) (W (Proc.devRef .tc main_arg5)) := by
  have h := at_unary (x := main_arg5) (y := main_v83) writes 98 W _ _ _ rfl (by decide) (by decide)
  rw [keep_main_arg5 W] at h
  exact h

/-- Operation 99: the buffer it writes ends holding its stage value. -/
theorem holds_main_v84 (W : Valuation τ sig (Elt F)) :
    after (ops (F := F)) W (Proc.devRef .tc main_v84) = val_main_v84 (F := F) (W (Proc.devRef .tc main_arg5)) := by
  have h := at_reshape (x := main_v83) (y := main_v84) writes 99 W _ _ _ _ rfl (by decide) (by decide)
  rw [holds_main_v83 W] at h
  exact h

/-- Operation 100: the buffer it writes ends holding its stage value. -/
theorem holds_main_v85 (W : Valuation τ sig (Elt F)) :
    after (ops (F := F)) W (Proc.devRef .tc main_v85) = val_main_v85 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h := at_binary (a := main_v75) (b := main_v84) (y := main_v85) writes 100 W _ _ _ _ rfl (by decide) (by decide) (by decide)
  rw [holds_main_v75 W, holds_main_v84 W] at h
  exact h

/-- Operation 101: the buffer it writes ends holding its stage value. -/
theorem holds_main_v86 (W : Valuation τ sig (Elt F)) :
    after (ops (F := F)) W (Proc.devRef .tc main_v86) = val_main_v86 (F := F) (W (Proc.devRef .tc main_arg1)) := by
  have h := at_unary (x := main_arg1) (y := main_v86) writes 101 W _ _ _ rfl (by decide) (by decide)
  rw [keep_main_arg1 W] at h
  exact h

/-- Operation 102: the buffer it writes ends holding its stage value. -/
theorem holds_main_v87 (W : Valuation τ sig (Elt F)) :
    after (ops (F := F)) W (Proc.devRef .tc main_v87) = val_main_v87 (F := F) (W (Proc.devRef .tc main_arg1)) := by
  have h := at_reshape (x := main_v86) (y := main_v87) writes 102 W _ _ _ _ rfl (by decide) (by decide)
  rw [holds_main_v86 W] at h
  exact h

/-- Operation 103: the buffer it writes ends holding its stage value. -/
theorem holds_main_v88 (W : Valuation τ sig (Elt F)) :
    after (ops (F := F)) W (Proc.devRef .tc main_v88) = val_main_v88 (F := F) (W (Proc.devRef .tc main_arg1)) := by
  have h := at_unary (x := main_arg1) (y := main_v88) writes 103 W _ _ _ rfl (by decide) (by decide)
  rw [keep_main_arg1 W] at h
  exact h

/-- Operation 104: the buffer it writes ends holding its stage value. -/
theorem holds_main_v89 (W : Valuation τ sig (Elt F)) :
    after (ops (F := F)) W (Proc.devRef .tc main_v89) = val_main_v89 (F := F) (W (Proc.devRef .tc main_arg1)) := by
  have h := at_reshape (x := main_v88) (y := main_v89) writes 104 W _ _ _ _ rfl (by decide) (by decide)
  rw [holds_main_v88 W] at h
  exact h

/-- Operation 105: the buffer it writes ends holding its stage value. -/
theorem holds_main_v90 (W : Valuation τ sig (Elt F)) :
    after (ops (F := F)) W (Proc.devRef .tc main_v90) = val_main_v90 (F := F) (W (Proc.devRef .tc main_arg2)) := by
  have h := at_unary (x := main_arg2) (y := main_v90) writes 105 W _ _ _ rfl (by decide) (by decide)
  rw [keep_main_arg2 W] at h
  exact h

/-- Operation 106: the buffer it writes ends holding its stage value. -/
theorem holds_main_c_7 (W : Valuation τ sig (Elt F)) :
    after (ops (F := F)) W (Proc.devRef .tc main_c_7) = val_main_c_7 (F := F) := by
  have h := at_nullary (y := main_c_7) writes 106 W _ _ rfl (by decide)
  exact h

/-- Operation 107: the buffer it writes ends holding its stage value. -/
theorem holds_main_v91 (W : Valuation τ sig (Elt F)) :
    after (ops (F := F)) W (Proc.devRef .tc main_v91) = val_main_v91 (F := F) := by
  have h := at_unary (x := main_c_7) (y := main_v91) writes 107 W _ _ _ rfl (by decide) (by decide)
  rw [holds_main_c_7 W] at h
  exact h

/-- Operation 108: the buffer it writes ends holding its stage value. -/
theorem holds_main_v92 (W : Valuation τ sig (Elt F)) :
    after (ops (F := F)) W (Proc.devRef .tc main_v92) = val_main_v92 (F := F) (W (Proc.devRef .tc main_arg1)) := by
  have h := at_binary (a := main_v89) (b := main_v91) (y := main_v92) writes 108 W _ _ _ _ rfl (by decide) (by decide) (by decide)
  rw [holds_main_v89 W, holds_main_v91 W] at h
  exact h

/-- Operation 109: the buffer it writes ends holding its stage value. -/
theorem holds_main_c_8 (W : Valuation τ sig (Elt F)) :
    after (ops (F := F)) W (Proc.devRef .tc main_c_8) = val_main_c_8 (F := F) := by
  have h := at_nullary (y := main_c_8) writes 109 W _ _ rfl (by decide)
  exact h

/-- Operation 110: the buffer it writes ends holding its stage value. -/
theorem holds_main_v93 (W : Valuation τ sig (Elt F)) :
    after (ops (F := F)) W (Proc.devRef .tc main_v93) = val_main_v93 (F := F) := by
  have h := at_unary (x := main_c_8) (y := main_v93) writes 110 W _ _ _ rfl (by decide) (by decide)
  rw [holds_main_c_8 W] at h
  exact h

/-- Operation 111: the buffer it writes ends holding its stage value. -/
theorem holds_main_v94 (W : Valuation τ sig (Elt F)) :
    after (ops (F := F)) W (Proc.devRef .tc main_v94) = val_main_v94 (F := F) (W (Proc.devRef .tc main_arg1)) := by
  have h := at_binary (a := main_v89) (b := main_v93) (y := main_v94) writes 111 W _ _ _ _ rfl (by decide) (by decide) (by decide)
  rw [holds_main_v89 W, holds_main_v93 W] at h
  exact h

/-- Operation 112: the buffer it writes ends holding its stage value. -/
theorem holds_main_v95 (W : Valuation τ sig (Elt F)) :
    after (ops (F := F)) W (Proc.devRef .tc main_v95) = val_main_v95 (F := F) (W (Proc.devRef .tc main_arg1)) := by
  have h := at_ternary (c := main_v92) (a := main_v94) (b := main_v89) (y := main_v95) writes 112 W _ _ _ _ _ rfl (by decide) (by decide) (by decide) (by decide)
  rw [holds_main_v92 W, holds_main_v94 W, holds_main_v89 W] at h
  exact h

/-- Operation 113: the buffer it writes ends holding its stage value. -/
theorem holds_main_v96 (W : Valuation τ sig (Elt F)) :
    after (ops (F := F)) W (Proc.devRef .tc main_v96) = val_main_v96 (F := F) (W (Proc.devRef .tc main_arg1)) := by
  have h := at_unary (x := main_v95) (y := main_v96) writes 113 W _ _ _ rfl (by decide) (by decide)
  rw [holds_main_v95 W] at h
  exact h

/-- Operation 114: the buffer it writes ends holding its stage value. -/
theorem holds_main_v97 (W : Valuation τ sig (Elt F)) :
    after (ops (F := F)) W (Proc.devRef .tc main_v97) = val_main_v97 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h := at_binary (a := main_v85) (b := main_v96) (y := main_v97) writes 114 W _ _ _ _ rfl (by decide) (by decide) (by decide)
  rw [holds_main_v85 W, holds_main_v96 W] at h
  exact h

/-- Operation 115: the buffer it writes ends holding its stage value. -/
theorem holds_main_v98 (W : Valuation τ sig (Elt F)) :
    after (ops (F := F)) W (Proc.devRef .tc main_v98) = val_main_v98 (F := F) (W (Proc.devRef .tc main_arg2)) := by
  have h := at_unary (x := main_v90) (y := main_v98) writes 115 W _ _ _ rfl (by decide) (by decide)
  rw [holds_main_v90 W] at h
  exact h

/-- Operation 116: the buffer it writes ends holding its stage value. -/
theorem holds_main_v99 (W : Valuation τ sig (Elt F)) :
    after (ops (F := F)) W (Proc.devRef .tc main_v99) = val_main_v99 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h := at_binary (a := main_v98) (b := main_v97) (y := main_v99) writes 116 W _ _ _ _ rfl (by decide) (by decide) (by decide)
  rw [holds_main_v98 W, holds_main_v97 W] at h
  exact h

/-- Operation 117: the buffer it writes ends holding its stage value. -/
theorem holds_main_cst_9 (W : Valuation τ sig (Elt F)) :
    after (ops (F := F)) W (Proc.devRef .tc main_cst_9) = val_main_cst_9 (F := F) := by
  have h := at_nullary (y := main_cst_9) writes 117 W _ _ rfl (by decide)
  exact h

/-- Operation 118: the buffer it writes ends holding its stage value. -/
theorem holds_main_v100 (W : Valuation τ sig (Elt F)) :
    after (ops (F := F)) W (Proc.devRef .tc main_v100) = val_main_v100 (F := F) := by
  have h := at_unary (x := main_cst_9) (y := main_v100) writes 118 W _ _ _ rfl (by decide) (by decide)
  rw [holds_main_cst_9 W] at h
  exact h

/-- Operation 119: the buffer it writes ends holding its stage value. -/
theorem holds_main_v101 (W : Valuation τ sig (Elt F)) :
    after (ops (F := F)) W (Proc.devRef .tc main_v101) = val_main_v101 (F := F) (W (Proc.devRef .tc main_arg1)) := by
  have h := at_unary (x := main_v87) (y := main_v101) writes 119 W _ _ _ rfl (by decide) (by decide)
  rw [holds_main_v87 W] at h
  exact h

/-- Operation 120: the buffer it writes ends holding its stage value. -/
theorem holds_main_v102 (W : Valuation τ sig (Elt F)) :
    after (ops (F := F)) W (Proc.devRef .tc main_v102) = val_main_v102 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h := at_ternary (c := main_v100) (a := main_v101) (b := main_v99) (y := main_v102) writes 120 W _ _ _ _ _ rfl (by decide) (by decide) (by decide) (by decide)
  rw [holds_main_v100 W, holds_main_v101 W, holds_main_v99 W] at h
  exact h

/-- Operation 121: the buffer it writes ends holding its stage value. -/
theorem holds_main_v103 (W : Valuation τ sig (Elt F)) :
    after (ops (F := F)) W (Proc.devRef .tc main_v103) = val_main_v103 (F := F) (W (Proc.devRef .tc main_arg6)) := by
  have h := at_unary (x := main_arg6) (y := main_v103) writes 121 W _ _ _ rfl (by decide) (by decide)
  rw [keep_main_arg6 W] at h
  exact h

/-- Operation 122: the buffer it writes ends holding its stage value. -/
theorem holds_main_v104 (W : Valuation τ sig (Elt F)) :
    after (ops (F := F)) W (Proc.devRef .tc main_v104) = val_main_v104 (F := F) (W (Proc.devRef .tc main_arg6)) := by
  have h := at_reshape (x := main_v103) (y := main_v104) writes 122 W _ _ _ _ rfl (by decide) (by decide)
  rw [holds_main_v103 W] at h
  exact h

/-- Operation 123: the buffer it writes ends holding its stage value. -/
theorem holds_main_v105 (W : Valuation τ sig (Elt F)) :
    after (ops (F := F)) W (Proc.devRef .tc main_v105) = val_main_v105 (F := F) (W (Proc.devRef .tc main_arg6)) := by
  have h := at_unary (x := main_v104) (y := main_v105) writes 123 W _ _ _ rfl (by decide) (by decide)
  rw [holds_main_v104 W] at h
  exact h

/-- Operation 124: the buffer it writes ends holding its stage value. -/
theorem holds_main_v106 (W : Valuation τ sig (Elt F)) :
    after (ops (F := F)) W (Proc.devRef .tc main_v106) = val_main_v106 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  have h := at_binary (a := main_v102) (b := main_v105) (y := main_v106) writes 124 W _ _ _ _ rfl (by decide) (by decide) (by decide)
  rw [holds_main_v102 W, holds_main_v105 W] at h
  exact h

/-- Operation 125: the buffer it writes ends holding its stage value. -/
theorem holds_main_v107 (W : Valuation τ sig (Elt F)) :
    after (ops (F := F)) W (Proc.devRef .tc main_v107) = val_main_v107 (F := F) (W (Proc.devRef .tc main_arg5)) := by
  have h := at_unary (x := main_arg5) (y := main_v107) writes 125 W _ _ _ rfl (by decide) (by decide)
  rw [keep_main_arg5 W] at h
  exact h

/-- Operation 126: the buffer it writes ends holding its stage value. -/
theorem holds_main_v108 (W : Valuation τ sig (Elt F)) :
    after (ops (F := F)) W (Proc.devRef .tc main_v108) = val_main_v108 (F := F) (W (Proc.devRef .tc main_arg5)) := by
  have h := at_reshape (x := main_v107) (y := main_v108) writes 126 W _ _ _ _ rfl (by decide) (by decide)
  rw [holds_main_v107 W] at h
  exact h

/-- Operation 127: the buffer it writes ends holding its stage value. -/
theorem holds_main_v109 (W : Valuation τ sig (Elt F)) :
    after (ops (F := F)) W (Proc.devRef .tc main_v109) = val_main_v109 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h := at_binary (a := main_v75) (b := main_v108) (y := main_v109) writes 127 W _ _ _ _ rfl (by decide) (by decide) (by decide)
  rw [holds_main_v75 W, holds_main_v108 W] at h
  exact h

/-- Operation 128: the buffer it writes ends holding its stage value. -/
theorem holds_main_v110 (W : Valuation τ sig (Elt F)) :
    after (ops (F := F)) W (Proc.devRef .tc main_v110) = val_main_v110 (F := F) (W (Proc.devRef .tc main_arg1)) := by
  have h := at_unary (x := main_arg1) (y := main_v110) writes 128 W _ _ _ rfl (by decide) (by decide)
  rw [keep_main_arg1 W] at h
  exact h

/-- Operation 129: the buffer it writes ends holding its stage value. -/
theorem holds_main_v111 (W : Valuation τ sig (Elt F)) :
    after (ops (F := F)) W (Proc.devRef .tc main_v111) = val_main_v111 (F := F) (W (Proc.devRef .tc main_arg1)) := by
  have h := at_reshape (x := main_v110) (y := main_v111) writes 129 W _ _ _ _ rfl (by decide) (by decide)
  rw [holds_main_v110 W] at h
  exact h

/-- Operation 130: the buffer it writes ends holding its stage value. -/
theorem holds_main_v112 (W : Valuation τ sig (Elt F)) :
    after (ops (F := F)) W (Proc.devRef .tc main_v112) = val_main_v112 (F := F) (W (Proc.devRef .tc main_arg1)) := by
  have h := at_unary (x := main_arg1) (y := main_v112) writes 130 W _ _ _ rfl (by decide) (by decide)
  rw [keep_main_arg1 W] at h
  exact h

/-- Operation 131: the buffer it writes ends holding its stage value. -/
theorem holds_main_v113 (W : Valuation τ sig (Elt F)) :
    after (ops (F := F)) W (Proc.devRef .tc main_v113) = val_main_v113 (F := F) (W (Proc.devRef .tc main_arg1)) := by
  have h := at_reshape (x := main_v112) (y := main_v113) writes 131 W _ _ _ _ rfl (by decide) (by decide)
  rw [holds_main_v112 W] at h
  exact h

/-- Operation 132: the buffer it writes ends holding its stage value. -/
theorem holds_main_v114 (W : Valuation τ sig (Elt F)) :
    after (ops (F := F)) W (Proc.devRef .tc main_v114) = val_main_v114 (F := F) (W (Proc.devRef .tc main_arg2)) := by
  have h := at_unary (x := main_arg2) (y := main_v114) writes 132 W _ _ _ rfl (by decide) (by decide)
  rw [keep_main_arg2 W] at h
  exact h

/-- Operation 133: the buffer it writes ends holding its stage value. -/
theorem holds_main_c_10 (W : Valuation τ sig (Elt F)) :
    after (ops (F := F)) W (Proc.devRef .tc main_c_10) = val_main_c_10 (F := F) := by
  have h := at_nullary (y := main_c_10) writes 133 W _ _ rfl (by decide)
  exact h

/-- Operation 134: the buffer it writes ends holding its stage value. -/
theorem holds_main_v115 (W : Valuation τ sig (Elt F)) :
    after (ops (F := F)) W (Proc.devRef .tc main_v115) = val_main_v115 (F := F) := by
  have h := at_unary (x := main_c_10) (y := main_v115) writes 134 W _ _ _ rfl (by decide) (by decide)
  rw [holds_main_c_10 W] at h
  exact h

/-- Operation 135: the buffer it writes ends holding its stage value. -/
theorem holds_main_v116 (W : Valuation τ sig (Elt F)) :
    after (ops (F := F)) W (Proc.devRef .tc main_v116) = val_main_v116 (F := F) (W (Proc.devRef .tc main_arg1)) := by
  have h := at_binary (a := main_v113) (b := main_v115) (y := main_v116) writes 135 W _ _ _ _ rfl (by decide) (by decide) (by decide)
  rw [holds_main_v113 W, holds_main_v115 W] at h
  exact h

/-- Operation 136: the buffer it writes ends holding its stage value. -/
theorem holds_main_c_11 (W : Valuation τ sig (Elt F)) :
    after (ops (F := F)) W (Proc.devRef .tc main_c_11) = val_main_c_11 (F := F) := by
  have h := at_nullary (y := main_c_11) writes 136 W _ _ rfl (by decide)
  exact h

/-- Operation 137: the buffer it writes ends holding its stage value. -/
theorem holds_main_v117 (W : Valuation τ sig (Elt F)) :
    after (ops (F := F)) W (Proc.devRef .tc main_v117) = val_main_v117 (F := F) := by
  have h := at_unary (x := main_c_11) (y := main_v117) writes 137 W _ _ _ rfl (by decide) (by decide)
  rw [holds_main_c_11 W] at h
  exact h

/-- Operation 138: the buffer it writes ends holding its stage value. -/
theorem holds_main_v118 (W : Valuation τ sig (Elt F)) :
    after (ops (F := F)) W (Proc.devRef .tc main_v118) = val_main_v118 (F := F) (W (Proc.devRef .tc main_arg1)) := by
  have h := at_binary (a := main_v113) (b := main_v117) (y := main_v118) writes 138 W _ _ _ _ rfl (by decide) (by decide) (by decide)
  rw [holds_main_v113 W, holds_main_v117 W] at h
  exact h

/-- Operation 139: the buffer it writes ends holding its stage value. -/
theorem holds_main_v119 (W : Valuation τ sig (Elt F)) :
    after (ops (F := F)) W (Proc.devRef .tc main_v119) = val_main_v119 (F := F) (W (Proc.devRef .tc main_arg1)) := by
  have h := at_ternary (c := main_v116) (a := main_v118) (b := main_v113) (y := main_v119) writes 139 W _ _ _ _ _ rfl (by decide) (by decide) (by decide) (by decide)
  rw [holds_main_v116 W, holds_main_v118 W, holds_main_v113 W] at h
  exact h

/-- Operation 140: the buffer it writes ends holding its stage value. -/
theorem holds_main_v120 (W : Valuation τ sig (Elt F)) :
    after (ops (F := F)) W (Proc.devRef .tc main_v120) = val_main_v120 (F := F) (W (Proc.devRef .tc main_arg1)) := by
  have h := at_unary (x := main_v119) (y := main_v120) writes 140 W _ _ _ rfl (by decide) (by decide)
  rw [holds_main_v119 W] at h
  exact h

/-- Operation 141: the buffer it writes ends holding its stage value. -/
theorem holds_main_v121 (W : Valuation τ sig (Elt F)) :
    after (ops (F := F)) W (Proc.devRef .tc main_v121) = val_main_v121 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h := at_binary (a := main_v109) (b := main_v120) (y := main_v121) writes 141 W _ _ _ _ rfl (by decide) (by decide) (by decide)
  rw [holds_main_v109 W, holds_main_v120 W] at h
  exact h

/-- Operation 142: the buffer it writes ends holding its stage value. -/
theorem holds_main_v122 (W : Valuation τ sig (Elt F)) :
    after (ops (F := F)) W (Proc.devRef .tc main_v122) = val_main_v122 (F := F) (W (Proc.devRef .tc main_arg2)) := by
  have h := at_unary (x := main_v114) (y := main_v122) writes 142 W _ _ _ rfl (by decide) (by decide)
  rw [holds_main_v114 W] at h
  exact h

/-- Operation 143: the buffer it writes ends holding its stage value. -/
theorem holds_main_v123 (W : Valuation τ sig (Elt F)) :
    after (ops (F := F)) W (Proc.devRef .tc main_v123) = val_main_v123 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h := at_binary (a := main_v122) (b := main_v121) (y := main_v123) writes 143 W _ _ _ _ rfl (by decide) (by decide) (by decide)
  rw [holds_main_v122 W, holds_main_v121 W] at h
  exact h

/-- Operation 144: the buffer it writes ends holding its stage value. -/
theorem holds_main_cst_12 (W : Valuation τ sig (Elt F)) :
    after (ops (F := F)) W (Proc.devRef .tc main_cst_12) = val_main_cst_12 (F := F) := by
  have h := at_nullary (y := main_cst_12) writes 144 W _ _ rfl (by decide)
  exact h

/-- Operation 145: the buffer it writes ends holding its stage value. -/
theorem holds_main_v124 (W : Valuation τ sig (Elt F)) :
    after (ops (F := F)) W (Proc.devRef .tc main_v124) = val_main_v124 (F := F) := by
  have h := at_unary (x := main_cst_12) (y := main_v124) writes 145 W _ _ _ rfl (by decide) (by decide)
  rw [holds_main_cst_12 W] at h
  exact h

/-- Operation 146: the buffer it writes ends holding its stage value. -/
theorem holds_main_v125 (W : Valuation τ sig (Elt F)) :
    after (ops (F := F)) W (Proc.devRef .tc main_v125) = val_main_v125 (F := F) (W (Proc.devRef .tc main_arg1)) := by
  have h := at_unary (x := main_v111) (y := main_v125) writes 146 W _ _ _ rfl (by decide) (by decide)
  rw [holds_main_v111 W] at h
  exact h

/-- Operation 147: the buffer it writes ends holding its stage value. -/
theorem holds_main_v126 (W : Valuation τ sig (Elt F)) :
    after (ops (F := F)) W (Proc.devRef .tc main_v126) = val_main_v126 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h := at_ternary (c := main_v124) (a := main_v125) (b := main_v123) (y := main_v126) writes 147 W _ _ _ _ _ rfl (by decide) (by decide) (by decide) (by decide)
  rw [holds_main_v124 W, holds_main_v125 W, holds_main_v123 W] at h
  exact h

/-- Operation 148: the buffer it writes ends holding its stage value. -/
theorem holds_main_v127 (W : Valuation τ sig (Elt F)) :
    after (ops (F := F)) W (Proc.devRef .tc main_v127) = val_main_v127 (F := F) (W (Proc.devRef .tc main_arg1)) := by
  have h := at_unary (x := main_arg1) (y := main_v127) writes 148 W _ _ _ rfl (by decide) (by decide)
  rw [keep_main_arg1 W] at h
  exact h

/-- Operation 149: the buffer it writes ends holding its stage value. -/
theorem holds_main_v128 (W : Valuation τ sig (Elt F)) :
    after (ops (F := F)) W (Proc.devRef .tc main_v128) = val_main_v128 (F := F) (W (Proc.devRef .tc main_arg1)) := by
  have h := at_reshape (x := main_v127) (y := main_v128) writes 149 W _ _ _ _ rfl (by decide) (by decide)
  rw [holds_main_v127 W] at h
  exact h

/-- Operation 150: the buffer it writes ends holding its stage value. -/
theorem holds_main_v129 (W : Valuation τ sig (Elt F)) :
    after (ops (F := F)) W (Proc.devRef .tc main_v129) = val_main_v129 (F := F) (W (Proc.devRef .tc main_arg1)) := by
  have h := at_unary (x := main_arg1) (y := main_v129) writes 150 W _ _ _ rfl (by decide) (by decide)
  rw [keep_main_arg1 W] at h
  exact h

/-- Operation 151: the buffer it writes ends holding its stage value. -/
theorem holds_main_v130 (W : Valuation τ sig (Elt F)) :
    after (ops (F := F)) W (Proc.devRef .tc main_v130) = val_main_v130 (F := F) (W (Proc.devRef .tc main_arg1)) := by
  have h := at_reshape (x := main_v129) (y := main_v130) writes 151 W _ _ _ _ rfl (by decide) (by decide)
  rw [holds_main_v129 W] at h
  exact h

/-- Operation 152: the buffer it writes ends holding its stage value. -/
theorem holds_main_v131 (W : Valuation τ sig (Elt F)) :
    after (ops (F := F)) W (Proc.devRef .tc main_v131) = val_main_v131 (F := F) (W (Proc.devRef .tc main_arg2)) := by
  have h := at_unary (x := main_arg2) (y := main_v131) writes 152 W _ _ _ rfl (by decide) (by decide)
  rw [keep_main_arg2 W] at h
  exact h

/-- Operation 153: the buffer it writes ends holding its stage value. -/
theorem holds_main_c_13 (W : Valuation τ sig (Elt F)) :
    after (ops (F := F)) W (Proc.devRef .tc main_c_13) = val_main_c_13 (F := F) := by
  have h := at_nullary (y := main_c_13) writes 153 W _ _ rfl (by decide)
  exact h

/-- Operation 154: the buffer it writes ends holding its stage value. -/
theorem holds_main_v132 (W : Valuation τ sig (Elt F)) :
    after (ops (F := F)) W (Proc.devRef .tc main_v132) = val_main_v132 (F := F) := by
  have h := at_unary (x := main_c_13) (y := main_v132) writes 154 W _ _ _ rfl (by decide) (by decide)
  rw [holds_main_c_13 W] at h
  exact h

/-- Operation 155: the buffer it writes ends holding its stage value. -/
theorem holds_main_v133 (W : Valuation τ sig (Elt F)) :
    after (ops (F := F)) W (Proc.devRef .tc main_v133) = val_main_v133 (F := F) (W (Proc.devRef .tc main_arg1)) := by
  have h := at_binary (a := main_v130) (b := main_v132) (y := main_v133) writes 155 W _ _ _ _ rfl (by decide) (by decide) (by decide)
  rw [holds_main_v130 W, holds_main_v132 W] at h
  exact h

/-- Operation 156: the buffer it writes ends holding its stage value. -/
theorem holds_main_c_14 (W : Valuation τ sig (Elt F)) :
    after (ops (F := F)) W (Proc.devRef .tc main_c_14) = val_main_c_14 (F := F) := by
  have h := at_nullary (y := main_c_14) writes 156 W _ _ rfl (by decide)
  exact h

/-- Operation 157: the buffer it writes ends holding its stage value. -/
theorem holds_main_v134 (W : Valuation τ sig (Elt F)) :
    after (ops (F := F)) W (Proc.devRef .tc main_v134) = val_main_v134 (F := F) := by
  have h := at_unary (x := main_c_14) (y := main_v134) writes 157 W _ _ _ rfl (by decide) (by decide)
  rw [holds_main_c_14 W] at h
  exact h

/-- Operation 158: the buffer it writes ends holding its stage value. -/
theorem holds_main_v135 (W : Valuation τ sig (Elt F)) :
    after (ops (F := F)) W (Proc.devRef .tc main_v135) = val_main_v135 (F := F) (W (Proc.devRef .tc main_arg1)) := by
  have h := at_binary (a := main_v130) (b := main_v134) (y := main_v135) writes 158 W _ _ _ _ rfl (by decide) (by decide) (by decide)
  rw [holds_main_v130 W, holds_main_v134 W] at h
  exact h

/-- Operation 159: the buffer it writes ends holding its stage value. -/
theorem holds_main_v136 (W : Valuation τ sig (Elt F)) :
    after (ops (F := F)) W (Proc.devRef .tc main_v136) = val_main_v136 (F := F) (W (Proc.devRef .tc main_arg1)) := by
  have h := at_ternary (c := main_v133) (a := main_v135) (b := main_v130) (y := main_v136) writes 159 W _ _ _ _ _ rfl (by decide) (by decide) (by decide) (by decide)
  rw [holds_main_v133 W, holds_main_v135 W, holds_main_v130 W] at h
  exact h

/-- Operation 160: the buffer it writes ends holding its stage value. -/
theorem holds_main_v137 (W : Valuation τ sig (Elt F)) :
    after (ops (F := F)) W (Proc.devRef .tc main_v137) = val_main_v137 (F := F) (W (Proc.devRef .tc main_arg1)) := by
  have h := at_unary (x := main_v136) (y := main_v137) writes 160 W _ _ _ rfl (by decide) (by decide)
  rw [holds_main_v136 W] at h
  exact h

/-- Operation 161: the buffer it writes ends holding its stage value. -/
theorem holds_main_v138 (W : Valuation τ sig (Elt F)) :
    after (ops (F := F)) W (Proc.devRef .tc main_v138) = val_main_v138 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h := at_binary (a := main_v126) (b := main_v137) (y := main_v138) writes 161 W _ _ _ _ rfl (by decide) (by decide) (by decide)
  rw [holds_main_v126 W, holds_main_v137 W] at h
  exact h

/-- Operation 162: the buffer it writes ends holding its stage value. -/
theorem holds_main_v139 (W : Valuation τ sig (Elt F)) :
    after (ops (F := F)) W (Proc.devRef .tc main_v139) = val_main_v139 (F := F) (W (Proc.devRef .tc main_arg2)) := by
  have h := at_unary (x := main_v131) (y := main_v139) writes 162 W _ _ _ rfl (by decide) (by decide)
  rw [holds_main_v131 W] at h
  exact h

/-- Operation 163: the buffer it writes ends holding its stage value. -/
theorem holds_main_v140 (W : Valuation τ sig (Elt F)) :
    after (ops (F := F)) W (Proc.devRef .tc main_v140) = val_main_v140 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h := at_binary (a := main_v139) (b := main_v138) (y := main_v140) writes 163 W _ _ _ _ rfl (by decide) (by decide) (by decide)
  rw [holds_main_v139 W, holds_main_v138 W] at h
  exact h

/-- Operation 164: the buffer it writes ends holding its stage value. -/
theorem holds_main_cst_15 (W : Valuation τ sig (Elt F)) :
    after (ops (F := F)) W (Proc.devRef .tc main_cst_15) = val_main_cst_15 (F := F) := by
  have h := at_nullary (y := main_cst_15) writes 164 W _ _ rfl (by decide)
  exact h

/-- Operation 165: the buffer it writes ends holding its stage value. -/
theorem holds_main_v141 (W : Valuation τ sig (Elt F)) :
    after (ops (F := F)) W (Proc.devRef .tc main_v141) = val_main_v141 (F := F) := by
  have h := at_unary (x := main_cst_15) (y := main_v141) writes 165 W _ _ _ rfl (by decide) (by decide)
  rw [holds_main_cst_15 W] at h
  exact h

/-- Operation 166: the buffer it writes ends holding its stage value. -/
theorem holds_main_v142 (W : Valuation τ sig (Elt F)) :
    after (ops (F := F)) W (Proc.devRef .tc main_v142) = val_main_v142 (F := F) (W (Proc.devRef .tc main_arg1)) := by
  have h := at_unary (x := main_v128) (y := main_v142) writes 166 W _ _ _ rfl (by decide) (by decide)
  rw [holds_main_v128 W] at h
  exact h

/-- Operation 167: the buffer it writes ends holding its stage value. -/
theorem holds_main_v143 (W : Valuation τ sig (Elt F)) :
    after (ops (F := F)) W (Proc.devRef .tc main_v143) = val_main_v143 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have h := at_ternary (c := main_v141) (a := main_v142) (b := main_v140) (y := main_v143) writes 167 W _ _ _ _ _ rfl (by decide) (by decide) (by decide) (by decide)
  rw [holds_main_v141 W, holds_main_v142 W, holds_main_v140 W] at h
  exact h

/-- Operation 168: the buffer it writes ends holding its stage value. -/
theorem holds_main_v144 (W : Valuation τ sig (Elt F)) :
    after (ops (F := F)) W (Proc.devRef .tc main_v144) = val_main_v144 (F := F) (W (Proc.devRef .tc main_arg6)) := by
  have h := at_unary (x := main_arg6) (y := main_v144) writes 168 W _ _ _ rfl (by decide) (by decide)
  rw [keep_main_arg6 W] at h
  exact h

/-- Operation 169: the buffer it writes ends holding its stage value. -/
theorem holds_main_v145 (W : Valuation τ sig (Elt F)) :
    after (ops (F := F)) W (Proc.devRef .tc main_v145) = val_main_v145 (F := F) (W (Proc.devRef .tc main_arg6)) := by
  have h := at_reshape (x := main_v144) (y := main_v145) writes 169 W _ _ _ _ rfl (by decide) (by decide)
  rw [holds_main_v144 W] at h
  exact h

/-- Operation 170: the buffer it writes ends holding its stage value. -/
theorem holds_main_v146 (W : Valuation τ sig (Elt F)) :
    after (ops (F := F)) W (Proc.devRef .tc main_v146) = val_main_v146 (F := F) (W (Proc.devRef .tc main_arg6)) := by
  have h := at_unary (x := main_v145) (y := main_v146) writes 170 W _ _ _ rfl (by decide) (by decide)
  rw [holds_main_v145 W] at h
  exact h

/-- Operation 171: the buffer it writes ends holding its stage value. -/
theorem holds_main_v147 (W : Valuation τ sig (Elt F)) :
    after (ops (F := F)) W (Proc.devRef .tc main_v147) = val_main_v147 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  have h := at_binary (a := main_v143) (b := main_v146) (y := main_v147) writes 171 W _ _ _ _ rfl (by decide) (by decide) (by decide)
  rw [holds_main_v143 W, holds_main_v146 W] at h
  exact h

/-- Operation 172: the buffer it writes ends holding its stage value. -/
theorem holds_main_v148 (W : Valuation τ sig (Elt F)) :
    after (ops (F := F)) W (Proc.devRef .tc main_v148) = val_main_v148 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  have h := at_nary3 (x := main_v82) (a := main_v106) (b := main_v147) (y := main_v148) writes 172 W _ _ _ rfl (by decide) (by decide) (by decide) (by decide)
  rw [holds_main_v82 W, holds_main_v106 W, holds_main_v147 W] at h
  exact h

/-- Operation 173: the buffer it writes ends holding its stage value. -/
theorem holds_main_v149 (W : Valuation τ sig (Elt F)) :
    after (ops (F := F)) W (Proc.devRef .tc main_v149) = val_main_v149 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  have h := at_binary (a := main_v148) (b := main_arg7) (y := main_v149) writes 173 W _ _ _ _ rfl (by decide) (by decide) (by decide)
  rw [holds_main_v148 W, keep_main_arg7 W] at h
  exact h

/-- Operation 174: the buffer it writes ends holding its stage value. -/
theorem holds_main_v150 (W : Valuation τ sig (Elt F)) :
    after (ops (F := F)) W (Proc.devRef .tc main_v150) = val_main_v150 (F := F) (W (Proc.devRef .tc main_arg8)) := by
  have h := at_unary (x := main_arg8) (y := main_v150) writes 174 W _ _ _ rfl (by decide) (by decide)
  rw [keep_main_arg8 W] at h
  exact h

/-- Operation 175: the buffer it writes ends holding its stage value. -/
theorem holds_main_v151 (W : Valuation τ sig (Elt F)) :
    after (ops (F := F)) W (Proc.devRef .tc main_v151) = val_main_v151 (F := F) (W (Proc.devRef .tc main_arg8)) := by
  have h := at_unary (x := main_v150) (y := main_v151) writes 175 W _ _ _ rfl (by decide) (by decide)
  rw [holds_main_v150 W] at h
  exact h

/-- Operation 176: the buffer it writes ends holding its stage value. -/
theorem holds_main_v152 (W : Valuation τ sig (Elt F)) :
    after (ops (F := F)) W (Proc.devRef .tc main_v152) = val_main_v152 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have h := at_binary (a := main_v149) (b := main_v151) (y := main_v152) writes 176 W _ _ _ _ rfl (by decide) (by decide) (by decide)
  rw [holds_main_v149 W, holds_main_v151 W] at h
  exact h

/-- Operation 177: the buffer it writes ends holding its stage value. -/
theorem holds_main_call3_cst (W : Valuation τ sig (Elt F)) :
    after (ops (F := F)) W (Proc.devRef .tc main_call3_cst) = val_main_call3_cst (F := F) := by
  have h := at_lnullary (y := main_call3_cst) writes 177 W _ _ _ rfl (by decide)
  exact h

/-- Operation 178: the buffer it writes ends holding its stage value. -/
theorem holds_main_call3_v0 (W : Valuation τ sig (Elt F)) :
    after (ops (F := F)) W (Proc.devRef .tc main_call3_v0) = val_main_call3_v0 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have h := at_lbinary (a := main_v152) (b := main_call3_cst) (y := main_call3_v0) writes 178 W _ _ _ _ _ _ _ rfl (by decide) (by decide) (by decide)
  rw [holds_main_v152 W, holds_main_call3_cst W] at h
  exact h

/-- Operation 179: the buffer it writes ends holding its stage value. -/
theorem holds_main_call3_cst_0 (W : Valuation τ sig (Elt F)) :
    after (ops (F := F)) W (Proc.devRef .tc main_call3_cst_0) = val_main_call3_cst_0 (F := F) := by
  have h := at_lnullary (y := main_call3_cst_0) writes 179 W _ _ _ rfl (by decide)
  exact h

/-- Operation 180: the buffer it writes ends holding its stage value. -/
theorem holds_main_call3_v1 (W : Valuation τ sig (Elt F)) :
    after (ops (F := F)) W (Proc.devRef .tc main_call3_v1) = val_main_call3_v1 (F := F) := by
  have h := at_lunary (x := main_call3_cst_0) (y := main_call3_v1) writes 180 W _ _ _ _ _ rfl (by decide) (by decide)
  rw [holds_main_call3_cst_0 W] at h
  exact h

/-- Operation 181: the buffer it writes ends holding its stage value. -/
theorem holds_main_call3_v2 (W : Valuation τ sig (Elt F)) :
    after (ops (F := F)) W (Proc.devRef .tc main_call3_v2) = val_main_call3_v2 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have h := at_lbinary (a := main_call3_v1) (b := main_call3_v0) (y := main_call3_v2) writes 181 W _ _ _ _ _ _ _ rfl (by decide) (by decide) (by decide)
  rw [holds_main_call3_v1 W, holds_main_call3_v0 W] at h
  exact h

/-- Operation 182: the buffer it writes ends holding its stage value. -/
theorem holds_main_call3_v3 (W : Valuation τ sig (Elt F)) :
    after (ops (F := F)) W (Proc.devRef .tc main_call3_v3) = val_main_call3_v3 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have h := at_lunary (x := main_call3_v2) (y := main_call3_v3) writes 182 W _ _ _ _ _ rfl (by decide) (by decide)
  rw [holds_main_call3_v2 W] at h
  exact h

/-- Operation 183: the buffer it writes ends holding its stage value. -/
theorem holds_main_call3_v4 (W : Valuation τ sig (Elt F)) :
    after (ops (F := F)) W (Proc.devRef .tc main_call3_v4) = val_main_call3_v4 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have h := at_lunary (x := main_call3_v3) (y := main_call3_v4) writes 183 W _ _ _ _ _ rfl (by decide) (by decide)
  rw [holds_main_call3_v3 W] at h
  exact h

/-- Operation 184: the buffer it writes ends holding its stage value. -/
theorem holds_main_call3_v5 (W : Valuation τ sig (Elt F)) :
    after (ops (F := F)) W (Proc.devRef .tc main_call3_v5) = val_main_call3_v5 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have h := at_lbinary (a := main_v152) (b := main_call3_v4) (y := main_call3_v5) writes 184 W _ _ _ _ _ _ _ rfl (by decide) (by decide) (by decide)
  rw [holds_main_v152 W, holds_main_call3_v4 W] at h
  exact h

/-- Operation 185: the buffer it writes ends holding its stage value. -/
theorem holds_main_call3_v6 (W : Valuation τ sig (Elt F)) :
    after (ops (F := F)) W (Proc.devRef .tc main_call3_v6) = val_main_call3_v6 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have h := at_lunary (x := main_call3_v5) (y := main_call3_v6) writes 185 W _ _ _ _ _ rfl (by decide) (by decide)
  rw [holds_main_call3_v5 W] at h
  exact h

/-- Operation 186: the buffer it writes ends holding its stage value. -/
theorem holds_main_call3_cst_1 (W : Valuation τ sig (Elt F)) :
    after (ops (F := F)) W (Proc.devRef .tc main_call3_cst_1) = val_main_call3_cst_1 (F := F) := by
  have h := at_lnullary (y := main_call3_cst_1) writes 186 W _ _ _ rfl (by decide)
  exact h

/-- Operation 187: the buffer it writes ends holding its stage value. -/
theorem holds_main_call3_v7 (W : Valuation τ sig (Elt F)) :
    after (ops (F := F)) W (Proc.devRef .tc main_call3_v7) = val_main_call3_v7 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have h := at_lbinary (a := main_call3_v6) (b := main_call3_cst_1) (y := main_call3_v7) writes 187 W _ _ _ _ _ _ _ rfl (by decide) (by decide) (by decide)
  rw [holds_main_call3_v6 W, holds_main_call3_cst_1 W] at h
  exact h

/-- Operation 188: the buffer it writes ends holding its stage value. -/
theorem holds_main_call3_v8 (W : Valuation τ sig (Elt F)) :
    after (ops (F := F)) W (Proc.devRef .tc main_call3_v8) = val_main_call3_v8 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have h := at_lunary (x := main_call3_v7) (y := main_call3_v8) writes 188 W _ _ _ _ _ rfl (by decide) (by decide)
  rw [holds_main_call3_v7 W] at h
  exact h

/-- Operation 189: the buffer it writes ends holding its stage value. -/
theorem holds_main_call3_v9 (W : Valuation τ sig (Elt F)) :
    after (ops (F := F)) W (Proc.devRef .tc main_call3_v9) = val_main_call3_v9 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have h := at_lunary (x := main_call3_v8) (y := main_call3_v9) writes 189 W _ _ _ _ _ rfl (by decide) (by decide)
  rw [holds_main_call3_v8 W] at h
  exact h

/-- Operation 190: the buffer it writes ends holding its stage value. -/
theorem holds_main_call3_v10 (W : Valuation τ sig (Elt F)) :
    after (ops (F := F)) W (Proc.devRef .tc main_call3_v10) = val_main_call3_v10 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have h := at_lunary (x := main_call3_v9) (y := main_call3_v10) writes 190 W _ _ _ _ _ rfl (by decide) (by decide)
  rw [holds_main_call3_v9 W] at h
  exact h

/-- Operation 191: the buffer it writes ends holding its stage value. -/
theorem holds_main_v153 (W : Valuation τ sig (Elt F)) :
    after (ops (F := F)) W (Proc.devRef .tc main_v153) = val_main_v153 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have h := at_lbinary (a := main_call3_v5) (b := main_call3_v10) (y := main_v153) writes 191 W _ _ _ _ _ _ _ rfl (by decide) (by decide) (by decide)
  rw [holds_main_call3_v5 W, holds_main_call3_v10 W] at h
  exact h

end Cert.ReferenceIdeal.RefRun

end
-- ==== Proof.RefRun.lean ====
/-
  The reference program's run, read one operation at a time.

  The reference is a straight line of 192 host operations in single-assignment form: every operation writes one buffer
  and no buffer is written twice. So the contents a buffer ends with are the operation's function of the contents its
  operands end with, and, reading the line in order, each buffer ends holding its stage value: the value of its
  operation as a function of the program's arguments. The arguments themselves are never written.
-/
import proofs.«417311_j57097295233451_3_alg».proof.Proof.RunP
import proofs.«417311_j57097295233451_3_alg».proof.Proof.ReadP
import proofs.«417311_j57097295233451_3_alg».proof.Proof.LibStretch
import proofs.«417311_j57097295233451_3_alg».proof.Proof.LibSsa
import proofs.«417311_j57097295233451_3_alg».proof.Proof.LibSsaT
import proofs.«417311_j57097295233451_3_alg».proof.Proof.LibNary
import proofs.«417311_j57097295233451_3_alg».proof.Proof.RefRunSteps0
import proofs.«417311_j57097295233451_3_alg».proof.Proof.RefRunSteps1

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Cert.LibStretch Cert.LibSsa

variable {F : FTy → Type} [FloatOps F]

/-- On every device, from any memory with zero counters: every weakly fair execution of the reference program
    terminates, its result buffer holds the last stage value of the arguments, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v153) = val_main_v153 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(h c main_v153).trans (holds_main_v153 (launchContents m c)),
      (h c main_arg0).trans (keep_main_arg0 (launchContents m c)),
      (h c main_arg1).trans (keep_main_arg1 (launchContents m c)),
      (h c main_arg2).trans (keep_main_arg2 (launchContents m c)),
      (h c main_arg3).trans (keep_main_arg3 (launchContents m c)),
      (h c main_arg4).trans (keep_main_arg4 (launchContents m c)),
      (h c main_arg5).trans (keep_main_arg5 (launchContents m c)),
      (h c main_arg6).trans (keep_main_arg6 (launchContents m c)),
      (h c main_arg7).trans (keep_main_arg7 (launchContents m c)),
      (h c main_arg8).trans (keep_main_arg8 (launchContents m c))⟩)
    (run_seq scopedRefs_eq scopedSems_eq defs main (fun _ => ops) main_eq (fun _ => ops_sub) m ρ
      (fun _ => List.forall_iff_forall_mem.mp ops_fresh))

end Cert.ReferenceIdeal.RefRun

end
-- ==== Proof.Algebraic.lean ====
/-
  The two idealized programs end with equal results.

  Run from memories that agree on the nine arguments, the kernel program's result buffer ends holding the value the
  reference program composes from its arguments (the first-stage matrices, their propagations, the second-stage
  matrices, their propagations, the log-softmax of the final projection), read at the kernel's arguments; the
  reference program's result buffer ends holding the same composed value of its own arguments, which are the same arrays.
-/
import proofs.«417311_j57097295233451_3_alg».proof.Defs
import proofs.«417311_j57097295233451_3_alg».proof.Proof.KRun
import proofs.«417311_j57097295233451_3_alg».proof.Proof.KVal
import proofs.«417311_j57097295233451_3_alg».proof.Proof.RefRun
import proofs.«417311_j57097295233451_3_alg».proof.Proof.Gen.Pre_finite_inputs

noncomputable section

namespace Cert.Proof

open Idealize.ShloMosaic Idealize.ShloMosaic.TcCoe Idealize.SL.Sem

/-- The reference program runs, and leaves its arguments as launched. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.RefRun.run (F := Ideal) m ρ)

/-- Both idealized programs run, from memories agreeing on the arguments, to the same result: the reference's composed
    value of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v153 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KVal.e_v129 m ρ c), (h c).2⟩)
      (Cert.KernelIdeal.KRun.run_main (F := Ideal) m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5, h6, h7, h8⟩ := hagree c
    rw [h0, h1, h2, h3, h4, h5, h6, h7, h8]

end Cert.Proof

end
-- ==== Proof.lean ====
/-
  The certificate: the kernel program, its idealization and the idealized reference each run to the end without a fault
  and leave their arguments as launched; the idealization rewrote nothing; and the two idealized programs, run from
  memories that agree on the arguments, end with equal results as extended reals. The kernel computes the second-stage
  and final projections as three partial products over the row blocks of the weight where the reference multiplies the
  side-by-side concatenation once: over the extended reals a sum over 384 terms is the sum of its three runs of 128,
  whatever the values. The sparse propagation is the same host computation in both programs.
-/
import proofs.«417311_j57097295233451_3_alg».proof.Defs
import proofs.«417311_j57097295233451_3_alg».proof.Proof.Gen.Kernel
import proofs.«417311_j57097295233451_3_alg».proof.Proof.Gen.Kernel.Skeleton
import proofs.«417311_j57097295233451_3_alg».proof.Proof.Gen.Kernel.Launch
import proofs.«417311_j57097295233451_3_alg».proof.Proof.Gen.Kernel.Points
import proofs.«417311_j57097295233451_3_alg».proof.Proof.Gen.Kernel.Frame
import proofs.«417311_j57097295233451_3_alg».proof.Proof.Gen.KernelIdeal
import proofs.«417311_j57097295233451_3_alg».proof.Proof.Gen.KernelIdeal.Skeleton
import proofs.«417311_j57097295233451_3_alg».proof.Proof.Gen.KernelIdeal.Launch
import proofs.«417311_j57097295233451_3_alg».proof.Proof.Gen.KernelIdeal.Points
import proofs.«417311_j57097295233451_3_alg».proof.Proof.Gen.KernelIdeal.Frame
import proofs.«417311_j57097295233451_3_alg».proof.Proof.Gen.ReferenceIdeal
import proofs.«417311_j57097295233451_3_alg».proof.Proof.Gen.Pre_finite_inputs
import proofs.«417311_j57097295233451_3_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
